-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : FVec F S16777216 .f32) (main_arg2 : FVec F S16777216 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  let main_v9 : FVec F S16777216 .f32 := Host.absf main_arg2
  let main_cst_2 : FVec F S_ .f32 := constant S_ .f32 0x7F800000#32
  let main_v10 : FVec F S16777216 .f32 := broadcastInDim S16777216 ![] bcast_S_S16777216 main_cst_2
  let main_v11 : IVec S16777216 1 := cmpf .olt main_v9 main_v10
  let main_c_3 : IVec S_ 1 := constantI S_ 1 1#1
  let main_v12 : IVec S_ 1 := (fun x v => Host.reduce IntOp.andi x v reducesTo_S16777216_S_d0 h_S_) main_v11 main_c_3
  let main_v13 : IVec S_ 1 := andi main_v8 main_v12
  main_v13
-- ==== Kernel.lean ====
abbrev S16777216 : Shape := ⟨1, ![16777216]⟩
abbrev S131072x128 : Shape := ⟨2, ![131072, 128]⟩
abbrev S2x24x128 : Shape := ⟨3, ![2, 24, 128]⟩
abbrev S4096x128 : Shape := ⟨2, ![4096, 128]⟩
abbrev S1x24x128 : Shape := ⟨3, ![1, 24, 128]⟩
abbrev S24x128 : Shape := ⟨2, ![24, 128]⟩
abbrev S128 : Shape := ⟨1, ![128]⟩
abbrev S1x128 : Shape := ⟨2, ![1, 128]⟩
abbrev S_ : Shape := ⟨0, ![]⟩
abbrev S24 : Shape := ⟨1, ![24]⟩
abbrev S1 : Shape := ⟨1, ![1]⟩
abbrev S9 : Shape := ⟨1, ![9]⟩
abbrev S8 : Shape := ⟨1, ![8]⟩
abbrev S10 : Shape := ⟨1, ![10]⟩

abbrev nBuf : Space → Nat
  | .hbm => 63
  | .vmem => 9
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .f32⟩
  | .hbm, ⟨3, _⟩ => ⟨S131072x128, .f32⟩
  | .hbm, ⟨4, _⟩ => ⟨S131072x128, .f32⟩
  | .hbm, ⟨5, _⟩ => ⟨S131072x128, .f32⟩
  | .hbm, ⟨6, _⟩ => ⟨S2x24x128, .f32⟩
  | .hbm, ⟨7, _⟩ => ⟨S_, .f32⟩
  | .hbm, ⟨8, _⟩ => ⟨S24x128, .f32⟩
  | .hbm, ⟨9, _⟩ => ⟨S_, .f32⟩
  | .hbm, ⟨10, _⟩ => ⟨S24, .f32⟩
  | .hbm, ⟨11, _⟩ => ⟨S1, .f32⟩
  | .hbm, ⟨12, _⟩ => ⟨S_, .f32⟩
  | .hbm, ⟨13, _⟩ => ⟨S9, .f32⟩
  | .hbm, ⟨14, _⟩ => ⟨S1, .f32⟩
  | .hbm, ⟨15, _⟩ => ⟨S_, .f32⟩
  | .hbm, ⟨16, _⟩ => ⟨S9, .f32⟩
  | .hbm, ⟨17, _⟩ => ⟨S1, .f32⟩
  | .hbm, ⟨18, _⟩ => ⟨S_, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S8, .f32⟩
  | .hbm, ⟨23, _⟩ => ⟨S1, .f32⟩
  | .hbm, ⟨24, _⟩ => ⟨S_, .f32⟩
  | .hbm, ⟨25, _⟩ => ⟨S1, .f32⟩
  | .hbm, ⟨26, _⟩ => ⟨S1, .f32⟩
  | .hbm, ⟨27, _⟩ => ⟨S10, .f32⟩
  | .hbm, ⟨28, _⟩ => ⟨S1, .f32⟩
  | .hbm, ⟨29, _⟩ => ⟨S_, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S8, .f32⟩
  | .hbm, ⟨34, _⟩ => ⟨S1, .f32⟩
  | .hbm, ⟨35, _⟩ => ⟨S_, .f32⟩
  | .hbm, ⟨36, _⟩ => ⟨S1, .f32⟩
  | .hbm, ⟨37, _⟩ => ⟨S1, .f32⟩
  | .hbm, ⟨38, _⟩ => ⟨S10, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S10, .f32⟩
  | .hbm, ⟨43, _⟩ => ⟨S10, .i1⟩
  | .hbm, ⟨44, _⟩ => ⟨S10, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S10, .f32⟩
  | .hbm, ⟨51, _⟩ => ⟨S10, .f32⟩
  | .hbm, ⟨52, _⟩ => ⟨S10, .f32⟩
  | .hbm, ⟨53, _⟩ => ⟨S10, .f32⟩
  | .hbm, ⟨54, _⟩ => ⟨S_, .f32⟩
  | .hbm, ⟨55, _⟩ => ⟨S_, .f32⟩
  | .hbm, ⟨56, _⟩ => ⟨S10, .f32⟩
  | .hbm, ⟨57, _⟩ => ⟨S10, .f32⟩
  | .hbm, ⟨58, _⟩ => ⟨S10, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x24x128, .f32⟩
  | .local _ .vmem, ⟨7, _⟩ => ⟨S1x24x128, .f32⟩
  | .local _ .vmem, ⟨8, _⟩ => ⟨S24x128, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_1 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_call0_v0 : Ref sig .tc := ⟨.hbm, 55, rfl⟩
abbrev main_call0_v1 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v136 : BitVec 1 := Scalar.cmpi .eq arg1 c15_i32
  let v137 : BitVec 32 := Scalar.extui v136
  let c0_i32_43 : BitVec 32 := 0#32
  let v138 : BitVec 1 := Scalar.cmpi .ne v137 c0_i32_43
  v138

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S16777216_S131072x128 : S16777216.ShapeCasts S131072x128
  inb_S24x128_S24x128_0_0 : ∀ a, (![0, 0] : Fin 2 → Nat) a + S24x128.size a ≤ S24x128.size a
  h_S24x128 : 0 < S24x128.numel
  shapeCasts_S24x128_S24x128 : S24x128.ShapeCasts S24x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  natLt_1_32 : 1 < 32
  reduces_S4096x128_S128 : S4096x128.Reduces [0] S128
  shapeCasts_S128_S1x128 : S128.ShapeCasts S1x128
  concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S24x128_d0 : Shape.Concatenates [S1x128, S1x128, S1x128, S1x128, S1x128, S1x128, S1x128, S1x128, S1x128, S1x128, S1x128, S1x128, S1x128, S1x128, S1x128, S1x128, S1x128, S1x128, S1x128, S1x128, S1x128, S1x128, S1x128, S1x128] S24x128 0
  inb_S1x24x128_S1x24x128_0_0_0 : ∀ a, (![0, 0, 0] : Fin 3 → Nat) a + S1x24x128.size a ≤ S1x24x128.size a
  h_S1x24x128 : 0 < S1x24x128.numel
  shapeCasts_S1x24x128_S24x128 : S1x24x128.ShapeCasts S24x128
  shapeCasts_S24x128_S1x24x128 : S24x128.ShapeCasts S1x24x128
  reducesTo_S2x24x128_S24x128_d0 : S2x24x128.ReducesTo [0] S24x128
  h_S_ : 0 < S_.numel
  reducesTo_S24x128_S24_d1 : S24x128.ReducesTo [1] S24
  slices_S24_S1_0 : S24.Slices ![0] S1
  shapeCasts_S1_S_ : S1.ShapeCasts S_
  slices_S24_S9_1 : S24.Slices ![1] S9
  slices_S24_S1_10 : S24.Slices ![10] S1
  slices_S24_S9_11 : S24.Slices ![11] S9
  slices_S9_S1_0 : S9.Slices ![0] S1
  slices_S9_S8_0 : S9.Slices ![0] S8
  slices_S9_S8_1 : S9.Slices ![1] S8
  slices_S9_S1_8 : S9.Slices ![8] S1
  bcast_S_S1 : S_.BroadcastsInDim S1 (![] : Fin 0 → Fin S1.rank)
  concatenates_S1_S8_S1_S10_d0 : Shape.Concatenates [S1, S8, S1] S10 0
  bcast_S_S10 : S_.BroadcastsInDim S10 (![] : Fin 0 → Fin S10.rank)
  reducesTo_S10_S_d0 : S10.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S131072x128.size a
  hwx0_2 : ∀ i : grid0.Coords, EltTy.bits .f32 = 32 ∨ (Rect.block (s := S131072x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x24x128.size a ≤ S2x24x128.size a
  hwx0_3 : ∀ i : grid0.Coords, EltTy.bits .f32 = 32 ∨ (Rect.block (s := S2x24x128) S1x24x128.size (cc0_transform_3 i) (hinb0_3 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x24x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16777216 : Shape := ⟨1, ![16777216]⟩
abbrev S_ : Shape := ⟨0, ![]⟩
abbrev S10 : Shape := ⟨1, ![10]⟩
abbrev S16777216x1 : Shape := ⟨2, ![16777216, 1]⟩

abbrev nBuf : Space → Nat
  | .hbm => 94
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .f32⟩
  | .hbm, ⟨3, _⟩ => ⟨S16777216, .f32⟩
  | .hbm, ⟨4, _⟩ => ⟨S16777216, .f32⟩
  | .hbm, ⟨5, _⟩ => ⟨S_, .f32⟩
  | .hbm, ⟨6, _⟩ => ⟨S16777216, .f32⟩
  | .hbm, ⟨7, _⟩ => ⟨S16777216, .f32⟩
  | .hbm, ⟨8, _⟩ => ⟨S_, .f32⟩
  | .hbm, ⟨9, _⟩ => ⟨S16777216, .f32⟩
  | .hbm, ⟨10, _⟩ => ⟨S16777216, .f32⟩
  | .hbm, ⟨11, _⟩ => ⟨S16777216, .f32⟩
  | .hbm, ⟨12, _⟩ => ⟨S16777216, .f32⟩
  | .hbm, ⟨13, _⟩ => ⟨S_, .f32⟩
  | .hbm, ⟨14, _⟩ => ⟨S16777216, .f32⟩
  | .hbm, ⟨15, _⟩ => ⟨S16777216, .i1⟩
  | .hbm, ⟨16, _⟩ => ⟨S16777216, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S16777216, .f32⟩
  | .hbm, ⟨23, _⟩ => ⟨S16777216, .f32⟩
  | .hbm, ⟨24, _⟩ => ⟨S16777216, .f32⟩
  | .hbm, ⟨25, _⟩ => ⟨S16777216, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S16777216, .i32⟩
  | .hbm, ⟨30, _⟩ => ⟨S16777216, .i32⟩
  | .hbm, ⟨31, _⟩ => ⟨S_, .i32⟩
  | .hbm, ⟨32, _⟩ => ⟨S16777216, .i32⟩
  | .hbm, ⟨33, _⟩ => ⟨S16777216, .i32⟩
  | .hbm, ⟨34, _⟩ => ⟨S_, .f32⟩
  | .hbm, ⟨35, _⟩ => ⟨S10, .f32⟩
  | .hbm, ⟨36, _⟩ => ⟨S16777216x1, .i32⟩
  | .hbm, ⟨37, _⟩ => ⟨S10, .f32⟩
  | .hbm, ⟨38, _⟩ => ⟨S_, .f32⟩
  | .hbm, ⟨39, _⟩ => ⟨S10, .f32⟩
  | .hbm, ⟨40, _⟩ => ⟨S10, .i1⟩
  | .hbm, ⟨41, _⟩ => ⟨S10, .i32⟩
  | .hbm, ⟨42, _⟩ => ⟨S_, .i32⟩
  | .hbm, ⟨43, _⟩ => ⟨S_, .i32⟩
  | .hbm, ⟨44, _⟩ => ⟨S_, .f32⟩
  | .hbm, ⟨45, _⟩ => ⟨S_, .f32⟩
  | .hbm, ⟨46, _⟩ => ⟨S10, .f32⟩
  | .hbm, ⟨47, _⟩ => ⟨S10, .i1⟩
  | .hbm, ⟨48, _⟩ => ⟨S_, .f32⟩
  | .hbm, ⟨49, _⟩ => ⟨S10, .f32⟩
  | .hbm, ⟨50, _⟩ => ⟨S10, .f32⟩
  | .hbm, ⟨51, _⟩ => ⟨S10, .f32⟩
  | .hbm, ⟨52, _⟩ => ⟨S10, .f32⟩
  | .hbm, ⟨53, _⟩ => ⟨S_, .f32⟩
  | .hbm, ⟨54, _⟩ => ⟨S_, .f32⟩
  | .hbm, ⟨55, _⟩ => ⟨S10, .f32⟩
  | .hbm, ⟨56, _⟩ => ⟨S10, .f32⟩
  | .hbm, ⟨57, _⟩ => ⟨S_, .i32⟩
  | .hbm, ⟨58, _⟩ => ⟨S16777216, .i32⟩
  | .hbm, ⟨59, _⟩ => ⟨S16777216, .i1⟩
  | .hbm, ⟨60, _⟩ => ⟨S_, .i32⟩
  | .hbm, ⟨61, _⟩ => ⟨S16777216, .i32⟩
  | .hbm, ⟨62, _⟩ => ⟨S16777216, .i32⟩
  | .hbm, ⟨63, _⟩ => ⟨S16777216, .i32⟩
  | .hbm, ⟨64, _⟩ => ⟨S16777216x1, .i32⟩
  | .hbm, ⟨65, _⟩ => ⟨S16777216, .f32⟩
  | .hbm, ⟨66, _⟩ => ⟨S_, .f32⟩
  | .hbm, ⟨67, _⟩ => ⟨S_, .f32⟩
  | .hbm, ⟨68, _⟩ => ⟨S16777216, .f32⟩
  | .hbm, ⟨69, _⟩ => ⟨S16777216, .f32⟩
  | .hbm, ⟨70, _⟩ => ⟨S_, .f32⟩
  | .hbm, ⟨71, _⟩ => ⟨S_, .f32⟩
  | .hbm, ⟨72, _⟩ => ⟨S16777216, .f32⟩
  | .hbm, ⟨73, _⟩ => ⟨S16777216, .f32⟩
  | .hbm, ⟨74, _⟩ => ⟨S_, .f32⟩
  | .hbm, ⟨75, _⟩ => ⟨S16777216, .f32⟩
  | .hbm, ⟨76, _⟩ => ⟨S16777216, .f32⟩
  | .hbm, ⟨77, _⟩ => ⟨S16777216, .f32⟩
  | .hbm, ⟨78, _⟩ => ⟨S16777216, .f32⟩
  | .hbm, ⟨79, _⟩ => ⟨S16777216, .i1⟩
  | .hbm, ⟨80, _⟩ => ⟨S16777216, .f32⟩
  | .hbm, ⟨81, _⟩ => ⟨S16777216, .f32⟩
  | .hbm, ⟨82, _⟩ => ⟨S16777216, .f32⟩
  | .hbm, ⟨83, _⟩ => ⟨S16777216, .f32⟩
  | .hbm, ⟨84, _⟩ => ⟨S16777216, .f32⟩
  | .hbm, ⟨85, _⟩ => ⟨S16777216, .f32⟩
  | .hbm, ⟨86, _⟩ => ⟨S16777216, .f32⟩
  | .hbm, ⟨87, _⟩ => ⟨S16777216, .f32⟩
  | .hbm, ⟨88, _⟩ => ⟨S16777216, .f32⟩
  | .hbm, ⟨89, _⟩ => ⟨S16777216, .f32⟩
  | .hbm, ⟨90, _⟩ => ⟨S16777216, .f32⟩
  | .hbm, ⟨91, _⟩ => ⟨S_, .f32⟩
  | .hbm, ⟨92, _⟩ => ⟨S_, .f32⟩
  | .hbm, ⟨93, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_c_5 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v17 : Ref sig .tc := ⟨.hbm, 33, rfl⟩
abbrev main_cst_6 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_7 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_8 : Ref sig .tc := ⟨.hbm, 42, rfl⟩
abbrev main_v24 : Ref sig .tc := ⟨.hbm, 43, rfl⟩
abbrev main_v25 : Ref sig .tc := ⟨.hbm, 44, rfl⟩
abbrev main_cst_9 : Ref sig .tc := ⟨.hbm, 45, rfl⟩
abbrev main_v26 : Ref sig .tc := ⟨.hbm, 46, rfl⟩
abbrev main_v27 : Ref sig .tc := ⟨.hbm, 47, rfl⟩
abbrev main_cst_10 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_11 : Ref sig .tc := ⟨.hbm, 53, rfl⟩
abbrev main_call1_v0 : Ref sig .tc := ⟨.hbm, 54, rfl⟩
abbrev main_call1_v1 : Ref sig .tc := ⟨.hbm, 55, rfl⟩
abbrev main_v32 : Ref sig .tc := ⟨.hbm, 56, rfl⟩
abbrev main_c_12 : Ref sig .tc := ⟨.hbm, 57, rfl⟩
abbrev main_v33 : Ref sig .tc := ⟨.hbm, 58, rfl⟩
abbrev main_v34 : Ref sig .tc := ⟨.hbm, 59, rfl⟩
abbrev main_c_13 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_14 : Ref sig .tc := ⟨.hbm, 66, rfl⟩
abbrev main_call2_v0 : Ref sig .tc := ⟨.hbm, 67, rfl⟩
abbrev main_call2_v1 : Ref sig .tc := ⟨.hbm, 68, rfl⟩
abbrev main_v40 : Ref sig .tc := ⟨.hbm, 69, rfl⟩
abbrev main_cst_15 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_call3_cst : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_v5 : Ref sig .tc := ⟨.hbm, 80, rfl⟩
abbrev main_call3_v6 : Ref sig .tc := ⟨.hbm, 81, rfl⟩
abbrev main_call3_v7 : Ref sig .tc := ⟨.hbm, 82, rfl⟩
abbrev main_call3_v8 : Ref sig .tc := ⟨.hbm, 83, rfl⟩
abbrev main_call3_v9 : Ref sig .tc := ⟨.hbm, 84, rfl⟩
abbrev main_call3_v10 : Ref sig .tc := ⟨.hbm, 85, rfl⟩
abbrev main_call3_v11 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_cst_16 : Ref sig .tc := ⟨.hbm, 91, rfl⟩
abbrev main_v48 : Ref sig .tc := ⟨.hbm, 92, rfl⟩
abbrev main_v49 : Ref sig .tc := ⟨.hbm, 93, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  reducesTo_S16777216_S_d0 : S16777216.ReducesTo [0] S_
  h_S_ : 0 < S_.numel
  bcast_S_S10 : S_.BroadcastsInDim S10 (![] : Fin 0 → Fin S10.rank)
  bcast_S16777216_S16777216x1_0 : S16777216.BroadcastsInDim S16777216x1 (![0] : Fin 1 → Fin S16777216x1.rank)
  natLt_1_32 : 1 < 32
  reducesTo_S10_S_d0 : S10.ReducesTo [0] S_
  scatter_S10_S16777216x1_S16777216_n_0_0_1_wf : ScatterDims.WF S10 S16777216x1 S16777216 [] [0] [0] 1
  gather_S10_S16777216x1_S16777216_n_0_n_n_0_1_1_wf : GatherDims.WF S10 S16777216x1 S16777216 [] [0] [] [0] [] 1 ![1]

variable [Facts₀]

def scatter_S10_S16777216x1_S16777216_n_0_0_1 : ScatterDims S10 S16777216x1 S16777216 where
  updateWindowDims := []
  insertedWindowDims := [0]
  scatterDimsToOperandDims := [0]
  indexVectorDim := 1
  wf := scatter_S10_S16777216x1_S16777216_n_0_0_1_wf
def gather_S10_S16777216x1_S16777216_n_0_n_n_0_1_1 : GatherDims S10 S16777216x1 S16777216 where
  offsetDims := []
  collapsedSliceDims := [0]
  operandBatchingDims := []
  startIndicesBatchingDims := []
  startIndexMap := [0]
  indexVectorDim := 1
  sliceSizes := ![1]
  wf := gather_S10_S16777216x1_S16777216_n_0_n_n_0_1_1_wf

class Facts : Prop extends Facts₀ where

variable [Facts]
-- ==== Proof.Kernel.Runs.lean ====
/-
  What the three runs of the fused kernel's body share, at any float instance.

  The grid has 32 points: 2 cores' halves of 16 row tiles each. At a point the body (i) zeroes the 24 x 128 accumulator
  when the tile is the half's first, (ii) adds the tile's 24 partial rows to it, (iii) copies it to the output block when
  the tile is the half's last. So a point is in one of three cases: first (zero, add), middle (add), last (add, copy out).
  Here: @main around the region (three reshapes before it, three stretches of host operations after it), the windows'
  blocks, the two branch conditions in closed form over the grid, where the output window is idle, and the memrefs the
  runs are stated over.
-/
import proofs.«408902_j25056839205987_3_alg».proof.Proof.Gen.Kernel.Launch
import proofs.«408902_j25056839205987_3_alg».proof.Proof.Gen.Kernel.Skeleton
import proofs.«408902_j25056839205987_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the three reshapes of the arguments. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The three stretches of host operations after the region. -/
abbrev tailOps : List (List (HloOp τ sig (Elt F))) := [hostOps1, hostOps1_1, hostOps1_2]

/-- @main is: the reshapes, the region, then the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] (by simp only [List.Forall]; exact hostOps0_sub)
    (by simp only [List.Forall]; exact hostOps0_fresh) main_chain

/-- The later operations touch unscoped TensorCore buffers only. -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
/-- And none writes one of the region's four arrays (each writes its own result buffer). -/
theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_2, List.mem_cons, List.mem_nil_iff, or_false] at hop
    rcases hop with rfl | rfl | rfl | rfl | rfl
    all_goals intro w; fin_cases w <;> simp only [StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg0 = m ((c : Thread nD τ).loc main_arg0) := by
  unfold Pipeline.afterTail₀
  rw [StableHlo.after_of_forall_not_mem (b := Proc.devRef .tc main_arg0) _ _ (List.forall_iff_forall_mem.mp (by
    simp only [hostOps1, hostOps1_1, hostOps1_2, List.flatten_cons, List.flatten_nil, List.append_nil, List.cons_append,
      List.nil_append, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg1 = m ((c : Thread nD τ).loc main_arg1) := by
  unfold Pipeline.afterTail₀
  rw [StableHlo.after_of_forall_not_mem (b := Proc.devRef .tc main_arg1) _ _ (List.forall_iff_forall_mem.mp (by
    simp only [hostOps1, hostOps1_1, hostOps1_2, List.flatten_cons, List.flatten_nil, List.append_nil, List.cons_append,
      List.nil_append, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg2 = m ((c : Thread nD τ).loc main_arg2) := by
  unfold Pipeline.afterTail₀
  rw [StableHlo.after_of_forall_not_mem (b := Proc.devRef .tc main_arg2) _ _ (List.forall_iff_forall_mem.mp (by
    simp only [hostOps1, hostOps1_1, hostOps1_2, List.flatten_cons, List.flatten_nil, List.append_nil, List.cons_append,
      List.nil_append, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry one and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry one and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The three argument arrays are staged by no window (the windows stage their reshapes), so the frame run's post
    has each at what the later host operations leave, which is its launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c))⟩) h

/-! ## The body's two branch conditions -/

/-- "This tile is its half's first" (the reset branch), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- "This tile is its half's last" (the copy-out branch). -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At a first tile nothing is stored into the output block, and it is not written back there. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
/-- The same at a middle tile. -/
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
/-- At a last tile the output block is stored. -/
theorem liveAt0_3_C : ∀ t : Fin cfg0.N, ¬cond0_0 (grid0.coords t) → cond0_1 (grid0.coords t) → cfg0.idle 3 (grid0.coords t) = false := by decide +kernel

/-! ## The memrefs the runs are stated over -/

/-- One staging buffer of the output window, through which its contents are stated. -/
abbrev VO0_3 : View sig .tc .vmem S1x24x128 .f32 := (Memref.whole cc0_stg3_0 : Memref sig .tc .vmem S1x24x128 .f32).view
/-- Each window's current staging memref at point `t`, as the pipeline passes it, and its wholeness. -/
abbrev ms0_0 (t : Fin cfg0.N) : Memref sig .tc .vmem S4096x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x24x128 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S24x128 .f32 := Memref.whole cc0_scratch0
abbrev VS0_0 : View sig .tc .vmem S24x128 .f32 := scM0_0.view

/-- What the region's invariant holds besides the windows: the accumulator at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.Kernel.RunA.lean ====
/-
  The body's run at a half's FIRST tile: the accumulator, at anything, is zeroed and then takes the tile's 24 partial rows; the output block is not touched.
-/
import proofs.«408902_j25056839205987_3_alg».proof.Proof.Kernel.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave, last first, with the body's triple on whole staging memrefs: the inputs at
    their contents and handed back as they were; the accumulator, and the output block where this case stores it,
    left with the pieces written. Each branch is decided by the case's hypotheses. -/
noncomputable def kernelRun0_A (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x24x128 .f32) (harg5 : arg5.IsWhole) (arg6 : Memref sig .tc .vmem S24x128 .f32) (harg6 : arg6.IsWhole) (hc0 : cond0_0 i) (hc1 : ¬cond0_1 i)
    (x0 : Vec F S4096x128 .f32) (x1 : Vec F S4096x128 .f32) (x2 : Vec F S4096x128 .f32) :
    Σ' (L3 : List (View.Piece (Elt F) S1x24x128 .f32)), { LS0 : List (View.Piece (Elt F) S24x128 .f32) //
      ∀ (xi3 : Vec F S1x24x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__fused_kernel i arg2 harg2 arg3 harg3 arg4 harg4 arg5 harg5 arg6 harg6) K } := by
  refine ⟨[], ?_, fun xi3 E K => ?run⟩
  case run =>
    simp only [cc0__fused_kernel_eq_skeleton]; unfold cc0__fused_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.Kernel.RunB.lean ====
/-
  The body's run at a MIDDLE tile: the accumulator, at what the tile before left, takes the tile's 24 partial rows; the output block is not touched.
-/
import proofs.«408902_j25056839205987_3_alg».proof.Proof.Kernel.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave, last first, with the body's triple on whole staging memrefs: the inputs at
    their contents and handed back as they were; the accumulator, and the output block where this case stores it,
    left with the pieces written. Each branch is decided by the case's hypotheses. -/
noncomputable def kernelRun0_B (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x24x128 .f32) (harg5 : arg5.IsWhole) (arg6 : Memref sig .tc .vmem S24x128 .f32) (harg6 : arg6.IsWhole) (hc0 : ¬cond0_0 i) (hc1 : ¬cond0_1 i)
    (x0 : Vec F S4096x128 .f32) (x1 : Vec F S4096x128 .f32) (x2 : Vec F S4096x128 .f32) (xs0 : Vec F S24x128 .f32) :
    Σ' (L3 : List (View.Piece (Elt F) S1x24x128 .f32)), { LS0 : List (View.Piece (Elt F) S24x128 .f32) //
      ∀ (xi3 : Vec F S1x24x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__fused_kernel i arg2 harg2 arg3 harg3 arg4 harg4 arg5 harg5 arg6 harg6) K } := by
  refine ⟨[], ?_, fun xi3 E K => ?run⟩
  case run =>
    simp only [cc0__fused_kernel_eq_skeleton]; unfold cc0__fused_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.Kernel.RunC.lean ====
/-
  The body's run at a half's LAST tile: the accumulator, at what the tile before left, takes the tile's 24 partial rows and is then copied, whole, into the output block.
-/
import proofs.«408902_j25056839205987_3_alg».proof.Proof.Kernel.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave, last first, with the body's triple on whole staging memrefs: the inputs at
    their contents and handed back as they were; the accumulator, and the output block where this case stores it,
    left with the pieces written. Each branch is decided by the case's hypotheses. -/
noncomputable def kernelRun0_C (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x24x128 .f32) (harg5 : arg5.IsWhole) (arg6 : Memref sig .tc .vmem S24x128 .f32) (harg6 : arg6.IsWhole) (hc0 : ¬cond0_0 i) (hc1 : cond0_1 i)
    (x0 : Vec F S4096x128 .f32) (x1 : Vec F S4096x128 .f32) (x2 : Vec F S4096x128 .f32) (xs0 : Vec F S24x128 .f32) :
    Σ' (L3 : List (View.Piece (Elt F) S1x24x128 .f32)), { LS0 : List (View.Piece (Elt F) S24x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__fused_kernel i arg2 harg2 arg3 harg3 arg4 harg4 arg5 harg5 arg6 harg6) K } := by
  refine ⟨?_, ?_, fun E K => ?run⟩
  case run =>
    simp only [cc0__fused_kernel_eq_skeleton]; unfold cc0__fused_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.Kernel.Frame.lean ====
/-
  The frame of the fused kernel's program, at any float instance: every weakly fair execution of @main terminates,
  nothing faults, and the three argument arrays end as launched.

  What the output block's buffer and the accumulator hold after each of the 32 points is stated by recursion on the
  point (`outsAt0`): at a half's first tile the first case's contents, otherwise the middle or last case's over what
  the point before left in the accumulator. The region's invariant carries the accumulator at exactly those contents
  from one point to the next; the body's run in each case then discharges the pipeline's obligation at every point,
  and the launch theorem for a region with host operations before and after it gives the run of @main.
-/
import proofs.«408902_j25056839205987_3_alg».proof.Proof.Kernel.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first case's stores into the accumulator cover it. -/
theorem scover0_A_0 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x24x128 .f32) (harg5 : arg5.IsWhole) (arg6 : Memref sig .tc .vmem S24x128 .f32) (harg6 : arg6.IsWhole) (hc0 : cond0_0 i) (hc1 : ¬cond0_1 i)
    (x0 : Vec F S4096x128 .f32) (x1 : Vec F S4096x128 .f32) (x2 : Vec F S4096x128 .f32) (y : S24x128.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S24x128.size (by sl_kernel_rfl) y

/-- What the case leaves in the accumulator: its pieces read back. -/
def sout0_A_0 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x24x128 .f32) (harg5 : arg5.IsWhole) (arg6 : Memref sig .tc .vmem S24x128 .f32) (harg6 : arg6.IsWhole) (hc0 : cond0_0 i) (hc1 : ¬cond0_1 i)
    (x0 : Vec F S4096x128 .f32) (x1 : Vec F S4096x128 .f32) (x2 : Vec F S4096x128 .f32) : Vec F S24x128 .f32 :=
  VS0_0.read (Elt F) (VS0_0.writes (Elt F) VS0_0.junk (kernelRun0_A c i arg2 harg2 arg3 harg3 arg4 harg4 arg5 harg5 arg6 harg6 hc0 hc1 x0 x1 x2).2.1)

/-- What the case leaves in the output block's buffer: its pieces read back (no piece where the case stores nothing
    there: then a placeholder nothing consults, the window being idle and not written back at such a point). -/
def out0_A_3 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x24x128 .f32) (harg5 : arg5.IsWhole) (arg6 : Memref sig .tc .vmem S24x128 .f32) (harg6 : arg6.IsWhole) (hc0 : cond0_0 i) (hc1 : ¬cond0_1 i)
    (x0 : Vec F S4096x128 .f32) (x1 : Vec F S4096x128 .f32) (x2 : Vec F S4096x128 .f32) : Vec F S1x24x128 .f32 :=
  VO0_3.read (Elt F) (VO0_3.writes (Elt F) VO0_3.junk (kernelRun0_A c i arg2 harg2 arg3 harg3 arg4 harg4 arg5 harg5 arg6 harg6 hc0 hc1 x0 x1 x2).1)

/-- The middle case's stores into the accumulator cover it. -/
theorem scover0_B_0 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x24x128 .f32) (harg5 : arg5.IsWhole) (arg6 : Memref sig .tc .vmem S24x128 .f32) (harg6 : arg6.IsWhole) (hc0 : ¬cond0_0 i) (hc1 : ¬cond0_1 i)
    (x0 : Vec F S4096x128 .f32) (x1 : Vec F S4096x128 .f32) (x2 : Vec F S4096x128 .f32) (xs0 : Vec F S24x128 .f32) (y : S24x128.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S24x128.size (by sl_kernel_rfl) y

/-- What the case leaves in the accumulator: its pieces read back. -/
def sout0_B_0 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x24x128 .f32) (harg5 : arg5.IsWhole) (arg6 : Memref sig .tc .vmem S24x128 .f32) (harg6 : arg6.IsWhole) (hc0 : ¬cond0_0 i) (hc1 : ¬cond0_1 i)
    (x0 : Vec F S4096x128 .f32) (x1 : Vec F S4096x128 .f32) (x2 : Vec F S4096x128 .f32) (xs0 : Vec F S24x128 .f32) : Vec F S24x128 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- What the case leaves in the output block's buffer: its pieces read back (no piece where the case stores nothing
    there: then a placeholder nothing consults, the window being idle and not written back at such a point). -/
def out0_B_3 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x24x128 .f32) (harg5 : arg5.IsWhole) (arg6 : Memref sig .tc .vmem S24x128 .f32) (harg6 : arg6.IsWhole) (hc0 : ¬cond0_0 i) (hc1 : ¬cond0_1 i)
    (x0 : Vec F S4096x128 .f32) (x1 : Vec F S4096x128 .f32) (x2 : Vec F S4096x128 .f32) (xs0 : Vec F S24x128 .f32) : Vec F S1x24x128 .f32 :=
  VO0_3.read (Elt F) (VO0_3.writes (Elt F) VO0_3.junk (kernelRun0_B c i arg2 harg2 arg3 harg3 arg4 harg4 arg5 harg5 arg6 harg6 hc0 hc1 x0 x1 x2 xs0).1)

/-- The last case's stores into the accumulator cover it. -/
theorem scover0_C_0 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x24x128 .f32) (harg5 : arg5.IsWhole) (arg6 : Memref sig .tc .vmem S24x128 .f32) (harg6 : arg6.IsWhole) (hc0 : ¬cond0_0 i) (hc1 : cond0_1 i)
    (x0 : Vec F S4096x128 .f32) (x1 : Vec F S4096x128 .f32) (x2 : Vec F S4096x128 .f32) (xs0 : Vec F S24x128 .f32) (y : S24x128.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S24x128.size (by sl_kernel_rfl) y

/-- What the case leaves in the accumulator: its pieces read back. -/
def sout0_C_0 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x24x128 .f32) (harg5 : arg5.IsWhole) (arg6 : Memref sig .tc .vmem S24x128 .f32) (harg6 : arg6.IsWhole) (hc0 : ¬cond0_0 i) (hc1 : cond0_1 i)
    (x0 : Vec F S4096x128 .f32) (x1 : Vec F S4096x128 .f32) (x2 : Vec F S4096x128 .f32) (xs0 : Vec F S24x128 .f32) : Vec F S24x128 .f32 :=
  VS0_0.read (Elt F) (VS0_0.writes (Elt F) VS0_0.junk (kernelRun0_C c i arg2 harg2 arg3 harg3 arg4 harg4 arg5 harg5 arg6 harg6 hc0 hc1 x0 x1 x2 xs0).2.1)

/-- What the case leaves in the output block's buffer: its pieces read back (no piece where the case stores nothing
    there: then a placeholder nothing consults, the window being idle and not written back at such a point). -/
def out0_C_3 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x24x128 .f32) (harg5 : arg5.IsWhole) (arg6 : Memref sig .tc .vmem S24x128 .f32) (harg6 : arg6.IsWhole) (hc0 : ¬cond0_0 i) (hc1 : cond0_1 i)
    (x0 : Vec F S4096x128 .f32) (x1 : Vec F S4096x128 .f32) (x2 : Vec F S4096x128 .f32) (xs0 : Vec F S24x128 .f32) : Vec F S1x24x128 .f32 :=
  VO0_3.read (Elt F) (VO0_3.writes (Elt F) VO0_3.junk (kernelRun0_C c i arg2 harg2 arg3 harg3 arg4 harg4 arg5 harg5 arg6 harg6 hc0 hc1 x0 x1 x2 xs0).1)

/-- The last case's store into the output block covers it. -/
theorem cover0_C_3 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x24x128 .f32) (harg5 : arg5.IsWhole) (arg6 : Memref sig .tc .vmem S24x128 .f32) (harg6 : arg6.IsWhole) (hc0 : ¬cond0_0 i) (hc1 : cond0_1 i)
    (x0 : Vec F S4096x128 .f32) (x1 : Vec F S4096x128 .f32) (x2 : Vec F S4096x128 .f32) (xs0 : Vec F S24x128 .f32) (y : S1x24x128.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1x24x128.size (by sl_kernel_rfl) y

/-! ## What the output block's buffer and the accumulator hold after each point -/

/-- After the body at position `n`: (the output block's buffer, the accumulator). -/
def outsAt0 (c : Dev nD) : (n : ℕ) → n < cfg0.N → Vec F S1x24x128 .f32 × Vec F S24x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 16 = 0 then
      if h1 : (n + 1) % 16 = 15 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 16 = 15 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

theorem outsAt0_A (c : Dev nD) (t : Fin cfg0.N) (h0 : t.val % 16 = 0) (h1 : ¬t.val % 16 = 15) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator at anything; afterwards at
    what the point before left in it; with the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- On core `c`: the arrays as the region finds them; after the body each input's buffer at its block and the
    output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The inputs' buffers hold their blocks; the closed forms say which case the point is in; the
    invariant hands the body the accumulator at what the point before left (at anything at the very first point) and
    takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 16 = 0
  · by_cases h1 : t.val % 16 = 15
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3_A t ((hcond0_0 t).mpr h0) (fun h => h1 ((hcond0_1 t).mp h))) (noFlush0_3_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 16 = 15
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3_C t (fun h => h0 ((hcond0_0 t).mp h)) ((hcond0_1 t).mpr h1)], after0_3]
      rw [outsAt0_C m c t h0 h1]
      unfold out0_C_3 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk m c 0 t) (iblk m c 1 t) (iblk m c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk m c 0 t) (iblk m c 1 t) (iblk m c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The pipeline's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of @main terminates, and the final state has each of the region's arrays at what the
    proof data computes and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KernelIdeal.Runs.lean ====
/-
  What the three runs of the fused kernel's body share, at any float instance.

  The grid has 32 points: 2 cores' halves of 16 row tiles each. At a point the body (i) zeroes the 24 x 128 accumulator
  when the tile is the half's first, (ii) adds the tile's 24 partial rows to it, (iii) copies it to the output block when
  the tile is the half's last. So a point is in one of three cases: first (zero, add), middle (add), last (add, copy out).
  Here: @main around the region (three reshapes before it, three stretches of host operations after it), the windows'
  blocks, the two branch conditions in closed form over the grid, where the output window is idle, and the memrefs the
  runs are stated over.
-/
import proofs.«408902_j25056839205987_3_alg».proof.Proof.Gen.KernelIdeal.Launch
import proofs.«408902_j25056839205987_3_alg».proof.Proof.Gen.KernelIdeal.Skeleton
import proofs.«408902_j25056839205987_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the three reshapes of the arguments. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The three stretches of host operations after the region. -/
abbrev tailOps : List (List (HloOp τ sig (Elt F))) := [hostOps1, hostOps1_1, hostOps1_2]

/-- @main is: the reshapes, the region, then the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] (by simp only [List.Forall]; exact hostOps0_sub)
    (by simp only [List.Forall]; exact hostOps0_fresh) main_chain

/-- The later operations touch unscoped TensorCore buffers only. -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
/-- And none writes one of the region's four arrays (each writes its own result buffer). -/
theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_2, List.mem_cons, List.mem_nil_iff, or_false] at hop
    rcases hop with rfl | rfl | rfl | rfl | rfl
    all_goals intro w; fin_cases w <;> simp only [StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg0 = m ((c : Thread nD τ).loc main_arg0) := by
  unfold Pipeline.afterTail₀
  rw [StableHlo.after_of_forall_not_mem (b := Proc.devRef .tc main_arg0) _ _ (List.forall_iff_forall_mem.mp (by
    simp only [hostOps1, hostOps1_1, hostOps1_2, List.flatten_cons, List.flatten_nil, List.append_nil, List.cons_append,
      List.nil_append, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg1 = m ((c : Thread nD τ).loc main_arg1) := by
  unfold Pipeline.afterTail₀
  rw [StableHlo.after_of_forall_not_mem (b := Proc.devRef .tc main_arg1) _ _ (List.forall_iff_forall_mem.mp (by
    simp only [hostOps1, hostOps1_1, hostOps1_2, List.flatten_cons, List.flatten_nil, List.append_nil, List.cons_append,
      List.nil_append, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg2 = m ((c : Thread nD τ).loc main_arg2) := by
  unfold Pipeline.afterTail₀
  rw [StableHlo.after_of_forall_not_mem (b := Proc.devRef .tc main_arg2) _ _ (List.forall_iff_forall_mem.mp (by
    simp only [hostOps1, hostOps1_1, hostOps1_2, List.flatten_cons, List.flatten_nil, List.append_nil, List.cons_append,
      List.nil_append, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry one and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry one and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The three argument arrays are staged by no window (the windows stage their reshapes), so the frame run's post
    has each at what the later host operations leave, which is its launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c))⟩) h

/-! ## The body's two branch conditions -/

/-- "This tile is its half's first" (the reset branch), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- "This tile is its half's last" (the copy-out branch). -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At a first tile nothing is stored into the output block, and it is not written back there. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
/-- The same at a middle tile. -/
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
/-- At a last tile the output block is stored. -/
theorem liveAt0_3_C : ∀ t : Fin cfg0.N, ¬cond0_0 (grid0.coords t) → cond0_1 (grid0.coords t) → cfg0.idle 3 (grid0.coords t) = false := by decide +kernel

/-! ## The memrefs the runs are stated over -/

/-- One staging buffer of the output window, through which its contents are stated. -/
abbrev VO0_3 : View sig .tc .vmem S1x24x128 .f32 := (Memref.whole cc0_stg3_0 : Memref sig .tc .vmem S1x24x128 .f32).view
/-- Each window's current staging memref at point `t`, as the pipeline passes it, and its wholeness. -/
abbrev ms0_0 (t : Fin cfg0.N) : Memref sig .tc .vmem S4096x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x24x128 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S24x128 .f32 := Memref.whole cc0_scratch0
abbrev VS0_0 : View sig .tc .vmem S24x128 .f32 := scM0_0.view

/-- What the region's invariant holds besides the windows: the accumulator at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KernelIdeal.RunA.lean ====
/-
  The body's run at a half's FIRST tile: the accumulator, at anything, is zeroed and then takes the tile's 24 partial rows; the output block is not touched.
-/
import proofs.«408902_j25056839205987_3_alg».proof.Proof.KernelIdeal.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave, last first, with the body's triple on whole staging memrefs: the inputs at
    their contents and handed back as they were; the accumulator, and the output block where this case stores it,
    left with the pieces written. Each branch is decided by the case's hypotheses. -/
noncomputable def kernelRun0_A (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x24x128 .f32) (harg5 : arg5.IsWhole) (arg6 : Memref sig .tc .vmem S24x128 .f32) (harg6 : arg6.IsWhole) (hc0 : cond0_0 i) (hc1 : ¬cond0_1 i)
    (x0 : Vec F S4096x128 .f32) (x1 : Vec F S4096x128 .f32) (x2 : Vec F S4096x128 .f32) :
    Σ' (L3 : List (View.Piece (Elt F) S1x24x128 .f32)), { LS0 : List (View.Piece (Elt F) S24x128 .f32) //
      ∀ (xi3 : Vec F S1x24x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__fused_kernel i arg2 harg2 arg3 harg3 arg4 harg4 arg5 harg5 arg6 harg6) K } := by
  refine ⟨[], ?_, fun xi3 E K => ?run⟩
  case run =>
    simp only [cc0__fused_kernel_eq_skeleton]; unfold cc0__fused_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KernelIdeal.RunB.lean ====
/-
  The body's run at a MIDDLE tile: the accumulator, at what the tile before left, takes the tile's 24 partial rows; the output block is not touched.
-/
import proofs.«408902_j25056839205987_3_alg».proof.Proof.KernelIdeal.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave, last first, with the body's triple on whole staging memrefs: the inputs at
    their contents and handed back as they were; the accumulator, and the output block where this case stores it,
    left with the pieces written. Each branch is decided by the case's hypotheses. -/
noncomputable def kernelRun0_B (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x24x128 .f32) (harg5 : arg5.IsWhole) (arg6 : Memref sig .tc .vmem S24x128 .f32) (harg6 : arg6.IsWhole) (hc0 : ¬cond0_0 i) (hc1 : ¬cond0_1 i)
    (x0 : Vec F S4096x128 .f32) (x1 : Vec F S4096x128 .f32) (x2 : Vec F S4096x128 .f32) (xs0 : Vec F S24x128 .f32) :
    Σ' (L3 : List (View.Piece (Elt F) S1x24x128 .f32)), { LS0 : List (View.Piece (Elt F) S24x128 .f32) //
      ∀ (xi3 : Vec F S1x24x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__fused_kernel i arg2 harg2 arg3 harg3 arg4 harg4 arg5 harg5 arg6 harg6) K } := by
  refine ⟨[], ?_, fun xi3 E K => ?run⟩
  case run =>
    simp only [cc0__fused_kernel_eq_skeleton]; unfold cc0__fused_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KernelIdeal.RunC.lean ====
/-
  The body's run at a half's LAST tile: the accumulator, at what the tile before left, takes the tile's 24 partial rows and is then copied, whole, into the output block.
-/
import proofs.«408902_j25056839205987_3_alg».proof.Proof.KernelIdeal.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave, last first, with the body's triple on whole staging memrefs: the inputs at
    their contents and handed back as they were; the accumulator, and the output block where this case stores it,
    left with the pieces written. Each branch is decided by the case's hypotheses. -/
noncomputable def kernelRun0_C (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x24x128 .f32) (harg5 : arg5.IsWhole) (arg6 : Memref sig .tc .vmem S24x128 .f32) (harg6 : arg6.IsWhole) (hc0 : ¬cond0_0 i) (hc1 : cond0_1 i)
    (x0 : Vec F S4096x128 .f32) (x1 : Vec F S4096x128 .f32) (x2 : Vec F S4096x128 .f32) (xs0 : Vec F S24x128 .f32) :
    Σ' (L3 : List (View.Piece (Elt F) S1x24x128 .f32)), { LS0 : List (View.Piece (Elt F) S24x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__fused_kernel i arg2 harg2 arg3 harg3 arg4 harg4 arg5 harg5 arg6 harg6) K } := by
  refine ⟨?_, ?_, fun E K => ?run⟩
  case run =>
    simp only [cc0__fused_kernel_eq_skeleton]; unfold cc0__fused_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KernelIdeal.Frame.lean ====
/-
  The frame of the fused kernel's program, at any float instance: every weakly fair execution of @main terminates,
  nothing faults, and the three argument arrays end as launched.

  What the output block's buffer and the accumulator hold after each of the 32 points is stated by recursion on the
  point (`outsAt0`): at a half's first tile the first case's contents, otherwise the middle or last case's over what
  the point before left in the accumulator. The region's invariant carries the accumulator at exactly those contents
  from one point to the next; the body's run in each case then discharges the pipeline's obligation at every point,
  and the launch theorem for a region with host operations before and after it gives the run of @main.
-/
import proofs.«408902_j25056839205987_3_alg».proof.Proof.KernelIdeal.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first case's stores into the accumulator cover it. -/
theorem scover0_A_0 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x24x128 .f32) (harg5 : arg5.IsWhole) (arg6 : Memref sig .tc .vmem S24x128 .f32) (harg6 : arg6.IsWhole) (hc0 : cond0_0 i) (hc1 : ¬cond0_1 i)
    (x0 : Vec F S4096x128 .f32) (x1 : Vec F S4096x128 .f32) (x2 : Vec F S4096x128 .f32) (y : S24x128.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S24x128.size (by sl_kernel_rfl) y

/-- What the case leaves in the accumulator: its pieces read back. -/
def sout0_A_0 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x24x128 .f32) (harg5 : arg5.IsWhole) (arg6 : Memref sig .tc .vmem S24x128 .f32) (harg6 : arg6.IsWhole) (hc0 : cond0_0 i) (hc1 : ¬cond0_1 i)
    (x0 : Vec F S4096x128 .f32) (x1 : Vec F S4096x128 .f32) (x2 : Vec F S4096x128 .f32) : Vec F S24x128 .f32 :=
  VS0_0.read (Elt F) (VS0_0.writes (Elt F) VS0_0.junk (kernelRun0_A c i arg2 harg2 arg3 harg3 arg4 harg4 arg5 harg5 arg6 harg6 hc0 hc1 x0 x1 x2).2.1)

/-- What the case leaves in the output block's buffer: its pieces read back (no piece where the case stores nothing
    there: then a placeholder nothing consults, the window being idle and not written back at such a point). -/
def out0_A_3 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x24x128 .f32) (harg5 : arg5.IsWhole) (arg6 : Memref sig .tc .vmem S24x128 .f32) (harg6 : arg6.IsWhole) (hc0 : cond0_0 i) (hc1 : ¬cond0_1 i)
    (x0 : Vec F S4096x128 .f32) (x1 : Vec F S4096x128 .f32) (x2 : Vec F S4096x128 .f32) : Vec F S1x24x128 .f32 :=
  VO0_3.read (Elt F) (VO0_3.writes (Elt F) VO0_3.junk (kernelRun0_A c i arg2 harg2 arg3 harg3 arg4 harg4 arg5 harg5 arg6 harg6 hc0 hc1 x0 x1 x2).1)

/-- The middle case's stores into the accumulator cover it. -/
theorem scover0_B_0 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x24x128 .f32) (harg5 : arg5.IsWhole) (arg6 : Memref sig .tc .vmem S24x128 .f32) (harg6 : arg6.IsWhole) (hc0 : ¬cond0_0 i) (hc1 : ¬cond0_1 i)
    (x0 : Vec F S4096x128 .f32) (x1 : Vec F S4096x128 .f32) (x2 : Vec F S4096x128 .f32) (xs0 : Vec F S24x128 .f32) (y : S24x128.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S24x128.size (by sl_kernel_rfl) y

/-- What the case leaves in the accumulator: its pieces read back. -/
def sout0_B_0 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x24x128 .f32) (harg5 : arg5.IsWhole) (arg6 : Memref sig .tc .vmem S24x128 .f32) (harg6 : arg6.IsWhole) (hc0 : ¬cond0_0 i) (hc1 : ¬cond0_1 i)
    (x0 : Vec F S4096x128 .f32) (x1 : Vec F S4096x128 .f32) (x2 : Vec F S4096x128 .f32) (xs0 : Vec F S24x128 .f32) : Vec F S24x128 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- What the case leaves in the output block's buffer: its pieces read back (no piece where the case stores nothing
    there: then a placeholder nothing consults, the window being idle and not written back at such a point). -/
def out0_B_3 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x24x128 .f32) (harg5 : arg5.IsWhole) (arg6 : Memref sig .tc .vmem S24x128 .f32) (harg6 : arg6.IsWhole) (hc0 : ¬cond0_0 i) (hc1 : ¬cond0_1 i)
    (x0 : Vec F S4096x128 .f32) (x1 : Vec F S4096x128 .f32) (x2 : Vec F S4096x128 .f32) (xs0 : Vec F S24x128 .f32) : Vec F S1x24x128 .f32 :=
  VO0_3.read (Elt F) (VO0_3.writes (Elt F) VO0_3.junk (kernelRun0_B c i arg2 harg2 arg3 harg3 arg4 harg4 arg5 harg5 arg6 harg6 hc0 hc1 x0 x1 x2 xs0).1)

/-- The last case's stores into the accumulator cover it. -/
theorem scover0_C_0 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x24x128 .f32) (harg5 : arg5.IsWhole) (arg6 : Memref sig .tc .vmem S24x128 .f32) (harg6 : arg6.IsWhole) (hc0 : ¬cond0_0 i) (hc1 : cond0_1 i)
    (x0 : Vec F S4096x128 .f32) (x1 : Vec F S4096x128 .f32) (x2 : Vec F S4096x128 .f32) (xs0 : Vec F S24x128 .f32) (y : S24x128.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S24x128.size (by sl_kernel_rfl) y

/-- What the case leaves in the accumulator: its pieces read back. -/
def sout0_C_0 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x24x128 .f32) (harg5 : arg5.IsWhole) (arg6 : Memref sig .tc .vmem S24x128 .f32) (harg6 : arg6.IsWhole) (hc0 : ¬cond0_0 i) (hc1 : cond0_1 i)
    (x0 : Vec F S4096x128 .f32) (x1 : Vec F S4096x128 .f32) (x2 : Vec F S4096x128 .f32) (xs0 : Vec F S24x128 .f32) : Vec F S24x128 .f32 :=
  VS0_0.read (Elt F) (VS0_0.writes (Elt F) VS0_0.junk (kernelRun0_C c i arg2 harg2 arg3 harg3 arg4 harg4 arg5 harg5 arg6 harg6 hc0 hc1 x0 x1 x2 xs0).2.1)

/-- What the case leaves in the output block's buffer: its pieces read back (no piece where the case stores nothing
    there: then a placeholder nothing consults, the window being idle and not written back at such a point). -/
def out0_C_3 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x24x128 .f32) (harg5 : arg5.IsWhole) (arg6 : Memref sig .tc .vmem S24x128 .f32) (harg6 : arg6.IsWhole) (hc0 : ¬cond0_0 i) (hc1 : cond0_1 i)
    (x0 : Vec F S4096x128 .f32) (x1 : Vec F S4096x128 .f32) (x2 : Vec F S4096x128 .f32) (xs0 : Vec F S24x128 .f32) : Vec F S1x24x128 .f32 :=
  VO0_3.read (Elt F) (VO0_3.writes (Elt F) VO0_3.junk (kernelRun0_C c i arg2 harg2 arg3 harg3 arg4 harg4 arg5 harg5 arg6 harg6 hc0 hc1 x0 x1 x2 xs0).1)

/-- The last case's store into the output block covers it. -/
theorem cover0_C_3 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x24x128 .f32) (harg5 : arg5.IsWhole) (arg6 : Memref sig .tc .vmem S24x128 .f32) (harg6 : arg6.IsWhole) (hc0 : ¬cond0_0 i) (hc1 : cond0_1 i)
    (x0 : Vec F S4096x128 .f32) (x1 : Vec F S4096x128 .f32) (x2 : Vec F S4096x128 .f32) (xs0 : Vec F S24x128 .f32) (y : S1x24x128.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1x24x128.size (by sl_kernel_rfl) y

/-! ## What the output block's buffer and the accumulator hold after each point -/

/-- After the body at position `n`: (the output block's buffer, the accumulator). -/
def outsAt0 (c : Dev nD) : (n : ℕ) → n < cfg0.N → Vec F S1x24x128 .f32 × Vec F S24x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 16 = 0 then
      if h1 : (n + 1) % 16 = 15 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 16 = 15 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

theorem outsAt0_A (c : Dev nD) (t : Fin cfg0.N) (h0 : t.val % 16 = 0) (h1 : ¬t.val % 16 = 15) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator at anything; afterwards at
    what the point before left in it; with the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- On core `c`: the arrays as the region finds them; after the body each input's buffer at its block and the
    output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The inputs' buffers hold their blocks; the closed forms say which case the point is in; the
    invariant hands the body the accumulator at what the point before left (at anything at the very first point) and
    takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 16 = 0
  · by_cases h1 : t.val % 16 = 15
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3_A t ((hcond0_0 t).mpr h0) (fun h => h1 ((hcond0_1 t).mp h))) (noFlush0_3_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 16 = 15
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3_C t (fun h => h0 ((hcond0_0 t).mp h)) ((hcond0_1 t).mpr h1)], after0_3]
      rw [outsAt0_C m c t h0 h1]
      unfold out0_C_3 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk m c 0 t) (iblk m c 1 t) (iblk m c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk m c 0 t) (iblk m c 1 t) (iblk m c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The pipeline's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of @main terminates, and the final state has each of the region's arrays at what the
    proof data computes and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.Spec.lean ====
/-
  The mathematics of the gradient-harmonised loss, as both programs compute it on the extended reals.

  Per element (logit x, target t, label weight w): the validity v = [w > 0]; the scaled gradient magnitude
  s = 10·|sigmoid x − t|; the logistic loss ℓ = softplus x − x·t. The kernel accumulates 24 rows of lane sums:
  row 0 is Σ v, row b (1..9) is Σ v·[s ≥ b], row 10 is Σ v·ℓ, row 10+b is Σ (v·ℓ)·[s ≥ b], rows 20..23 are zero; the
  host then differences the cumulative rows into per-bin counts and per-bin loss sums. The reference bins each element
  by clip(⌊s⌋, 0, 9), counts by a segment sum, and weights each element's loss by its bin's weight.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The number of elements. -/
abbrev NN : Nat := 16777216
/-- A flat array of extended reals. -/
abbrev Arr : Type := (⟨1, ![NN]⟩ : Shape).Idx → EReal

/-- The float literals 1 and 10, as the programs spell them. -/
def one : EReal := Ideal.ofBits .f32 0x3F800000#32
def ten : EReal := Ideal.ofBits .f32 0x41200000#32
/-- The bin thresholds 1.0 … 9.0 as the kernel's literals (entry 0 is not used). -/
def thrW : Fin 10 → BitVec 32
  | ⟨0, _⟩ => 0x00000000#32 | ⟨1, _⟩ => 0x3F800000#32 | ⟨2, _⟩ => 0x40000000#32 | ⟨3, _⟩ => 0x40400000#32 | ⟨4, _⟩ => 0x40800000#32
  | ⟨5, _⟩ => 0x40A00000#32 | ⟨6, _⟩ => 0x40C00000#32 | ⟨7, _⟩ => 0x40E00000#32 | ⟨8, _⟩ => 0x41000000#32 | ⟨9, _⟩ => 0x41100000#32
  | ⟨_ + 10, h⟩ => absurd h (Nat.not_lt.2 (Nat.le_add_left _ _))
def thr (b : Fin 10) : EReal := Ideal.ofBits .f32 (thrW b)

/-- 1 where the label weight is positive, else 0. -/
def vf (w : EReal) : EReal := if 0 < w then 1 else 0
/-- Ten times the distance of the sigmoid from the target. -/
def sc (x t : EReal) : EReal := max (Ideal.logistic x - t) (-(Ideal.logistic x - t)) * ten
/-- The logistic loss: softplus x − x·t, softplus as max(x, 0) + log(1 + e^(−|x|)). -/
def le (x t : EReal) : EReal := (max x 0 + Ideal.log1p (Ideal.exp (-(max x (-x))))) - x * t
/-- 1 where the threshold is at most s, else 0. -/
def ge (b s : EReal) : EReal := if b ≤ s then 1 else 0

/-- The 24 per-element row functions. -/
def q (r : Fin 24) (x t w : EReal) : EReal :=
  if r.val = 0 then vf w
  else if h : r.val < 10 then vf w * ge (thr ⟨r.val, h⟩) (sc x t)
  else if r.val = 10 then vf w * le x t
  else if h : r.val < 20 then (vf w * le x t) * ge (thr ⟨r.val - 10, by omega⟩) (sc x t)
  else 0

/-- Row r summed over all elements. -/
def Tot (r : Fin 24) (X T W : Arr) : EReal := ∑ i : Fin NN, q r (X (ix1 i)) (T (ix1 i)) (W (ix1 i))

/-! ## The kernel's host arithmetic on the 24 totals -/

/-- Bin b's count from the cumulative rows 0..9. -/
def cntK (C : Fin 24 → EReal) (b : Fin 10) : EReal :=
  if h : b.val = 9 then C 9 else C ⟨b.val, by omega⟩ - C ⟨b.val + 1, by omega⟩
/-- Bin b's loss sum from the cumulative rows 10..19. -/
def sumK (C : Fin 24 → EReal) (b : Fin 10) : EReal :=
  if h : b.val = 9 then C 19 else C ⟨b.val + 10, by omega⟩ - C ⟨b.val + 11, by omega⟩
/-- The loss from the 24 totals. -/
def tailFn (C : Fin 24 → EReal) : EReal :=
  let tot : EReal := max (C 0) one
  let n : EReal := ∑ b : Fin 10, (if 0 < cntK C b then (1 : EReal) else 0)
  let pbw : Fin 10 → EReal := fun b => if 0 < cntK C b then Ideal.div tot (max (cntK C b) one) else 0
  Ideal.div (Ideal.div (∑ b : Fin 10, pbw b * sumK C b) (max n one)) tot

/-- What the kernel's program returns. -/
def kernelFn (X T W : Arr) : EReal := tailFn (fun r => Tot r X T W)

/-! ## The reference's arithmetic -/

/-- The bin word of a scaled magnitude: floor, convert to a 32-bit integer (clamped), clip to [0, 9]. -/
def binW (s : EReal) : BitVec 32 :=
  IntOp.minsi 9#32 (IntOp.maxsi 0#32 (Ideal.fptosi 32 (Ideal.liftRound Int.floor s)))
/-- The same as an index into the ten bins (read signed, clamped as a gather clamps). -/
def binF (s : EReal) : Fin 10 := ⟨min (binW s).toInt.toNat 9, by omega⟩

/-- What the reference's program returns. -/
def refFn (X T W : Arr) : EReal :=
  let v : Fin NN → EReal := fun i => vf (W (ix1 i))
  let s : Fin NN → EReal := fun i => sc (X (ix1 i)) (T (ix1 i))
  let tot : EReal := max (∑ i : Fin NN, v i) one
  let cnt : Fin 10 → EReal := fun k => ∑ i ∈ Finset.univ.filter (fun i : Fin NN => (binW (s i)).toInt = (k.val : ℤ)), v i
  let n : EReal := (((Finset.univ.filter (fun k : Fin 10 => 0 < cnt k)).card : ℝ) : EReal)
  let pbw : Fin 10 → EReal := fun k => if 0 < cnt k then Ideal.div tot (max (cnt k) one) else 0
  let wgt : Fin NN → EReal := fun i => Ideal.div (if 0 < W (ix1 i) then pbw (binF (s i)) else 0) (max n one)
  Ideal.div (∑ i : Fin NN, wgt i * le (X (ix1 i)) (T (ix1 i))) tot

/-- Every entry is a real number. -/
def Finite (X : Arr) : Prop := ∀ i, X i ≠ ⊤ ∧ X i ≠ ⊥

end Cert.Spec

end
-- ==== Proof.KernelIdeal.Tail.lean ====
/-
  The kernel program's host arithmetic after its one region, read as one function.

  The region leaves an array O of shape [2, 24, 128]. The operations after it add the two halves, then the 128 lanes,
  which gives 24 totals C r = Σ_l Σ_h O[h, r, l]. Rows 0..9 are cumulative counts and rows 10..19 cumulative loss sums:
  the ten per-bin counts are C 0 − C 1, …, C 8 − C 9, C 9, and the ten per-bin loss sums C 10 − C 11, …, C 18 − C 19, C 19,
  each assembled as one entry, eight entries and one entry laid end to end. With tot = max (C 0) 1 and n the number of
  bins whose count is positive (at least 1), bin b weighs tot / max (count b) 1 where its count is positive and 0
  elsewhere, and the result is ((Σ_b weight b · loss sum b) / n) / tot. This module states that function over the
  extended reals (`tailV` of `rows O`), shows the listed operations compute it, reads it entry by entry, and identifies
  it with the specification's `tailFn` of the 24 totals.
-/
import proofs.«408902_j25056839205987_3_alg».proof.Proof.Gen.KernelIdeal.Launch
import proofs.«408902_j25056839205987_3_alg».proof.Proof.Spec
import Idealize.ShloMosaic.Lib.StableHlo.Run
import Idealize.ShloMosaic.Lib.ValueIdx
import Idealize.ShloMosaic.Lib.IdealHost
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx Idealize.ShloMosaic.StableHlo
open scoped BigOperators

/-- The 24 totals of the region's result: over the two halves and the 128 lanes. -/
def comb (O : FVec Ideal S2x24x128 .f32) (r : Fin 24) : EReal := ∑ l : Fin 128, ∑ cc : Fin 2, O (ix3 cc r l)

namespace Tail

/-! ## A three-operand operation's result -/

section General
variable {τ : Topo} {sig : RefSig} {Val : EltTy → Type}
variable {x a b y : Ref sig .tc}

/-- Three operands' contents as the family an n-ary operation's function takes. -/
def ops3 (A : x.ty.Contents Val) (B : a.ty.Contents Val) (C : b.ty.Contents Val) :
    (k : Fin 3) → ((![x, a, b] : Fin 3 → Ref sig .tc) k).ty.Contents Val :=
  Fin.cons A (Fin.cons B (Fin.cons C (fun i => i.elim0)))

theorem ops3_zero (A : x.ty.Contents Val) (B : a.ty.Contents Val) (C : b.ty.Contents Val) : ops3 A B C 0 = A := rfl
theorem ops3_one (A : x.ty.Contents Val) (B : a.ty.Contents Val) (C : b.ty.Contents Val) : ops3 A B C 1 = B := rfl
theorem ops3_two (A : x.ty.Contents Val) (B : a.ty.Contents Val) (C : b.ty.Contents Val) : ops3 A B C 2 = C := rfl

/-- An n-ary operation over a literal family of three references writes its function's value at the three operands'
    contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (ops3 (F (Proc.devRef .tc x)) (F (Proc.devRef .tc a)) (F (Proc.devRef .tc b))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (ops3 (F (Proc.devRef .tc x)) (F (Proc.devRef .tc a)) (F (Proc.devRef .tc b))) :=
  nary3_result f hxs hy F

end General

/-! ## The tail as one function of the region's result -/

/-- The 24 rows: the sum over the two halves, then over the lanes, each from zero. -/
def rows (O : FVec Ideal S2x24x128 .f32) : FVec Ideal S24 .f32 :=
  Host.reduceAdd (F := Ideal)
    (Host.reduceAdd (F := Ideal) O (constant (F := Ideal) S_ .f32 0x00000000#32) reducesTo_S2x24x128_S24x128_d0 h_S_)
    (constant (F := Ideal) S_ .f32 0x00000000#32) reducesTo_S24x128_S24_d1 h_S_

/-- Row 0 and row 10 as scalars, rows 1..9 and rows 11..19 as runs of nine. -/
def head0 (c : FVec Ideal S24 .f32) : FVec Ideal S_ .f32 := shapeCast S_ (extractStridedSlice S1 ![0] c slices_S24_S1_0) shapeCasts_S1_S_
def head10 (c : FVec Ideal S24 .f32) : FVec Ideal S_ .f32 := shapeCast S_ (extractStridedSlice S1 ![10] c slices_S24_S1_10) shapeCasts_S1_S_
def run1 (c : FVec Ideal S24 .f32) : FVec Ideal S9 .f32 := extractStridedSlice S9 ![1] c slices_S24_S9_1
def run11 (c : FVec Ideal S24 .f32) : FVec Ideal S9 .f32 := extractStridedSlice S9 ![11] c slices_S24_S9_11

/-- One entry, eight entries and one entry laid end to end. -/
def cat3 (x0 : FVec Ideal S1 .f32) (x1 : FVec Ideal S8 .f32) (x2 : FVec Ideal S1 .f32) : FVec Ideal S10 .f32 :=
  concatenate S10 0 [⟨S1, x0⟩, ⟨S8, x1⟩, ⟨S1, x2⟩] concatenates_S1_S8_S1_S10_d0

/-- Ten differences of consecutive cumulative values: the head less the run's first, the run's eight consecutive
    differences, the run's last. -/
def diffs (hd : FVec Ideal S_ .f32) (run : FVec Ideal S9 .f32) : FVec Ideal S10 .f32 :=
  cat3
    (broadcastInDim S1 ![] bcast_S_S1 (subf hd (shapeCast S_ (extractStridedSlice S1 ![0] run slices_S9_S1_0) shapeCasts_S1_S_)))
    (subf (extractStridedSlice S8 ![0] run slices_S9_S8_0) (extractStridedSlice S8 ![1] run slices_S9_S8_1))
    (broadcastInDim S1 ![] bcast_S_S1 (shapeCast S_ (extractStridedSlice S1 ![8] run slices_S9_S1_8) shapeCasts_S1_S_))

/-- The ten per-bin counts and the ten per-bin loss sums. -/
def cnts (c : FVec Ideal S24 .f32) : FVec Ideal S10 .f32 := diffs (head0 c) (run1 c)
def sums (c : FVec Ideal S24 .f32) : FVec Ideal S10 .f32 := diffs (head10 c) (run11 c)
/-- The number of valid elements, at least one. -/
def totV (c : FVec Ideal S24 .f32) : FVec Ideal S_ .f32 := maximumf (head0 c) (constant (F := Ideal) S_ .f32 0x3F800000#32)
/-- Which bins are not empty. -/
def posV (c : FVec Ideal S24 .f32) : IVec S10 1 :=
  cmpf (F := Ideal) .ogt (cnts c) (broadcastInDim S10 ![] bcast_S_S10 (constant (F := Ideal) S_ .f32 0x00000000#32))
/-- The number of bins that are not empty, at least one. -/
def nV (c : FVec Ideal S24 .f32) : FVec Ideal S_ .f32 :=
  maximumf (Host.reduceAdd (F := Ideal) (uitofp (F := Ideal) .f32 (posV c)) (constant (F := Ideal) S_ .f32 0x00000000#32) reducesTo_S10_S_d0 h_S_)
    (constant (F := Ideal) S_ .f32 0x3F800000#32)
/-- The per-bin weights: the total over the bin's count where the bin is not empty, else zero. -/
def wV (c : FVec Ideal S24 .f32) : FVec Ideal S10 .f32 :=
  select (posV c)
    (Host.divf (F := Ideal) (broadcastInDim S10 ![] bcast_S_S10 (totV c))
      (maximumf (cnts c) (broadcastInDim S10 ![] bcast_S_S10 (constant (F := Ideal) S_ .f32 0x3F800000#32))))
    (broadcastInDim S10 ![] bcast_S_S10 (id (constant (F := Ideal) S_ .f32 0x00000000#32)))
/-- The loss: the weighted loss sums added up, over the number of bins in use, over the total. -/
def tailV (c : FVec Ideal S24 .f32) : FVec Ideal S_ .f32 :=
  Host.divf (F := Ideal)
    (Host.divf (F := Ideal)
      (Host.reduceAdd (F := Ideal) (mulf (wV c) (sums c)) (constant (F := Ideal) S_ .f32 0x00000000#32) reducesTo_S10_S_d0 h_S_)
      (nV c))
    (totV c)

/-! ## The operations compute that function -/

/-- The two three-piece concatenations write `cat3` of their operands' contents. -/
theorem v22_result (hxs hy) (F : Valuation τ sig (Elt Ideal)) :
    (nary (τ := τ) ![main_v20, main_v17, main_v21] main_v22
        (fun u => concatenate S10 0 [⟨S1, u 0⟩, ⟨S8, u 1⟩, ⟨S1, u 2⟩] concatenates_S1_S8_S1_S10_d0) hxs hy).result F
        (no_index (Proc.devRef .tc main_v22))
      = cat3 (F (Proc.devRef .tc main_v20)) (F (Proc.devRef .tc main_v17)) (F (Proc.devRef .tc main_v21)) := by
  rw [nary3_result]; rfl
theorem v33_result (hxs hy) (F : Valuation τ sig (Elt Ideal)) :
    (nary (τ := τ) ![main_v31, main_v28, main_v32] main_v33
        (fun u => concatenate S10 0 [⟨S1, u 0⟩, ⟨S8, u 1⟩, ⟨S1, u 2⟩] concatenates_S1_S8_S1_S10_d0) hxs hy).result F
        (no_index (Proc.devRef .tc main_v33))
      = cat3 (F (Proc.devRef .tc main_v31)) (F (Proc.devRef .tc main_v28)) (F (Proc.devRef .tc main_v32)) := by
  rw [nary3_result]; rfl

theorem tail_prog (W : Valuation τ sig (Elt Ideal)) :
    StableHlo.after (List.flatten [hostOps1 (F := Ideal), hostOps1_1, hostOps1_2]) W (Proc.devRef .tc main_v48)
      = tailV (rows (W (Proc.devRef .tc main_v3))) := by
  simp only [hostOps1, hostOps1_1, hostOps1_2, List.flatten_cons, List.flatten_nil, List.append_nil, List.cons_append, List.nil_append]
  simp (disch := decide) only [after_cons, after_nil,
      nullary_result', unary_result', binary_result', ternary_result', reshape_result', v22_result, v33_result,
      nullary_result_ne', unary_result_ne', binary_result_ne', ternary_result_ne', reshape_result_ne',
      nary_result_ne', TRef.ofBuf, TRef.toBuf, cast_eq]
  rfl

/-! ## The stages read at an index -/

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := ix1, left_inv := fun i => (eq_ix1 i).symm, right_inv := fun _ => rfl }
  exact (Equiv.sum_comp e.symm f).symm

/-- Row r is the sum over the lanes and the two halves. -/
theorem rows_apply (O : FVec Ideal S2x24x128 .f32) (r : Fin 24) : rows O (ix1 r) = comb O r := by
  unfold rows comb
  rw [hostReduceAdd_apply]
  refine (Ideal.hostReduceAdd_single reducesTo_S24x128_S24_d1 (by decide) _ _ (ix1 r)).trans ?_
  rw [constant_apply, Ideal.ofBits_zero_f32, zero_add]
  refine Finset.sum_congr rfl fun l _ => ?_
  rw [hostReduceAdd_apply]
  refine (Ideal.hostReduceAdd_single reducesTo_S2x24x128_S24x128_d0 (by decide) _ _ _).trans ?_
  rw [constant_apply, Ideal.ofBits_zero_f32, zero_add]
  refine Finset.sum_congr rfl fun cc _ => ?_
  congr 1
  funext d
  apply Fin.ext
  match d with
  | ⟨0, _⟩ => rfl
  | ⟨1, _⟩ => rfl
  | ⟨2, _⟩ => rfl

/-- One entry of a vector, cut out and read as a scalar. -/
theorem entry_apply {n : Nat} (o : Nat) (v : FVec Ideal ⟨1, ![n]⟩ .f32) (h : (⟨1, ![n]⟩ : Shape).Slices ![o] S1) (i : S_.Idx)
    (r : Fin n) (hr : r.val = o) :
    shapeCast S_ (extractStridedSlice S1 ![o] v h) shapeCasts_S1_S_ i = v (ix1 r) := by
  refine (shapeCast_apply _ shapeCasts_S1_S_ i (ix1 (0 : Fin 1)) ?_).trans ?_
  · rw [Shape.rowMajor_val_one]; exact (Shape.rowMajorPi_zero _ i).symm
  · exact extractStridedSlice_apply _ v h (ix1 0) (ix1 r) (fun a => match a with | ⟨0, _⟩ => by show r.val = o + 0; omega)

/-- A run of a vector read at an entry. -/
theorem run_apply {n m : Nat} (o : Nat) (v : FVec Ideal ⟨1, ![n]⟩ .f32) (h : (⟨1, ![n]⟩ : Shape).Slices ![o] ⟨1, ![m]⟩)
    (k : Fin m) (r : Fin n) (hr : r.val = o + k.val) :
    extractStridedSlice ⟨1, ![m]⟩ ![o] v h (ix1 k) = v (ix1 r) :=
  extractStridedSlice_apply _ v h (ix1 k) (ix1 r) (fun a => match a with | ⟨0, _⟩ => hr)

theorem head0_apply (c : FVec Ideal S24 .f32) (i : S_.Idx) (r : Fin 24) (hr : r.val = 0) : head0 c i = c (ix1 r) :=
  entry_apply 0 c slices_S24_S1_0 i r hr
theorem head10_apply (c : FVec Ideal S24 .f32) (i : S_.Idx) (r : Fin 24) (hr : r.val = 10) : head10 c i = c (ix1 r) :=
  entry_apply 10 c slices_S24_S1_10 i r hr
theorem run1_apply (c : FVec Ideal S24 .f32) (k : Fin 9) (r : Fin 24) (hr : r.val = 1 + k.val) : run1 c (ix1 k) = c (ix1 r) :=
  run_apply 1 c slices_S24_S9_1 k r hr
theorem run11_apply (c : FVec Ideal S24 .f32) (k : Fin 9) (r : Fin 24) (hr : r.val = 11 + k.val) : run11 c (ix1 k) = c (ix1 r) :=
  run_apply 11 c slices_S24_S9_11 k r hr

/-- The three pieces of the concatenation, read at an entry. -/
theorem cat3_head (x0 : FVec Ideal S1 .f32) (x1 : FVec Ideal S8 .f32) (x2 : FVec Ideal S1 .f32) (b : Fin 10) (hb : b.val = 0) :
    cat3 x0 x1 x2 (ix1 b) = x0 (ix1 0) := by
  unfold cat3
  refine concatenate_apply_piece (0 : Fin S10.rank) [⟨S1, x0⟩, ⟨S8, x1⟩, ⟨S1, x2⟩] concatenates_S1_S8_S1_S10_d0 (ix1 b) 0
    (by show 0 < 3; omega) S1 x0 rfl rfl 0 rfl (ix1 0) ?_ ?_
  · intro d hd
    exact absurd (Fin.ext (by have h1 : d.val < 1 := d.isLt; show d.val = 0; omega)) hd
  · show 0 + 0 = b.val; omega
theorem cat3_mid (x0 : FVec Ideal S1 .f32) (x1 : FVec Ideal S8 .f32) (x2 : FVec Ideal S1 .f32) (b : Fin 10) (k : Fin 8)
    (hk : 1 + k.val = b.val) :
    cat3 x0 x1 x2 (ix1 b) = x1 (ix1 k) := by
  unfold cat3
  refine concatenate_apply_piece (0 : Fin S10.rank) [⟨S1, x0⟩, ⟨S8, x1⟩, ⟨S1, x2⟩] concatenates_S1_S8_S1_S10_d0 (ix1 b) 1
    (by show 1 < 3; omega) S8 x1 rfl rfl 1 rfl (ix1 k) ?_ ?_
  · intro d hd
    exact absurd (Fin.ext (by have h1 : d.val < 1 := d.isLt; show d.val = 0; omega)) hd
  · show 1 + k.val = b.val; exact hk
theorem cat3_last (x0 : FVec Ideal S1 .f32) (x1 : FVec Ideal S8 .f32) (x2 : FVec Ideal S1 .f32) (b : Fin 10) (hb : b.val = 9) :
    cat3 x0 x1 x2 (ix1 b) = x2 (ix1 0) := by
  unfold cat3
  refine concatenate_apply_piece (0 : Fin S10.rank) [⟨S1, x0⟩, ⟨S8, x1⟩, ⟨S1, x2⟩] concatenates_S1_S8_S1_S10_d0 (ix1 b) 2
    (by show 2 < 3; omega) S1 x2 rfl rfl 9 rfl (ix1 0) ?_ ?_
  · intro d hd
    exact absurd (Fin.ext (by have h1 : d.val < 1 := d.isLt; show d.val = 0; omega)) hd
  · show 9 + 0 = b.val; omega

/-- The ten differences, entry by entry. -/
theorem diffs_head (hd : FVec Ideal S_ .f32) (run : FVec Ideal S9 .f32) (b : Fin 10) (hb : b.val = 0) :
    diffs hd run (ix1 b) = hd ix0 - run (ix1 0) := by
  unfold diffs
  rw [cat3_head _ _ _ b hb, broadcastInDim_scalar_apply, subf_apply, entry_apply 0 run slices_S9_S1_0 ix0 0 rfl]
theorem diffs_mid (hd : FVec Ideal S_ .f32) (run : FVec Ideal S9 .f32) (b : Fin 10) (k : Fin 8) (hk : 1 + k.val = b.val)
    (p q : Fin 9) (hp : p.val = k.val) (hq : q.val = 1 + k.val) :
    diffs hd run (ix1 b) = run (ix1 p) - run (ix1 q) := by
  unfold diffs
  rw [cat3_mid _ _ _ b k hk, subf_apply, run_apply 0 run slices_S9_S8_0 k p (by omega), run_apply 1 run slices_S9_S8_1 k q hq]
theorem diffs_last (hd : FVec Ideal S_ .f32) (run : FVec Ideal S9 .f32) (b : Fin 10) (hb : b.val = 9) :
    diffs hd run (ix1 b) = run (ix1 8) := by
  unfold diffs
  rw [cat3_last _ _ _ b hb, broadcastInDim_scalar_apply, entry_apply 8 run slices_S9_S1_8 ix0 8 rfl]

/-- The per-bin counts are the specification's, of the 24 rows. -/
theorem cnts_apply (c : FVec Ideal S24 .f32) (b : Fin 10) : cnts c (ix1 b) = Cert.Spec.cntK (fun r => c (ix1 r)) b := by
  unfold Cert.Spec.cntK cnts
  by_cases h9 : b.val = 9
  · rw [dif_pos h9, diffs_last _ _ b h9, run1_apply c 8 9 rfl]
  · rw [dif_neg h9]
    by_cases h0 : b.val = 0
    · rw [diffs_head _ _ b h0, head0_apply c ix0 ⟨b.val, by omega⟩ h0, run1_apply c 0 ⟨b.val + 1, by omega⟩ (by show b.val + 1 = 1 + 0; omega)]
    · rw [diffs_mid _ _ b ⟨b.val - 1, by omega⟩ (by show 1 + (b.val - 1) = b.val; omega) ⟨b.val - 1, by omega⟩ ⟨b.val, by omega⟩ rfl
          (by show b.val = 1 + (b.val - 1); omega),
        run1_apply c ⟨b.val - 1, by omega⟩ ⟨b.val, by omega⟩ (by show b.val = 1 + (b.val - 1); omega),
        run1_apply c ⟨b.val, by omega⟩ ⟨b.val + 1, by omega⟩ (by show b.val + 1 = 1 + b.val; omega)]

/-- The per-bin loss sums likewise. -/
theorem sums_apply (c : FVec Ideal S24 .f32) (b : Fin 10) : sums c (ix1 b) = Cert.Spec.sumK (fun r => c (ix1 r)) b := by
  unfold Cert.Spec.sumK sums
  by_cases h9 : b.val = 9
  · rw [dif_pos h9, diffs_last _ _ b h9, run11_apply c 8 19 rfl]
  · rw [dif_neg h9]
    by_cases h0 : b.val = 0
    · rw [diffs_head _ _ b h0, head10_apply c ix0 ⟨b.val + 10, by omega⟩ (by show b.val + 10 = 10; omega),
        run11_apply c 0 ⟨b.val + 11, by omega⟩ (by show b.val + 11 = 11 + 0; omega)]
    · rw [diffs_mid _ _ b ⟨b.val - 1, by omega⟩ (by show 1 + (b.val - 1) = b.val; omega) ⟨b.val - 1, by omega⟩ ⟨b.val, by omega⟩ rfl
          (by show b.val = 1 + (b.val - 1); omega),
        run11_apply c ⟨b.val - 1, by omega⟩ ⟨b.val + 10, by omega⟩ (by show b.val + 10 = 11 + (b.val - 1); omega),
        run11_apply c ⟨b.val, by omega⟩ ⟨b.val + 11, by omega⟩ (by show b.val + 11 = 11 + b.val; omega)]

/-! ## The loss -/

/-- A decided comparison, converted to a float, is one or zero. -/
theorem bit_val (p : Prop) [Decidable p] :
    (FloatOps.uitofp (F := Ideal) .f32 (BitVec.ofBool (decide p)) : EReal) = if p then 1 else 0 := by
  by_cases h : p
  · rw [if_pos h, decide_eq_true h]
    show (((BitVec.ofBool true).toNat : ℝ) : EReal) = 1
    simp
  · rw [if_neg h, decide_eq_false h]
    show (((BitVec.ofBool false).toNat : ℝ) : EReal) = 0
    simp
/-- A select on a decided comparison is the `if`. -/
theorem sel_val (p : Prop) [Decidable p] (u v : EReal) : Scalar.select (BitVec.ofBool (decide p)) u v = if p then u else v := by
  by_cases h : p
  · rw [if_pos h, decide_eq_true h]; exact select_one u v
  · rw [if_neg h, decide_eq_false h]; exact select_zero u v

theorem posV_apply (c : FVec Ideal S24 .f32) (b : Fin 10) :
    posV c (ix1 b) = BitVec.ofBool (decide (0 < Cert.Spec.cntK (fun r => c (ix1 r)) b)) := by
  unfold posV
  rw [cmpf_apply, broadcastInDim_scalar_apply, constant_apply, Ideal.ofBits_zero_f32, Ideal.cmpf_def, cnts_apply]
  rfl

theorem totV_apply (c : FVec Ideal S24 .f32) (i : S_.Idx) : totV c i = max (c (ix1 0)) Cert.Spec.one := by
  unfold totV Cert.Spec.one
  rw [maximumf_apply, head0_apply c i 0 rfl, constant_apply]

theorem nV_apply (c : FVec Ideal S24 .f32) (i : S_.Idx) :
    nV c i = max (∑ b : Fin 10, (if 0 < Cert.Spec.cntK (fun r => c (ix1 r)) b then (1 : EReal) else 0)) Cert.Spec.one := by
  unfold nV Cert.Spec.one
  rw [maximumf_apply, constant_apply, hostReduceAdd_apply]
  congr 1
  refine (Ideal.hostReduceAdd_total reducesTo_S10_S_d0 (fun d => d.elim0) _ _ i).trans ?_
  rw [constant_apply, Ideal.ofBits_zero_f32, zero_add, sum_idx1]
  refine Finset.sum_congr rfl fun b _ => ?_
  show FloatOps.uitofp (F := Ideal) .f32 (posV c (ix1 b)) = _
  rw [posV_apply, bit_val]

theorem wV_apply (c : FVec Ideal S24 .f32) (b : Fin 10) :
    wV c (ix1 b) = if 0 < Cert.Spec.cntK (fun r => c (ix1 r)) b
      then Ideal.div (max (c (ix1 0)) Cert.Spec.one) (max (Cert.Spec.cntK (fun r => c (ix1 r)) b) Cert.Spec.one) else 0 := by
  unfold wV
  rw [select_apply, posV_apply, sel_val, hostDivf_apply, broadcastInDim_scalar_apply, totV_apply, maximumf_apply, cnts_apply,
    broadcastInDim_scalar_apply, constant_apply, broadcastInDim_scalar_apply]
  show _ = if _ then Ideal.div _ (max _ (Ideal.ofBits .f32 0x3F800000#32)) else 0
  congr 1
  show Ideal.ofBits .f32 0x00000000#32 = 0
  exact Ideal.ofBits_zero_f32

/-- The tail, as one function of the 24 rows, is the specification's. -/
theorem tailV_apply (c : FVec Ideal S24 .f32) (i : S_.Idx) : tailV c i = Cert.Spec.tailFn (fun r => c (ix1 r)) := by
  unfold tailV Cert.Spec.tailFn
  rw [hostDivf_apply, hostDivf_apply, totV_apply, nV_apply, hostReduceAdd_apply]
  dsimp only
  congr 2
  refine (Ideal.hostReduceAdd_total reducesTo_S10_S_d0 (fun d => d.elim0) _ _ i).trans ?_
  rw [constant_apply, Ideal.ofBits_zero_f32, zero_add, sum_idx1]
  refine Finset.sum_congr rfl fun b _ => ?_
  rw [mulf_apply, wV_apply, sums_apply]

end Tail

/-- After the host tail's operations the result buffer holds the specification's loss of the 24 totals. -/
theorem tail_value (W : Valuation τ sig (Elt Ideal)) (O : FVec Ideal S2x24x128 .f32) (hO : W (Proc.devRef .tc main_v3) = O) :
    StableHlo.after (List.flatten [hostOps1 (F := Ideal), hostOps1_1, hostOps1_2]) W (Proc.devRef .tc main_v48)
      = fun _ => Cert.Spec.tailFn (comb O) := by
  rw [Tail.tail_prog, hO]
  funext i
  rw [Tail.tailV_apply]
  exact congrArg Cert.Spec.tailFn (funext fun r => Tail.rows_apply O r)

end Cert.KernelIdeal.Val

end
-- ==== Proof.KernelIdeal.Blocks.lean ====
/-
  Where a window's block sits in its array.

  The three input windows move together: at grid point t (of 32) each one's block is block t of 4096 rows of its
  131072 x 128 array, so row ρ, lane l of the block is row t·4096 + ρ, lane l of the array. The output window's block
  index is the point's half, t / 16.
-/
import proofs.«408902_j25056839205987_3_alg».proof.Proof.KernelIdeal.Runs
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Hand Idealize.ShloMosaic Idealize.ShloMosaic.ValueIdx

variable (m : (ℓ : Loc nD τ sig) → Buf (Elt Ideal) ℓ)

/-! ## The index maps over the grid -/

/-- Each input window's block index at point t is (t, 0): the core's half times 16 plus the tile, as 32-bit words. -/
theorem idx0_facts : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1_facts : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2_facts : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- The output window's block index at point t is (t / 16, 0, 0): the point's half of the grid. -/
theorem idx3_facts : ∀ t : Fin cfg0.N, win0_3.index t (0 : Fin 3) = t.val / 16 ∧ win0_3.index t (1 : Fin 3) = 0
    ∧ win0_3.index t (2 : Fin 3) = 0 :=
  (by decide +kernel : ∀ t : Fin grid0.N, win0_3.index t (0 : Fin 3) = t.val / 16 ∧ win0_3.index t (1 : Fin 3) = 0
    ∧ win0_3.index t (2 : Fin 3) = 0)

/-! ## A block's index in its array -/

/-- Where index y of input window 0's block at point t lies in the array: row t·4096 + y's row, y's lane. -/
theorem blk0_emb (t : Fin cfg0.N) (y : S4096x128.Idx) (i : S131072x128.Idx)
    (h0 : (i 0).val = t.val * 4096 + (y 0).val) (h1 : (i 1).val = (y 1).val) :
    ((cfg0.win 0).blk t).view.emb y = i := by
  obtain ⟨e0, e1⟩ := idx0_facts t
  funext a; apply Fin.ext
  match a with
  | ⟨0, _⟩ => show win0_0.index t (0 : Fin 2) * 4096 + 1 * (y 0).val = (i 0).val; omega
  | ⟨1, _⟩ => show win0_0.index t (1 : Fin 2) * 128 + 1 * (y 1).val = (i 1).val; omega

/-- Row ρ, lane l of input window 0's block at point t is row t·4096 + ρ, lane l of its array. -/
theorem iblk0_apply (c : Dev nD) (t : Fin cfg0.N) (ρ : Fin 4096) (l : Fin 128) :
    (iblk m c 0 t : Vec Ideal S4096x128 .f32) (ix2 ρ l)
      = (V m c main_v0 : Vec Ideal S131072x128 .f32)
          (ix2 ⟨t.val * 4096 + ρ.val, by have := t.isLt; have : cfg0.N = 32 := N_0; omega⟩ l) := by
  unfold iblk
  show V m c main_v0 (((cfg0.win 0).blk t).view.emb (ix2 ρ l)) = V m c main_v0 (ix2 _ l)
  exact congrArg _ (blk0_emb t (ix2 ρ l) _ rfl rfl)

/-- Where index y of input window 1's block at point t lies in the array: row t·4096 + y's row, y's lane. -/
theorem blk1_emb (t : Fin cfg0.N) (y : S4096x128.Idx) (i : S131072x128.Idx)
    (h0 : (i 0).val = t.val * 4096 + (y 0).val) (h1 : (i 1).val = (y 1).val) :
    ((cfg0.win 1).blk t).view.emb y = i := by
  obtain ⟨e0, e1⟩ := idx1_facts t
  funext a; apply Fin.ext
  match a with
  | ⟨0, _⟩ => show win0_1.index t (0 : Fin 2) * 4096 + 1 * (y 0).val = (i 0).val; omega
  | ⟨1, _⟩ => show win0_1.index t (1 : Fin 2) * 128 + 1 * (y 1).val = (i 1).val; omega

/-- Row ρ, lane l of input window 1's block at point t is row t·4096 + ρ, lane l of its array. -/
theorem iblk1_apply (c : Dev nD) (t : Fin cfg0.N) (ρ : Fin 4096) (l : Fin 128) :
    (iblk m c 1 t : Vec Ideal S4096x128 .f32) (ix2 ρ l)
      = (V m c main_v1 : Vec Ideal S131072x128 .f32)
          (ix2 ⟨t.val * 4096 + ρ.val, by have := t.isLt; have : cfg0.N = 32 := N_0; omega⟩ l) := by
  unfold iblk
  show V m c main_v1 (((cfg0.win 1).blk t).view.emb (ix2 ρ l)) = V m c main_v1 (ix2 _ l)
  exact congrArg _ (blk1_emb t (ix2 ρ l) _ rfl rfl)

/-- Where index y of input window 2's block at point t lies in the array: row t·4096 + y's row, y's lane. -/
theorem blk2_emb (t : Fin cfg0.N) (y : S4096x128.Idx) (i : S131072x128.Idx)
    (h0 : (i 0).val = t.val * 4096 + (y 0).val) (h1 : (i 1).val = (y 1).val) :
    ((cfg0.win 2).blk t).view.emb y = i := by
  obtain ⟨e0, e1⟩ := idx2_facts t
  funext a; apply Fin.ext
  match a with
  | ⟨0, _⟩ => show win0_2.index t (0 : Fin 2) * 4096 + 1 * (y 0).val = (i 0).val; omega
  | ⟨1, _⟩ => show win0_2.index t (1 : Fin 2) * 128 + 1 * (y 1).val = (i 1).val; omega

/-- Row ρ, lane l of input window 2's block at point t is row t·4096 + ρ, lane l of its array. -/
theorem iblk2_apply (c : Dev nD) (t : Fin cfg0.N) (ρ : Fin 4096) (l : Fin 128) :
    (iblk m c 2 t : Vec Ideal S4096x128 .f32) (ix2 ρ l)
      = (V m c main_v2 : Vec Ideal S131072x128 .f32)
          (ix2 ⟨t.val * 4096 + ρ.val, by have := t.isLt; have : cfg0.N = 32 := N_0; omega⟩ l) := by
  unfold iblk
  show V m c main_v2 (((cfg0.win 2).blk t).view.emb (ix2 ρ l)) = V m c main_v2 (ix2 _ l)
  exact congrArg _ (blk2_emb t (ix2 ρ l) _ rfl rfl)

end Cert.KernelIdeal.Val

end
-- ==== Proof.KernelIdeal.Payload.lean ====
/-
  The kernel body's arithmetic read at an index, on the extended reals.

  At a grid point the body loads three 4096 x 128 blocks (logits x, targets t, label weights w) and the 24 x 128
  accumulator a, and writes back a + S, where S stacks 24 rows of column sums over the block's 4096 rows:
  row 0 sums v = [w > 0]; row b (1..9) sums v·[s ≥ b] with s = 10·|sigmoid x − t|; row 10 sums v·ℓ with
  ℓ = softplus x − x·t; row 10+b sums (v·ℓ)·[s ≥ b]; rows 20..23 are zero. Per element these are the 24 row
  functions of the specification, so the new accumulator at (r, l) is the old one plus the sum over the rows ρ of
  row function r at the block's entries (ρ, l).

  The steps: each comparison bit, widened to a word and read as a signed integer, is 1 or 0; the body's softplus
  carries a guard "d ≠ d" that is never true on the extended reals, and x − 0 = x, 0 − y = −y there; a sum down the
  rows followed by a re-laying [128] → [1, 128] is at lane l the sum over the rows of column l; row k of 24 one-row
  pieces stacked along the rows is piece k; the float literals stand as the same words on both sides and only the
  zero word is evaluated.
-/
import proofs.«408902_j25056839205987_3_alg».proof.Proof.Gen.KernelIdeal.Skeleton
import proofs.«408902_j25056839205987_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Val

open Cert.KernelIdeal Cert.KernelIdeal.Gen Idealize.ShloMosaic Idealize.ShloMosaic.ValueIdx

/-! ## One element -/

/-- A truth value widened to a 32-bit word and read as a signed integer is 1 or 0. -/
theorem sitofp_bit (b : Bool) :
    FloatOps.sitofp (F := Ideal) .f32 ((BitVec.ofBool b).setWidth 32) = if b then (1 : EReal) else 0 := by
  cases b
  · show ((((BitVec.ofBool false).setWidth 32).toInt : ℝ) : EReal) = _
    have h : ((BitVec.ofBool false).setWidth 32).toInt = 0 := by decide
    rw [h]; simp
  · show ((((BitVec.ofBool true).setWidth 32).toInt : ℝ) : EReal) = _
    have h : ((BitVec.ofBool true).setWidth 32).toInt = 1 := by decide
    rw [h]; simp

/-- The validity word of a label weight: 1 where the weight is above zero. -/
theorem vf_elem (w : EReal) :
    FloatOps.sitofp (F := Ideal) .f32
        ((FloatOps.cmpf (F := Ideal) (φ := .f32) .ogt w (Scalar.ofBits (F := Ideal) .f32 0x00000000#32)).setWidth 32)
      = Cert.Spec.vf w := by
  show FloatOps.sitofp (F := Ideal) .f32 ((BitVec.ofBool (decide (Ideal.ofBits .f32 0x00000000#32 < w))).setWidth 32) = _
  rw [sitofp_bit, Ideal.ofBits_zero_f32]
  unfold Cert.Spec.vf
  by_cases h : 0 < w <;> simp [h]

/-- The threshold word: 1 where the scaled magnitude is at least the threshold. -/
theorem ge_elem (c : BitVec 32) (s : EReal) :
    FloatOps.sitofp (F := Ideal) .f32
        ((FloatOps.cmpf (F := Ideal) (φ := .f32) .oge s (Scalar.ofBits (F := Ideal) .f32 c)).setWidth 32)
      = Cert.Spec.ge (Ideal.ofBits .f32 c) s := by
  show FloatOps.sitofp (F := Ideal) .f32 ((BitVec.ofBool (decide (Ideal.ofBits .f32 c ≤ s))).setWidth 32) = _
  rw [sitofp_bit]
  unfold Cert.Spec.ge
  by_cases h : Ideal.ofBits .f32 c ≤ s <;> simp [h]

/-- The body's softplus: the guarded branch is never taken on the extended reals, and what is left is
    max(x, 0) + log(1 + e^(−|x|)). -/
theorem softplus_elem (x : EReal) :
    Scalar.select (FloatOps.cmpf (F := Ideal) (φ := .f32) .one (x - Ideal.ofBits .f32 0x00000000#32) (x - Ideal.ofBits .f32 0x00000000#32))
        (x + Ideal.ofBits .f32 0x00000000#32)
        (max x (Ideal.ofBits .f32 0x00000000#32)
          + Ideal.log1p (Ideal.exp (Ideal.ofBits .f32 0x00000000#32
              - max (x - Ideal.ofBits .f32 0x00000000#32) (-(x - Ideal.ofBits .f32 0x00000000#32)))))
      = max x 0 + Ideal.log1p (Ideal.exp (-(max x (-x)))) := by
  rw [Ideal.ofBits_zero_f32, sub_zero, zero_sub]
  have hc : FloatOps.cmpf (F := Ideal) (φ := .f32) .one x x = 0#1 := by
    show BitVec.ofBool (decide (x ≠ x)) = 0#1
    simp
  rw [hc, select_zero]

/-! ## A column sum over the block's 4096 rows, read at a lane -/

/-- The sum down the rows of a 4096 x 128 block, re-laid as one row of 128 lanes, is at lane l the sum over the
    4096 rows of the block's entries in column l. -/
theorem laneRow_apply (src : FVec Ideal S4096x128 .f32) (u : Fin 1) (l : Fin 128) :
    shapeCast S1x128 (multiReduction (F := Ideal) .add [0] S128 src 0x00000000#32 reduces_S4096x128_S128 (.inl rfl) rfl)
        shapeCasts_S128_S1x128 (ix2 u l)
      = ∑ ρ : Fin 4096, src (ix2 ρ l) := by
  rw [shapeCast_a_1a_apply]
  refine (Ideal.multiReduction_add_single src 0x00000000#32 reduces_S4096x128_S128 (.inl rfl) rfl (ix1 l)).trans ?_
  refine Finset.sum_congr rfl fun ρ _ => congrArg src ?_
  funext a
  match a with
  | ⟨0, _⟩ => exact Fin.ext rfl
  | ⟨1, _⟩ => exact Fin.ext rfl

/-! ## The three per-element vectors -/

/-- The validity vector: 1 where the label weight is positive. -/
theorem pay6_apply (x2 : Vec Ideal S4096x128 .f32) (i : S4096x128.Idx) :
    k0_pay6 (F := Ideal) x2 i = Cert.Spec.vf (x2 i) := by
  unfold k0_pay6
  simp only [shapeCast_self]
  exact vf_elem (x2 i)

/-- The scaled gradient magnitude. -/
theorem pay7_apply (x0 x1 : Vec Ideal S4096x128 .f32) (i : S4096x128.Idx) :
    k0_pay7 (F := Ideal) x0 x1 i = Cert.Spec.sc (x0 i) (x1 i) := by
  unfold k0_pay7 k0_pay4 k0_pay5
  simp only [shapeCast_self]
  rfl

/-- The validity times the logistic loss. -/
theorem pay8_apply (x0 x1 x2 : Vec Ideal S4096x128 .f32) (i : S4096x128.Idx) :
    k0_pay8 (F := Ideal) x0 x1 x2 i = Cert.Spec.vf (x2 i) * Cert.Spec.le (x0 i) (x1 i) := by
  unfold k0_pay8 k0_pay4 k0_pay5
  simp only [shapeCast_self]
  show k0_pay6 (F := Ideal) x2 i * (Scalar.select (FloatOps.cmpf (F := Ideal) (φ := .f32) .one (x0 i - Ideal.ofBits .f32 0x00000000#32) (x0 i - Ideal.ofBits .f32 0x00000000#32))
        (x0 i + Ideal.ofBits .f32 0x00000000#32)
        (max (x0 i) (Ideal.ofBits .f32 0x00000000#32)
          + Ideal.log1p (Ideal.exp (Ideal.ofBits .f32 0x00000000#32
              - max (x0 i - Ideal.ofBits .f32 0x00000000#32) (-(x0 i - Ideal.ofBits .f32 0x00000000#32))))) - x0 i * x1 i) = _
  rw [softplus_elem, pay6_apply]
  rfl

/-! ## A thresholded column sum -/

/-- The sum down the rows of m·[s ≥ c], re-laid as one row, read at a lane. -/
theorem thrRow_apply (c : BitVec 32) (m s : FVec Ideal S4096x128 .f32) (u : Fin 1) (l : Fin 128) :
    shapeCast S1x128 (multiReduction (F := Ideal) .add [0] S128
        (mulf m (sitofp .f32 (extui 32 (cmpf .oge s (broadcast S4096x128 (Scalar.ofBits (F := Ideal) .f32 c))) natLt_1_32)))
        0x00000000#32 reduces_S4096x128_S128 (.inl rfl) rfl) shapeCasts_S128_S1x128 (ix2 u l)
      = ∑ ρ : Fin 4096, m (ix2 ρ l) * Cert.Spec.ge (Ideal.ofBits .f32 c) (s (ix2 ρ l)) := by
  rw [laneRow_apply]
  refine Finset.sum_congr rfl fun ρ _ => ?_
  exact congrArg (m (ix2 ρ l) * ·) (ge_elem c (s (ix2 ρ l)))

/-! ## One row of the 24 stacked rows -/

/-- Of 24 pieces stacked along the rows, each one row high, row k of the stack is piece k. -/
theorem cat24_row {α : Type} (xs : List ((s : Shape) × (s.Idx → α)))
    (h : Shape.Concatenates (xs.map (·.1)) S24x128 0) (hall : xs.map (·.1) = List.replicate 24 S1x128)
    (k : Nat) (hk24 : k < 24) (p : S1x128.Idx → α) (hxk : xs[k]? = some ⟨S1x128, p⟩) (l : Fin 128) :
    concatenate S24x128 0 xs h (ix2 (⟨k, hk24⟩ : Fin 24) l) = p (ix2 (0 : Fin 1) l) := by
  obtain ⟨hk, hxk'⟩ := List.getElem?_eq_some_iff.mp hxk
  have hone : (if h : S1x128.rank = S24x128.rank then S1x128.size ((0 : Fin S24x128.rank).cast h.symm) else 0) = 1 := rfl
  have hpre : (((xs.take k).map (·.1)).map fun s =>
      if h : s.rank = S24x128.rank then s.size ((0 : Fin S24x128.rank).cast h.symm) else 0).sum = k := by
    rw [List.map_take, hall, List.take_replicate, List.map_replicate, List.sum_replicate, hone, smul_eq_mul, mul_one]
    omega
  exact concatenate_apply_piece (t := S24x128) 0 xs h (ix2 (⟨k, hk24⟩ : Fin 24) l) k hk S1x128 p hxk' rfl k hpre
    (ix2 (0 : Fin 1) l)
    (fun b hb => by
      match b with
      | ⟨0, _⟩ => exact absurd rfl hb
      | ⟨1, _⟩ => rfl)
    (Nat.add_zero k)

/-! ## The accumulator after a point -/

/-- The accumulator after a point, from the point's three blocks and the accumulator before it. -/
def accNext (x0 x1 x2 : Vec Ideal S4096x128 .f32) (a : Vec Ideal S24x128 .f32) : Vec Ideal S24x128 .f32 :=
  k0_pay1 (F := Ideal) (k0_pay27 (k0_pay6 x2) (k0_pay7 x0 x1) (k0_pay8 x0 x1 x2) (k0_pay9 x2) (k0_pay10 x0 x1 x2)
    (k0_pay13 (k0_pay6 x2) (k0_pay11 x0 x1)) (k0_pay14 (k0_pay8 x0 x1 x2) (k0_pay11 x0 x1))
    (k0_pay16 (k0_pay6 x2) (k0_pay7 x0 x1)) (k0_pay17 (k0_pay7 x0 x1) (k0_pay8 x0 x1 x2))
    (k0_pay19 (k0_pay6 x2) (k0_pay7 x0 x1)) (k0_pay20 (k0_pay7 x0 x1) (k0_pay8 x0 x1 x2))
    (k0_pay22 (k0_pay6 x2) (k0_pay7 x0 x1)) (k0_pay23 (k0_pay7 x0 x1) (k0_pay8 x0 x1 x2))
    (k0_pay25 (k0_pay6 x2) (k0_pay7 x0 x1)) (k0_pay26 (k0_pay7 x0 x1) (k0_pay8 x0 x1 x2)) a)

theorem accNext_apply (x0 x1 x2 : Vec Ideal S4096x128 .f32) (a : Vec Ideal S24x128 .f32) (r : Fin 24) (l : Fin 128) :
    accNext x0 x1 x2 a (ix2 r l)
      = a (ix2 r l) + ∑ ρ : Fin 4096, Cert.Spec.q r (x0 (ix2 ρ l)) (x1 (ix2 ρ l)) (x2 (ix2 ρ l)) := by
  unfold accNext k0_pay1
  simp only [shapeCast_self]
  unfold k0_pay27
  simp only [addf_apply]
  refine congrArg (a (ix2 r l) + ·) ?_
  match r with
  -- row 0: the count of valid elements
  | ⟨0, _⟩ =>
    refine (cat24_row _ _ rfl 0 (by decide) _ rfl l).trans ?_
    refine (laneRow_apply (k0_pay6 x2) 0 l).trans ?_
    refine Finset.sum_congr rfl fun ρ _ => ?_
    rw [pay6_apply]; rfl
  -- rows 1..9: the valid elements whose scaled magnitude is at least b
  | ⟨1, _⟩ =>
    refine (cat24_row _ _ rfl 1 (by decide) _ rfl l).trans ?_
    refine (thrRow_apply 0x3F800000#32 (k0_pay6 x2) (k0_pay7 x0 x1) 0 l).trans ?_
    refine Finset.sum_congr rfl fun ρ _ => ?_
    rw [pay6_apply, pay7_apply]; rfl
  | ⟨2, _⟩ =>
    refine (cat24_row _ _ rfl 2 (by decide) _ rfl l).trans ?_
    refine (thrRow_apply 0x40000000#32 (k0_pay6 x2) (k0_pay7 x0 x1) 0 l).trans ?_
    refine Finset.sum_congr rfl fun ρ _ => ?_
    rw [pay6_apply, pay7_apply]; rfl
  | ⟨3, _⟩ =>
    refine (cat24_row _ _ rfl 3 (by decide) _ rfl l).trans ?_
    refine (thrRow_apply 0x40400000#32 (k0_pay6 x2) (k0_pay7 x0 x1) 0 l).trans ?_
    refine Finset.sum_congr rfl fun ρ _ => ?_
    rw [pay6_apply, pay7_apply]; rfl
  | ⟨4, _⟩ =>
    refine (cat24_row _ _ rfl 4 (by decide) _ rfl l).trans ?_
    refine (thrRow_apply 0x40800000#32 (k0_pay6 x2) (k0_pay7 x0 x1) 0 l).trans ?_
    refine Finset.sum_congr rfl fun ρ _ => ?_
    rw [pay6_apply, pay7_apply]; rfl
  | ⟨5, _⟩ =>
    refine (cat24_row _ _ rfl 5 (by decide) _ rfl l).trans ?_
    refine (thrRow_apply 0x40A00000#32 (k0_pay6 x2) (k0_pay7 x0 x1) 0 l).trans ?_
    refine Finset.sum_congr rfl fun ρ _ => ?_
    rw [pay6_apply, pay7_apply]; rfl
  | ⟨6, _⟩ =>
    refine (cat24_row _ _ rfl 6 (by decide) _ rfl l).trans ?_
    refine (thrRow_apply 0x40C00000#32 (k0_pay6 x2) (k0_pay7 x0 x1) 0 l).trans ?_
    refine Finset.sum_congr rfl fun ρ _ => ?_
    rw [pay6_apply, pay7_apply]; rfl
  | ⟨7, _⟩ =>
    refine (cat24_row _ _ rfl 7 (by decide) _ rfl l).trans ?_
    refine (thrRow_apply 0x40E00000#32 (k0_pay6 x2) (k0_pay7 x0 x1) 0 l).trans ?_
    refine Finset.sum_congr rfl fun ρ _ => ?_
    rw [pay6_apply, pay7_apply]; rfl
  | ⟨8, _⟩ =>
    refine (cat24_row _ _ rfl 8 (by decide) _ rfl l).trans ?_
    refine (thrRow_apply 0x41000000#32 (k0_pay6 x2) (k0_pay7 x0 x1) 0 l).trans ?_
    refine Finset.sum_congr rfl fun ρ _ => ?_
    rw [pay6_apply, pay7_apply]; rfl
  | ⟨9, _⟩ =>
    refine (cat24_row _ _ rfl 9 (by decide) _ rfl l).trans ?_
    refine (thrRow_apply 0x41100000#32 (k0_pay6 x2) (k0_pay7 x0 x1) 0 l).trans ?_
    refine Finset.sum_congr rfl fun ρ _ => ?_
    rw [pay6_apply, pay7_apply]; rfl
  -- row 10: the loss of the valid elements
  | ⟨10, _⟩ =>
    refine (cat24_row _ _ rfl 10 (by decide) _ rfl l).trans ?_
    refine (laneRow_apply (k0_pay8 x0 x1 x2) 0 l).trans ?_
    refine Finset.sum_congr rfl fun ρ _ => ?_
    rw [pay8_apply]; rfl
  -- rows 11..19: that loss where the scaled magnitude is at least b
  | ⟨11, _⟩ =>
    refine (cat24_row _ _ rfl 11 (by decide) _ rfl l).trans ?_
    refine (thrRow_apply 0x3F800000#32 (k0_pay8 x0 x1 x2) (k0_pay7 x0 x1) 0 l).trans ?_
    refine Finset.sum_congr rfl fun ρ _ => ?_
    rw [pay8_apply, pay7_apply]; rfl
  | ⟨12, _⟩ =>
    refine (cat24_row _ _ rfl 12 (by decide) _ rfl l).trans ?_
    refine (thrRow_apply 0x40000000#32 (k0_pay8 x0 x1 x2) (k0_pay7 x0 x1) 0 l).trans ?_
    refine Finset.sum_congr rfl fun ρ _ => ?_
    rw [pay8_apply, pay7_apply]; rfl
  | ⟨13, _⟩ =>
    refine (cat24_row _ _ rfl 13 (by decide) _ rfl l).trans ?_
    refine (thrRow_apply 0x40400000#32 (k0_pay8 x0 x1 x2) (k0_pay7 x0 x1) 0 l).trans ?_
    refine Finset.sum_congr rfl fun ρ _ => ?_
    rw [pay8_apply, pay7_apply]; rfl
  | ⟨14, _⟩ =>
    refine (cat24_row _ _ rfl 14 (by decide) _ rfl l).trans ?_
    refine (thrRow_apply 0x40800000#32 (k0_pay8 x0 x1 x2) (k0_pay7 x0 x1) 0 l).trans ?_
    refine Finset.sum_congr rfl fun ρ _ => ?_
    rw [pay8_apply, pay7_apply]; rfl
  | ⟨15, _⟩ =>
    refine (cat24_row _ _ rfl 15 (by decide) _ rfl l).trans ?_
    refine (thrRow_apply 0x40A00000#32 (k0_pay8 x0 x1 x2) (k0_pay7 x0 x1) 0 l).trans ?_
    refine Finset.sum_congr rfl fun ρ _ => ?_
    rw [pay8_apply, pay7_apply]; rfl
  | ⟨16, _⟩ =>
    refine (cat24_row _ _ rfl 16 (by decide) _ rfl l).trans ?_
    refine (thrRow_apply 0x40C00000#32 (k0_pay8 x0 x1 x2) (k0_pay7 x0 x1) 0 l).trans ?_
    refine Finset.sum_congr rfl fun ρ _ => ?_
    rw [pay8_apply, pay7_apply]; rfl
  | ⟨17, _⟩ =>
    refine (cat24_row _ _ rfl 17 (by decide) _ rfl l).trans ?_
    refine (thrRow_apply 0x40E00000#32 (k0_pay8 x0 x1 x2) (k0_pay7 x0 x1) 0 l).trans ?_
    refine Finset.sum_congr rfl fun ρ _ => ?_
    rw [pay8_apply, pay7_apply]; rfl
  | ⟨18, _⟩ =>
    refine (cat24_row _ _ rfl 18 (by decide) _ rfl l).trans ?_
    refine (thrRow_apply 0x41000000#32 (k0_pay8 x0 x1 x2) (k0_pay7 x0 x1) 0 l).trans ?_
    refine Finset.sum_congr rfl fun ρ _ => ?_
    rw [pay8_apply, pay7_apply]; rfl
  | ⟨19, _⟩ =>
    refine (cat24_row _ _ rfl 19 (by decide) _ rfl l).trans ?_
    refine (thrRow_apply 0x41100000#32 (k0_pay8 x0 x1 x2) (k0_pay7 x0 x1) 0 l).trans ?_
    refine Finset.sum_congr rfl fun ρ _ => ?_
    rw [pay8_apply, pay7_apply]; rfl
  -- rows 20..23: the padding rows gain zero
  | ⟨20, _⟩ =>
    refine (cat24_row _ _ rfl 20 (by decide) _ rfl l).trans ?_
    refine Ideal.ofBits_zero_f32.trans ?_
    exact (Finset.sum_eq_zero fun ρ _ => rfl).symm
  | ⟨21, _⟩ =>
    refine (cat24_row _ _ rfl 21 (by decide) _ rfl l).trans ?_
    refine Ideal.ofBits_zero_f32.trans ?_
    exact (Finset.sum_eq_zero fun ρ _ => rfl).symm
  | ⟨22, _⟩ =>
    refine (cat24_row _ _ rfl 22 (by decide) _ rfl l).trans ?_
    refine Ideal.ofBits_zero_f32.trans ?_
    exact (Finset.sum_eq_zero fun ρ _ => rfl).symm
  | ⟨23, _⟩ =>
    refine (cat24_row _ _ rfl 23 (by decide) _ rfl l).trans ?_
    refine Ideal.ofBits_zero_f32.trans ?_
    exact (Finset.sum_eq_zero fun ρ _ => rfl).symm
  | ⟨n + 24, h⟩ => exact absurd h (by omega)

/-! ## The reset value and the copy-out -/

/-- The reset value of the accumulator is zero everywhere. -/
theorem pay3_apply (j : S24x128.Idx) : k0_pay3 (F := Ideal) j = 0 := by
  unfold k0_pay3
  simp only [shapeCast_self]
  exact Ideal.ofBits_zero_f32

/-- The copy-out payload is the accumulator re-laid as 1 x 24 x 128. -/
theorem pay2_apply (v : Vec Ideal S24x128 .f32) (r : Fin 24) (l : Fin 128) :
    k0_pay2 (F := Ideal) v (ix3 (0 : Fin 1) r l) = v (ix2 r l) := by
  unfold k0_pay2
  exact shapeCast_ab_1ab_apply v shapeCasts_S24x128_S1x24x128 0 r l

end Cert.KernelIdeal.Val

end
-- ==== Proof.KernelIdeal.Flush.lean ====
/-
  The result array from the write-backs.

  The output window's block (1 x 24 x 128) is written back twice, at the last point of each half of the grid (points 15
  and 31), into half 0 and half 1 of the 2 x 24 x 128 result array. So half cc of the result is what point cc·16 + 15
  left in the output block's buffer.
-/
import proofs.«408902_j25056839205987_3_alg».proof.Proof.KernelIdeal.Frame
import proofs.«408902_j25056839205987_3_alg».proof.Proof.KernelIdeal.Blocks
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Hand Idealize.ShloMosaic Idealize.ShloMosaic.ValueIdx

variable (m : (ℓ : Loc nD τ sig) → Buf (Elt Ideal) ℓ)

/-- The contents after a position depend on the position only, not on the proof that it is inside the grid. -/
theorem outsAt0_congr (c : Dev nD) {n n' : ℕ} (h : n = n') (hn : n < cfg0.N) (hn' : n' < cfg0.N) :
    outsAt0 m c n hn = outsAt0 m c n' hn' := by
  subst h; rfl

/-- The result array the two write-backs leave: half cc holds what the half's last point, cc·16 + 15, left in the
    output block's buffer. -/
def resArr (c : Dev nD) : FVec Ideal S2x24x128 .f32 := fun j =>
  ((outsAt0 m c ((j 0).val * 16 + 15)
      (by have : (j 0).val < 2 := (j 0).isLt; have : cfg0.N = 32 := N_0; omega)).1 : Vec Ideal S1x24x128 .f32)
    (ix3 (0 : Fin 1) (j 1) (j 2))

/-- At a last point t of a half, the result array at an index of half t / 16 is the output block's buffer after t at
    the index with the same row and lane. -/
theorem resArr_at (c : Dev nD) (t : Fin cfg0.N) (h15 : t.val % 16 = 15) (j : S2x24x128.Idx) (y : S1x24x128.Idx)
    (h0 : (j 0).val = t.val / 16) (h1 : (j 1).val = (y 1).val) (h2 : (j 2).val = (y 2).val) :
    resArr m c j = ((outsAt0 m c t.val t.isLt).1 : Vec Ideal S1x24x128 .f32) y := by
  have hn : (j 0).val * 16 + 15 = t.val := by omega
  have hy : ix3 (0 : Fin 1) (j 1) (j 2) = y := by
    funext a; apply Fin.ext
    match a with
    | ⟨0, _⟩ => show (0 : ℕ) = (y 0).val; have : (y 0).val < 1 := (y 0).isLt; omega
    | ⟨1, _⟩ => exact h1
    | ⟨2, _⟩ => exact h2
  have h := outsAt0_congr m c hn (by have : cfg0.N = 32 := N_0; omega) t.isLt
  unfold resArr
  exact (congrArg (fun p : Vec Ideal S1x24x128 .f32 × Vec Ideal S24x128 .f32 => p.1 (ix3 (0 : Fin 1) (j 1) (j 2))) h).trans
    (congrArg (outsAt0 m c t.val t.isLt).1 hy)

/-- What a flushing point writes back is its block of the result array. -/
theorem flushed3_eq (c : Dev nD) (t : Fin cfg0.N) (hf : (cfg0.win 3).flush t = true) :
    (dats m 0 c).flushed 3 t = ((cfg0.win 3).blk t).view.read (Elt Ideal) (resArr m c) := by
  have h15 : t.val % 16 = 15 := (flush0_3 t).mp hf
  obtain ⟨e0, e1, e2⟩ := idx3_facts t
  show (cfg0.win 3).cut (grid0.coords t) ((dats m 0 c).after 3 t) = _
  rw [after0_3]
  funext y
  have hy0 : (y 0).val < 1 := (y 0).isLt
  refine (resArr_at m c t h15 (((cfg0.win 3).blk t).view.emb y) ((cfg0.win 3).xinj (grid0.coords t) y) ?_ ?_ ?_).symm
  · show win0_3.index t (0 : Fin 3) * 1 + 1 * (y 0).val = t.val / 16; omega
  · show win0_3.index t (1 : Fin 3) * 24 + 1 * (y 1).val = (y 1).val; omega
  · show win0_3.index t (2 : Fin 3) * 128 + 1 * (y 2).val = (y 2).val; omega

/-- An index of the result array is in point t's block iff each coordinate is in the block's range on its axis. -/
theorem mem_blk3 (t : Fin cfg0.N) (i : S2x24x128.Idx) :
    i ∈ ((cfg0.win 3).blk t).view.set ↔ ∀ a : Fin 3, win0_3.index t a * S1x24x128.size a ≤ (i a).val
      ∧ (i a).val < win0_3.index t a * S1x24x128.size a + S1x24x128.size a := by
  show i ∈ ((View.whole main_v3).slice (win0_3.rect t)).set ↔ _
  rw [View.set_slice_whole, Rect.mem_set_unit]
  exact Iff.rfl

/-- Every index of the result array is in the block written back at its half's last point. -/
theorem cover3 (i : S2x24x128.Idx) :
    ∃ t : Fin cfg0.N, (cfg0.win 3).flush t = true ∧ i ∈ ((cfg0.win 3).blk t).view.set := by
  have hN : cfg0.N = 32 := N_0
  have hi0 : (i 0).val < 2 := (i 0).isLt
  have hi1 : (i 1).val < 24 := (i 1).isLt
  have hi2 : (i 2).val < 128 := (i 2).isLt
  let t : Fin cfg0.N := ⟨(i 0).val * 16 + 15, by omega⟩
  have htv : t.val = (i 0).val * 16 + 15 := rfl
  obtain ⟨e0, e1, e2⟩ := idx3_facts t
  refine ⟨t, (flush0_3 t).mpr (by omega), ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 24 ≤ (i 1).val ∧ (i 1).val < win0_3.index t (1 : Fin 3) * 24 + 24; omega
  | ⟨2, _⟩ => show win0_3.index t (2 : Fin 3) * 128 ≤ (i 2).val ∧ (i 2).val < win0_3.index t (2 : Fin 3) * 128 + 128; omega

/-- The result array after the run is the two write-backs' array. -/
theorem arrAt3_eq (c : Dev nD) : (dats m 0 c).arrAt 3 cfg0.N = resArr m c :=
  (dats m 0 c).arrAt_eq_of_cover 3 (resArr m c) (flushed3_eq m c) cover3

/-- Half cc of the result array is what the half's last point (cc·16 + 15) left in the output block's buffer. -/
theorem arrAt3_apply (c : Dev nD) (cc : Fin 2) (r : Fin 24) (l : Fin 128) :
    ((dats m 0 c).arrAt 3 cfg0.N : FVec Ideal S2x24x128 .f32) (ix3 cc r l)
      = ((outsAt0 m c (cc.val * 16 + 15) (by have := cc.isLt; have : cfg0.N = 32 := N_0; omega)).1 :
          Vec Ideal S1x24x128 .f32) (ix3 (0 : Fin 1) r l) :=
  (congrFun (arrAt3_eq m c) (ix3 cc r l)).trans rfl

end Cert.KernelIdeal.Val

end
-- ==== Proof.KernelIdeal.Value.lean ====
/-
  What the kernel's result array holds, over the extended reals.

  The grid has 2 halves of 16 tiles; a tile is 4096 rows of 128 lanes of each of the three inputs. Within a half the
  kernel keeps a 24 x 128 accumulator: the half's first tile zeroes it and adds the tile's 24 rows of lane sums, every
  later tile adds its own, and the half's last tile also copies the accumulator out as the half's 1 x 24 x 128 block of
  the 2 x 24 x 128 result. So half cc, row r, lane l of the result is row r's per-element function summed over the half's
  16 tiles and each tile's 4096 rows, in lane l.

  The steps: (1) what each of the three kinds of point leaves in the accumulator, and the last kind in the output
  block, as one update function of the point's three blocks and the accumulator before; (2) by induction on the
  point, the accumulator after point n holds the sums of the tiles of n's half up to n; (3) at the half's last point
  the running sum is the whole half's, the block read through its window is the array's rows (cc·16 + tile)·4096 + ρ.
-/
import proofs.«408902_j25056839205987_3_alg».proof.Proof.KernelIdeal.Frame
import proofs.«408902_j25056839205987_3_alg».proof.Proof.KernelIdeal.Blocks
import proofs.«408902_j25056839205987_3_alg».proof.Proof.KernelIdeal.Payload
import proofs.«408902_j25056839205987_3_alg».proof.Proof.KernelIdeal.Flush
import proofs.«408902_j25056839205987_3_alg».proof.Proof.Spec
import Idealize.ShloMosaic.Lib.ValueIdx
import Idealize.ShloMosaic.Lib.Pipeline.Value

set_option maxRecDepth 16384

noncomputable section

open scoped BigOperators

namespace Cert.KernelIdeal.Val

open Cert.KernelIdeal Cert.KernelIdeal.Gen Cert.KernelIdeal.Hand Idealize.ShloMosaic Idealize.ShloMosaic.ValueIdx
open Idealize.ShloMosaic.Tactic Idealize.SL.Sem
open Idealize.ShloMosaic.Pipeline (Dat)

variable (m : (ℓ : Loc nD τ sig) → Buf (Elt Ideal) ℓ)

/-! ## What each kind of point leaves -/

/-- The zero offsets of a whole-block load or store, of rank 2 and of rank 3. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A middle tile leaves the accumulator at its update. -/
theorem piece_B (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x24x128 .f32) (harg5 : arg5.IsWhole) (arg6 : Memref sig .tc .vmem S24x128 .f32) (harg6 : arg6.IsWhole) (hc0 : ¬cond0_0 i) (hc1 : ¬cond0_1 i)
    (x0 x1 x2 : Vec Ideal S4096x128 .f32) (xs0 : Vec Ideal S24x128 .f32) :
    sout0_B_0 (F := Ideal) c i arg2 harg2 arg3 harg3 arg4 harg4 arg5 harg5 arg6 harg6 hc0 hc1 x0 x1 x2 xs0 = accNext x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz2]
  simp only [View.readAt_eq_ld, harg2.read_unread, harg3.read_unread, harg4.read_unread, harg5.read_unread, harg6.read_unread, View.ld_unit_zero (S := S4096x128) hz2, View.ld_unit_zero (S := S24x128) hz2, View.ld_unit_zero (S := S1x24x128) hz3, View.readCov_unit_zero (S := S24x128) _ hz2]
  rfl

/-- A last tile leaves the accumulator at its update. -/
theorem piece_C (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x24x128 .f32) (harg5 : arg5.IsWhole) (arg6 : Memref sig .tc .vmem S24x128 .f32) (harg6 : arg6.IsWhole) (hc0 : ¬cond0_0 i) (hc1 : cond0_1 i)
    (x0 x1 x2 : Vec Ideal S4096x128 .f32) (xs0 : Vec Ideal S24x128 .f32) :
    sout0_C_0 (F := Ideal) c i arg2 harg2 arg3 harg3 arg4 harg4 arg5 harg5 arg6 harg6 hc0 hc1 x0 x1 x2 xs0 = accNext x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg5.read_unread, harg6.read_unread, View.ld_unit_zero (S := S4096x128) hz2, View.ld_unit_zero (S := S24x128) hz2, View.ld_unit_zero (S := S1x24x128) hz3, View.readCov_unit_zero (S := S24x128) _ hz2]
  rfl

/-- A last tile leaves the output block at the updated accumulator, re-laid with a leading unit axis. -/
theorem piece_C3 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x24x128 .f32) (harg5 : arg5.IsWhole) (arg6 : Memref sig .tc .vmem S24x128 .f32) (harg6 : arg6.IsWhole) (hc0 : ¬cond0_0 i) (hc1 : cond0_1 i)
    (x0 x1 x2 : Vec Ideal S4096x128 .f32) (xs0 : Vec Ideal S24x128 .f32) :
    out0_C_3 (F := Ideal) c i arg2 harg2 arg3 harg3 arg4 harg4 arg5 harg5 arg6 harg6 hc0 hc1 x0 x1 x2 xs0 = k0_pay2 (F := Ideal) (accNext x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz3]
  simp only [View.readAt_eq_ld, harg2.read_unread, harg3.read_unread, harg4.read_unread, harg5.read_unread, harg6.read_unread, View.ld_unit_zero (S := S4096x128) hz2, View.ld_unit_zero (S := S24x128) hz2, View.ld_unit_zero (S := S1x24x128) hz3, View.readCov_unit_zero (S := S24x128) _ hz2]
  rfl

/-- A first tile zeroes the accumulator and leaves it at the update of the zero block. -/
theorem piece_A (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x24x128 .f32) (harg5 : arg5.IsWhole) (arg6 : Memref sig .tc .vmem S24x128 .f32) (harg6 : arg6.IsWhole) (hc0 : cond0_0 i) (hc1 : ¬cond0_1 i)
    (x0 x1 x2 : Vec Ideal S4096x128 .f32) :
    sout0_A_0 (F := Ideal) c i arg2 harg2 arg3 harg3 arg4 harg4 arg5 harg5 arg6 harg6 hc0 hc1 x0 x1 x2 = accNext x0 x1 x2 (k0_pay3 (F := Ideal)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S24x128) hz2]
  simp only [View.readAt_eq_ld, harg2.read_unread, harg3.read_unread, harg4.read_unread, harg5.read_unread, harg6.read_unread, View.ld_unit_zero (S := S4096x128) hz2, View.ld_unit_zero (S := S24x128) hz2, View.ld_unit_zero (S := S1x24x128) hz3, View.readCov_unit_zero (S := S24x128) _ hz2]
  rfl

/-! ## The accumulator after each point -/

/-- The three input blocks at a point, at their literal type. -/
abbrev xb0 (c : Dev nD) (t : Fin cfg0.N) : Vec Ideal S4096x128 .f32 := iblk m c 0 t
abbrev xb1 (c : Dev nD) (t : Fin cfg0.N) : Vec Ideal S4096x128 .f32 := iblk m c 1 t
abbrev xb2 (c : Dev nD) (t : Fin cfg0.N) : Vec Ideal S4096x128 .f32 := iblk m c 2 t

/-- Row r's per-element function summed down lane l of the tile at point n (nothing past the grid). -/
def tileSum (c : Dev nD) (r : Fin 24) (l : Fin 128) (n : ℕ) : EReal :=
  if h : n < cfg0.N then
    ∑ ρ : Fin 4096, Cert.Spec.q r (xb0 m c ⟨n, h⟩ (ix2 ρ l)) (xb1 m c ⟨n, h⟩ (ix2 ρ l)) (xb2 m c ⟨n, h⟩ (ix2 ρ l))
  else 0

/-- At a half's first tile the accumulator is left at the tile's sums. -/
theorem acc_first (c : Dev nD) (t : Fin cfg0.N) (h0 : t.val % 16 = 0) (r : Fin 24) (l : Fin 128) :
    ((outsAt0 m c t.val t.isLt).2 : Vec Ideal S24x128 .f32) (ix2 r l) = tileSum m c r l t.val := by
  have h1 : ¬t.val % 16 = 15 := by omega
  rw [outsAt0_A m c t h0 h1]
  dsimp only
  refine (congrFun (piece_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (xb0 m c t) (xb1 m c t) (xb2 m c t)) (ix2 r l)).trans ?_
  rw [accNext_apply, pay3_apply, zero_add]
  unfold tileSum
  rw [dif_pos t.isLt]

/-- At any later tile of a half the tile's sums are added to what the point before left. -/
theorem acc_next (c : Dev nD) (t : Fin cfg0.N) (h0 : ¬t.val % 16 = 0) (r : Fin 24) (l : Fin 128) :
    ((outsAt0 m c t.val t.isLt).2 : Vec Ideal S24x128 .f32) (ix2 r l)
      = ((outsAt0 m c (t.val - 1) (Nat.lt_of_le_of_lt (Nat.sub_le _ _) t.isLt)).2 : Vec Ideal S24x128 .f32) (ix2 r l) + tileSum m c r l t.val := by
  by_cases h1 : t.val % 16 = 15
  · rw [outsAt0_C m c t h0 h1]
    dsimp only
    refine (congrFun (piece_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xb0 m c t) (xb1 m c t) (xb2 m c t) (outsAt0 m c (t.val - 1) (Nat.lt_of_le_of_lt (Nat.sub_le _ _) t.isLt)).2) (ix2 r l)).trans ?_
    rw [accNext_apply]
    unfold tileSum
    rw [dif_pos t.isLt]
  · rw [outsAt0_B m c t h0 h1]
    dsimp only
    refine (congrFun (piece_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (xb0 m c t) (xb1 m c t) (xb2 m c t) (outsAt0 m c (t.val - 1) (Nat.lt_of_le_of_lt (Nat.sub_le _ _) t.isLt)).2) (ix2 r l)).trans ?_
    rw [accNext_apply]
    unfold tileSum
    rw [dif_pos t.isLt]

/-- At a half's last tile the output block's buffer is the accumulator, re-laid with a leading unit axis. -/
theorem out_last (c : Dev nD) (t : Fin cfg0.N) (h1 : t.val % 16 = 15) :
    (outsAt0 m c t.val t.isLt).1 = k0_pay2 (F := Ideal) (outsAt0 m c t.val t.isLt).2 := by
  have h0 : ¬t.val % 16 = 0 := by omega
  rw [outsAt0_C m c t h0 h1]
  dsimp only
  rw [piece_C3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xb0 m c t) (xb1 m c t) (xb2 m c t) (outsAt0 m c (t.val - 1) (Nat.lt_of_le_of_lt (Nat.sub_le _ _) t.isLt)).2,
    piece_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xb0 m c t) (xb1 m c t) (xb2 m c t) (outsAt0 m c (t.val - 1) (Nat.lt_of_le_of_lt (Nat.sub_le _ _) t.isLt)).2]

/-- The invariant: after point n the accumulator holds, in row r and lane l, the sums of the tiles of n's half up to n. -/
theorem acc_eq (c : Dev nD) (r : Fin 24) (l : Fin 128) : ∀ (n : ℕ) (hn : n < cfg0.N),
    ((outsAt0 m c n hn).2 : Vec Ideal S24x128 .f32) (ix2 r l)
      = ∑ j ∈ Finset.range (n % 16 + 1), tileSum m c r l (n - n % 16 + j)
  | 0, hn => by
    rw [acc_first m c ⟨0, hn⟩ rfl r l]
    simp
  | n + 1, hn => by
    by_cases h0 : (n + 1) % 16 = 0
    · rw [acc_first m c ⟨n + 1, hn⟩ h0 r l, h0]
      simp
    · have ih := acc_eq c r l n (Nat.lt_of_succ_lt hn)
      rw [acc_next m c ⟨n + 1, hn⟩ h0 r l]
      show ((outsAt0 m c n _).2 : Vec Ideal S24x128 .f32) (ix2 r l) + tileSum m c r l (n + 1) = _
      rw [ih]
      have e1 : (n + 1) % 16 = n % 16 + 1 := by omega
      have e2 : n + 1 - (n % 16 + 1) = n - n % 16 := by omega
      have e3 : n - n % 16 + (n % 16 + 1) = n + 1 := by omega
      rw [e1, e2, Finset.sum_range_succ _ (n % 16 + 1), e3]

/-! ## The result array -/

/-- Half cc, row r, lane l of the result: row r's per-element function summed over the half's 16 tiles of 4096 rows, in lane l. -/
def OarrAt (c : Dev nD) (cc : Fin 2) (r : Fin 24) (l : Fin 128) : EReal :=
  ∑ tile : Fin 16, ∑ ρ : Fin 4096,
    Cert.Spec.q r ((V m c main_v0 : Vec Ideal S131072x128 .f32) (ix2 ⟨(cc.val * 16 + tile.val) * 4096 + ρ.val, by have := cc.isLt; have := tile.isLt; have := ρ.isLt; omega⟩ l))
                  ((V m c main_v1 : Vec Ideal S131072x128 .f32) (ix2 ⟨(cc.val * 16 + tile.val) * 4096 + ρ.val, by have := cc.isLt; have := tile.isLt; have := ρ.isLt; omega⟩ l))
                  ((V m c main_v2 : Vec Ideal S131072x128 .f32) (ix2 ⟨(cc.val * 16 + tile.val) * 4096 + ρ.val, by have := cc.isLt; have := tile.isLt; have := ρ.isLt; omega⟩ l))

/-- The result array at (cc, r, l): the half's last point copied the accumulator out, and the accumulator there holds the
    sums of all 16 tiles of the half; each tile's block is 4096 consecutive rows of its array. -/
theorem final3_apply (c : Dev nD) (cc : Fin 2) (r : Fin 24) (l : Fin 128) :
    ((dats m 0 c).arrAt 3 cfg0.N : FVec Ideal S2x24x128 .f32) (ix3 cc r l) = OarrAt m c cc r l := by
  have hN : cfg0.N = 32 := N_0
  have hcc := cc.isLt
  have hn : cc.val * 16 + 15 < cfg0.N := by omega
  rw [arrAt3_apply]
  rw [out_last m c ⟨cc.val * 16 + 15, hn⟩ (by show (cc.val * 16 + 15) % 16 = 15; omega), pay2_apply]
  show ((outsAt0 m c (cc.val * 16 + 15) hn).2 : Vec Ideal S24x128 .f32) (ix2 r l) = _
  rw [acc_eq m c r l _ hn]
  have e1 : (cc.val * 16 + 15) % 16 + 1 = 16 := by omega
  have e2 : cc.val * 16 + 15 - (cc.val * 16 + 15) % 16 = cc.val * 16 := by omega
  rw [e1, e2, ← Fin.sum_univ_eq_sum_range (fun j => tileSum m c r l (cc.val * 16 + j)) 16]
  unfold OarrAt
  refine Finset.sum_congr rfl fun tile _ => ?_
  have ht : cc.val * 16 + tile.val < cfg0.N := by have := tile.isLt; omega
  unfold tileSum
  rw [dif_pos ht]
  refine Finset.sum_congr rfl fun ρ _ => ?_
  rw [show xb0 m c ⟨cc.val * 16 + tile.val, ht⟩ (ix2 ρ l) = _ from iblk0_apply m c ⟨cc.val * 16 + tile.val, ht⟩ ρ l,
    show xb1 m c ⟨cc.val * 16 + tile.val, ht⟩ (ix2 ρ l) = _ from iblk1_apply m c ⟨cc.val * 16 + tile.val, ht⟩ ρ l,
    show xb2 m c ⟨cc.val * 16 + tile.val, ht⟩ (ix2 ρ l) = _ from iblk2_apply m c ⟨cc.val * 16 + tile.val, ht⟩ ρ l]

end Cert.KernelIdeal.Val

end
-- ==== Proof.LibGridSum.lean ====
/-
  Sums over a grid of blocks of rows.

  A grid of B × J points is numbered row-major: point p is (p / J, p % J). Point (b, j) holds R consecutive rows of batch
  b: the rows j·R, …, j·R + R − 1 of the J·R rows of the batch. Summing, point after point, each point's sum over its
  rows sums every row of every batch exactly once: a running sum carried over the grid ends at the double sum over
  batches and rows. The target is any commutative additive monoid.
-/
import Mathlib.Algebra.BigOperators.Fin

open scoped BigOperators
open Finset

namespace Cert.GridSum

variable {M : Type*} [AddCommMonoid M]

/-- A sum over B·J consecutive numbers is the double sum, over b < B and j < J, of the term at b·J + j. -/
theorem sum_range_mul (h : ℕ → M) (B J : ℕ) :
    ∑ p ∈ range (B * J), h p = ∑ b ∈ range B, ∑ j ∈ range J, h (b * J + j) := by
  induction B with
  | zero => simp
  | succ B ih => rw [Nat.add_mul, Nat.one_mul, sum_range_add, ih, sum_range_succ]

/-- The grid sum over natural-number indices (no bounds to carry): over the B·J points p in order, the rows
    p % J · R + r, r < R, of batch p / J % B, are all the J·R rows of all the B batches. -/
theorem sum_grid_rows_nat (B J R : ℕ) (g : ℕ → ℕ → M) :
    ∑ p ∈ range (B * J), ∑ r ∈ range R, g (p / J % B) (p % J * R + r) = ∑ b ∈ range B, ∑ n ∈ range (J * R), g b n := by
  rw [sum_range_mul]
  refine sum_congr rfl fun b hb => ?_
  rw [sum_range_mul (fun n => g b n) J R]
  refine sum_congr rfl fun j hj => ?_
  have hb' : b < B := mem_range.mp hb
  have hj' : j < J := mem_range.mp hj
  have e1 : (b * J + j) / J % B = b := by
    rw [Nat.add_comm, Nat.add_mul_div_right _ _ (Nat.zero_lt_of_lt hj'), Nat.div_eq_of_lt hj', Nat.zero_add,
      Nat.mod_eq_of_lt hb']
  have e2 : (b * J + j) % J = j := by
    rw [Nat.add_comm, Nat.add_mul_mod_self_right, Nat.mod_eq_of_lt hj']
  rw [e1, e2]

/-- Row r of point p's block is a row of the batch: p % J · R + r < J·R. -/
theorem row_lt {J R N : ℕ} (hJ : 0 < J) (hN : J * R = N) (p : ℕ) (r : Fin R) : p % J * R + r.val < N := by
  have h1 : p % J < J := Nat.mod_lt _ hJ
  calc p % J * R + r.val < p % J * R + R := Nat.add_lt_add_left r.isLt _
    _ = (p % J + 1) * R := by rw [Nat.add_mul, Nat.one_mul]
    _ ≤ J * R := Nat.mul_le_mul_right _ h1
    _ = N := hN

/-- THE GRID SUM. For f on B batches of N = J·R rows: the sum over the B·J points p, in order, of the sum over the R
    rows of the point's block — row p % J · R + r of batch p / J % B — is the sum of f over all batches and rows. -/
theorem sum_grid_rows (B J R : ℕ) {N : ℕ} (hB : 0 < B) (hJ : 0 < J) (hN : J * R = N) (f : Fin B → Fin N → M) :
    ∑ p ∈ range (B * J), ∑ r : Fin R, f ⟨p / J % B, Nat.mod_lt _ hB⟩ ⟨p % J * R + r.val, row_lt hJ hN p r⟩
      = ∑ b : Fin B, ∑ n : Fin N, f b n := by
  subst hN
  let g : ℕ → ℕ → M := fun b n => if hb : b < B then if hn : n < J * R then f ⟨b, hb⟩ ⟨n, hn⟩ else 0 else 0
  have hg : ∀ (b n : ℕ) (hb : b < B) (hn : n < J * R), g b n = f ⟨b, hb⟩ ⟨n, hn⟩ := fun b n hb hn => by
    simp only [g, dif_pos hb, dif_pos hn]
  calc ∑ p ∈ range (B * J), ∑ r : Fin R, f ⟨p / J % B, Nat.mod_lt _ hB⟩ ⟨p % J * R + r.val, row_lt hJ rfl p r⟩
      = ∑ p ∈ range (B * J), ∑ r ∈ range R, g (p / J % B) (p % J * R + r) := by
        refine sum_congr rfl fun p _ => ?_
        rw [← Fin.sum_univ_eq_sum_range (fun r => g (p / J % B) (p % J * R + r)) R]
        exact sum_congr rfl fun r _ => (hg _ _ (Nat.mod_lt _ hB) (row_lt hJ rfl p r)).symm
    _ = ∑ b ∈ range B, ∑ n ∈ range (J * R), g b n := sum_grid_rows_nat B J R g
    _ = ∑ b : Fin B, ∑ n : Fin (J * R), f b n := by
        rw [← Fin.sum_univ_eq_sum_range (fun b => ∑ n ∈ range (J * R), g b n) B]
        refine sum_congr rfl fun b _ => ?_
        rw [← Fin.sum_univ_eq_sum_range (fun n => g b.val n) (J * R)]
        exact sum_congr rfl fun n _ => hg _ _ b.isLt n.isLt

/-- The same with the points as Fin (B·J). -/
theorem sum_grid_rows_fin (B J R : ℕ) {N : ℕ} (hB : 0 < B) (hJ : 0 < J) (hN : J * R = N) (f : Fin B → Fin N → M) :
    ∑ p : Fin (B * J), ∑ r : Fin R, f ⟨p.val / J % B, Nat.mod_lt _ hB⟩ ⟨p.val % J * R + r.val, row_lt hJ hN p.val r⟩
      = ∑ b : Fin B, ∑ n : Fin N, f b n := by
  rw [← sum_grid_rows B J R hB hJ hN f]
  exact Fin.sum_univ_eq_sum_range
    (fun p => ∑ r : Fin R, f ⟨p / J % B, Nat.mod_lt _ hB⟩ ⟨p % J * R + r.val, row_lt hJ hN p r⟩) (B * J)

/-- The first instance met: 2 batches, 16 blocks of 1024 rows each. -/
example (f : Fin 2 → Fin 16384 → M) :
    ∑ p ∈ range 32, ∑ r : Fin 1024, f ⟨p / 16 % 2, Nat.mod_lt _ (by decide)⟩ ⟨p % 16 * 1024 + r.val, row_lt (by decide) rfl p r⟩
      = ∑ b : Fin 2, ∑ n : Fin 16384, f b n :=
  sum_grid_rows 2 16 1024 (by decide) (by decide) rfl f

end Cert.GridSum
-- ==== Proof.KernelIdeal.Totals.lean ====
/-
  Two facts about how the kernel's program lays its data out.

  (1) Before the grid runs, each flat argument of 16777216 numbers is re-laid as 131072 rows of 128 lanes, in row-major
  order: the number at row R, lane l of the re-laid array is the number at position R·128 + l of the flat one.

  (2) The grid has 2 halves of 16 tiles, and a tile holds 4096 consecutive rows: tile (cc, tile) holds the rows
  (cc·16 + tile)·4096 + ρ, ρ < 4096. Lanes, halves, tiles and rows of a tile together name every position
  ((cc·16 + tile)·4096 + ρ)·128 + l of the flat array exactly once, so a sum taken lane by lane over the grid is the sum over
  all 16777216 positions. The proof is three uses of "a sum over B·J consecutive numbers is a double sum" and three
  exchanges of the order of summation.
-/
import proofs.«408902_j25056839205987_3_alg».proof.Proof.KernelIdeal.Runs
import proofs.«408902_j25056839205987_3_alg».proof.Proof.Spec
import proofs.«408902_j25056839205987_3_alg».proof.Proof.LibGridSum
import Idealize.ShloMosaic.Lib.ValueIdx
import Idealize.ShloMosaic.Lib.Pipeline.Value
import Idealize.ShloMosaic.Lib.StableHlo.Run

noncomputable section

open scoped BigOperators

namespace Cert.KernelIdeal.Val

open Cert.KernelIdeal Cert.KernelIdeal.Gen Cert.KernelIdeal.Hand Idealize.ShloMosaic Idealize.ShloMosaic.ValueIdx
open Idealize.ShloMosaic.StableHlo

variable (m : (ℓ : Loc nD τ sig) → Buf (Elt Ideal) ℓ)

/-! ## The re-laid arguments -/

/-- Position R·128 + l is a position of the flat array. -/
theorem flat_lt (R : Fin 131072) (l : Fin 128) : R.val * 128 + l.val < 16777216 := by
  have h1 := R.isLt
  have h2 := l.isLt
  omega

/-- A flat array re-laid as rows of 128, read at row R and lane l: the flat array at R·128 + l. -/
theorem relaid_apply (x : Vec Ideal S16777216 .f32) (R : Fin 131072) (l : Fin 128) :
    shapeCast S131072x128 x shapeCasts_S16777216_S131072x128 (ix2 R l) = x (ix1 ⟨R.val * 128 + l.val, flat_lt R l⟩) := by
  refine shapeCast_apply x shapeCasts_S16777216_S131072x128 (ix2 R l) (ix1 ⟨R.val * 128 + l.val, flat_lt R l⟩) ?_
  rw [Shape.rowMajor_val_two, Shape.rowMajor_val_one]
  rfl

/-- Element (R, l) of a re-laid argument is element R·128 + l of the flat one. -/
theorem V_main_v0_apply (c : Dev nD) (R : Fin 131072) (l : Fin 128) :
    (V m c main_v0 : Vec Ideal S131072x128 .f32) (ix2 R l)
      = (m ((c.tc : Thread nD τ).loc main_arg0) : Vec Ideal S16777216 .f32) (ix1 ⟨R.val * 128 + l.val, flat_lt R l⟩) := by
  have e : (V m c main_v0 : S131072x128.Idx → EReal)
      = shapeCast S131072x128 (m ((c.tc : Thread nD τ).loc main_arg0) : Vec Ideal S16777216 .f32) shapeCasts_S16777216_S131072x128 := by
    dsimp only [V, V0]
    simp only [hostOps0, List.flatten_cons, List.flatten_nil, List.append_nil]
    after_results
    rfl
  rw [e]
  exact relaid_apply _ R l

/-- The same for the second argument. -/
theorem V_main_v1_apply (c : Dev nD) (R : Fin 131072) (l : Fin 128) :
    (V m c main_v1 : Vec Ideal S131072x128 .f32) (ix2 R l)
      = (m ((c.tc : Thread nD τ).loc main_arg1) : Vec Ideal S16777216 .f32) (ix1 ⟨R.val * 128 + l.val, flat_lt R l⟩) := by
  have e : (V m c main_v1 : S131072x128.Idx → EReal)
      = shapeCast S131072x128 (m ((c.tc : Thread nD τ).loc main_arg1) : Vec Ideal S16777216 .f32) shapeCasts_S16777216_S131072x128 := by
    dsimp only [V, V0]
    simp only [hostOps0, List.flatten_cons, List.flatten_nil, List.append_nil]
    after_results
    rfl
  rw [e]
  exact relaid_apply _ R l

/-- The same for the third argument. -/
theorem V_main_v2_apply (c : Dev nD) (R : Fin 131072) (l : Fin 128) :
    (V m c main_v2 : Vec Ideal S131072x128 .f32) (ix2 R l)
      = (m ((c.tc : Thread nD τ).loc main_arg2) : Vec Ideal S16777216 .f32) (ix1 ⟨R.val * 128 + l.val, flat_lt R l⟩) := by
  have e : (V m c main_v2 : S131072x128.Idx → EReal)
      = shapeCast S131072x128 (m ((c.tc : Thread nD τ).loc main_arg2) : Vec Ideal S16777216 .f32) shapeCasts_S16777216_S131072x128 := by
    dsimp only [V, V0]
    simp only [hostOps0, List.flatten_cons, List.flatten_nil, List.append_nil]
    after_results
    rfl
  rw [e]
  exact relaid_apply _ R l

/-! ## The grid covers every element once -/

/-- Row ρ of tile (cc, tile), lane l, is a position of the flat array. -/
theorem grid_lt (cc : Fin 2) (tile : Fin 16) (ρ : Fin 4096) (l : Fin 128) :
    ((cc.val * 16 + tile.val) * 4096 + ρ.val) * 128 + l.val < Cert.Spec.NN := by
  have h1 := cc.isLt
  have h2 := tile.isLt
  have h3 := ρ.isLt
  have h4 := l.isLt
  show ((cc.val * 16 + tile.val) * 4096 + ρ.val) * 128 + l.val < 16777216
  omega

/-- Lanes, halves, tiles and rows together enumerate every element once. -/
theorem sum_grid (f : Fin Cert.Spec.NN → EReal) :
    ∑ l : Fin 128, ∑ cc : Fin 2, ∑ tile : Fin 16, ∑ ρ : Fin 4096,
        f ⟨((cc.val * 16 + tile.val) * 4096 + ρ.val) * 128 + l.val, grid_lt cc tile ρ l⟩ = ∑ i : Fin Cert.Spec.NN, f i := by
  -- f continued by 0 beyond the array, so that no bound has to be carried through the re-indexing
  let g : ℕ → EReal := fun n => if h : n < 16777216 then f ⟨n, h⟩ else 0
  have hg : ∀ (n : ℕ) (h : n < 16777216), g n = f ⟨n, h⟩ := fun n h => by simp only [g, dif_pos h]
  have hN : (2 * 16 * 4096 * 128 : ℕ) = 16777216 := by norm_num
  calc ∑ l : Fin 128, ∑ cc : Fin 2, ∑ tile : Fin 16, ∑ ρ : Fin 4096,
          f ⟨((cc.val * 16 + tile.val) * 4096 + ρ.val) * 128 + l.val, grid_lt cc tile ρ l⟩
      = ∑ l : Fin 128, ∑ cc : Fin 2, ∑ tile : Fin 16, ∑ ρ : Fin 4096,
          g (((cc.val * 16 + tile.val) * 4096 + ρ.val) * 128 + l.val) :=
        Finset.sum_congr rfl fun l _ => Finset.sum_congr rfl fun cc _ => Finset.sum_congr rfl fun tile _ =>
          Finset.sum_congr rfl fun ρ _ => (hg _ (grid_lt cc tile ρ l)).symm
    _ = ∑ l ∈ Finset.range 128, ∑ cc ∈ Finset.range 2, ∑ tile ∈ Finset.range 16, ∑ ρ ∈ Finset.range 4096,
          g (((cc * 16 + tile) * 4096 + ρ) * 128 + l) := by
        rw [← Fin.sum_univ_eq_sum_range (fun l => ∑ cc ∈ Finset.range 2, ∑ tile ∈ Finset.range 16, ∑ ρ ∈ Finset.range 4096,
          g (((cc * 16 + tile) * 4096 + ρ) * 128 + l)) 128]
        refine Finset.sum_congr rfl fun l _ => ?_
        rw [← Fin.sum_univ_eq_sum_range (fun cc => ∑ tile ∈ Finset.range 16, ∑ ρ ∈ Finset.range 4096,
          g (((cc * 16 + tile) * 4096 + ρ) * 128 + l.val)) 2]
        refine Finset.sum_congr rfl fun cc _ => ?_
        rw [← Fin.sum_univ_eq_sum_range (fun tile => ∑ ρ ∈ Finset.range 4096,
          g (((cc.val * 16 + tile) * 4096 + ρ) * 128 + l.val)) 16]
        refine Finset.sum_congr rfl fun tile _ => ?_
        rw [← Fin.sum_univ_eq_sum_range (fun ρ => g (((cc.val * 16 + tile.val) * 4096 + ρ) * 128 + l.val)) 4096]
    _ = ∑ cc ∈ Finset.range 2, ∑ tile ∈ Finset.range 16, ∑ ρ ∈ Finset.range 4096, ∑ l ∈ Finset.range 128,
          g (((cc * 16 + tile) * 4096 + ρ) * 128 + l) := by
        rw [Finset.sum_comm]
        refine Finset.sum_congr rfl fun cc _ => ?_
        rw [Finset.sum_comm]
        refine Finset.sum_congr rfl fun tile _ => ?_
        rw [Finset.sum_comm]
    _ = ∑ p ∈ Finset.range (2 * 16), ∑ ρ ∈ Finset.range 4096, ∑ l ∈ Finset.range 128, g ((p * 4096 + ρ) * 128 + l) :=
        (Cert.GridSum.sum_range_mul (fun p => ∑ ρ ∈ Finset.range 4096, ∑ l ∈ Finset.range 128, g ((p * 4096 + ρ) * 128 + l)) 2 16).symm
    _ = ∑ R ∈ Finset.range (2 * 16 * 4096), ∑ l ∈ Finset.range 128, g (R * 128 + l) :=
        (Cert.GridSum.sum_range_mul (fun R => ∑ l ∈ Finset.range 128, g (R * 128 + l)) (2 * 16) 4096).symm
    _ = ∑ i ∈ Finset.range (2 * 16 * 4096 * 128), g i := (Cert.GridSum.sum_range_mul g (2 * 16 * 4096) 128).symm
    _ = ∑ i ∈ Finset.range 16777216, g i := by rw [hN]
    _ = ∑ i : Fin 16777216, g i.val := (Fin.sum_univ_eq_sum_range g 16777216).symm
    _ = ∑ i : Fin Cert.Spec.NN, f i := Finset.sum_congr rfl fun i _ => hg i.val i.isLt

end Cert.KernelIdeal.Val

end
-- ==== Proof.KernelIdeal.KRun.lean ====
/-
  What the idealized kernel's program returns: the loss arithmetic on the 24 grand totals.

  The frame run has the region's result array at what the proof data computes and every other buffer as the host
  operations after the region leave it. The result array's entry (half, row, lane) is the row's per-element function
  summed over the half's 16 tiles of 4096 rows in that lane; summed over halves and lanes, and with each re-laid input
  read back as the flat argument, row r's total is the sum of its per-element function over all 16,777,216 elements.
  The host tail applied to those totals is the program's result.
-/
import proofs.«408902_j25056839205987_3_alg».proof.Proof.KernelIdeal.Frame
import proofs.«408902_j25056839205987_3_alg».proof.Proof.KernelIdeal.Tail
import proofs.«408902_j25056839205987_3_alg».proof.Proof.KernelIdeal.Value
import proofs.«408902_j25056839205987_3_alg».proof.Proof.KernelIdeal.Totals
import proofs.«408902_j25056839205987_3_alg».proof.Proof.Spec

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg)

variable (m : (ℓ : Loc nD τ sig) → Buf (Elt Ideal) ℓ) (ρ : Dev nD → PrngReg)

/-- The three argument arrays, as flat arrays of extended reals. -/
abbrev argX (c : Dev nD) : Cert.Spec.Arr := m ((c.tc : Thread nD τ).loc main_arg0)
abbrev argT (c : Dev nD) : Cert.Spec.Arr := m ((c.tc : Thread nD τ).loc main_arg1)
abbrev argW (c : Dev nD) : Cert.Spec.Arr := m ((c.tc : Thread nD τ).loc main_arg2)

/-- The totals of an array that is given entry by entry. -/
theorem comb_of (O : FVec Ideal S2x24x128 .f32) (g : Fin 2 → Fin 24 → Fin 128 → EReal)
    (h : ∀ cc r l, O (ix3 cc r l) = g cc r l) (r : Fin 24) :
    comb O r = ∑ l : Fin 128, ∑ cc : Fin 2, g cc r l := by
  unfold comb
  exact Finset.sum_congr rfl fun l _ => Finset.sum_congr rfl fun cc _ => h cc r l

/-- Row r of the result array, summed over halves and lanes, is row r's grand total. -/
theorem comb_final (c : Dev nD) (r : Fin 24) :
    comb (((dats m 0 c).arrAt 3 cfg0.N : FVec Ideal S2x24x128 .f32)) r = Cert.Spec.Tot r (argX m c) (argT m c) (argW m c) := by
  refine (comb_of _ (fun cc r l => OarrAt m c cc r l) (fun cc r l => final3_apply m c cc r l) r).trans ?_
  unfold Cert.Spec.Tot
  rw [← sum_grid (fun i => Cert.Spec.q r (argX m c (ix1 i)) (argT m c (ix1 i)) (argW m c (ix1 i)))]
  refine Finset.sum_congr rfl fun l _ => Finset.sum_congr rfl fun cc _ => ?_
  unfold OarrAt
  refine Finset.sum_congr rfl fun tile _ => Finset.sum_congr rfl fun ρ _ => ?_
  exact congr (congr (congrArg (Cert.Spec.q r) (V_main_v0_apply m c _ l)) (V_main_v1_apply m c _ l)) (V_main_v2_apply m c _ l)

/-- After the host tail the result buffer holds the loss arithmetic on the grand totals. -/
theorem tail_final (c : Dev nD) :
    Pipeline.afterTail₀ cfgs (dats m) 0 (V0 m) [hostOps1, hostOps1_1, hostOps1_2] c main_v48
      = fun _ => Cert.Spec.kernelFn (argX m c) (argT m c) (argW m c) := by
  have hO := Pipeline.withArrays_arr spec0 launch0.win.arr_inj c (V0 m c) (fun w => (dats m 0 c).arrAt w cfg0.N) 3
  have h := tail_value (Pipeline.withArrays spec0 c (V0 m c) (fun w => (dats m 0 c).arrAt w cfg0.N)) _ hO
  refine Eq.trans (show Pipeline.afterTail₀ cfgs (dats m) 0 (V0 m) [hostOps1, hostOps1_1, hostOps1_2] c main_v48 = _ from rfl) (h.trans ?_)
  funext _
  exact congrArg Cert.Spec.tailFn (funext fun r => comb_final m c r)

/-- Every weakly fair execution of the idealized kernel's @main terminates with the result at the loss arithmetic on
    the grand totals of the launch contents, and the arguments unchanged. -/
theorem run_value : θ_run defs (onTc (τ := τ) (main (F := Ideal))) ⟨m, fun _ => 0, ρ⟩ (fun r => ∀ c : Dev nD,
      r.2.mem ((c.tc : Thread nD τ).loc main_v48) = (fun _ => Cert.Spec.kernelFn (argX m c) (argT m c) (argW m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v48 (Pipeline.mem_restRefs_of main_v48 (by decide) (by decide))).trans (tail_final m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Val

end
-- ==== Proof.RefRead.lean ====
/-
  The reference's value, one host operation at a time: this module only brings the reference's run and its
  read-at-an-index lemmas into the proof's import closure; the reading itself is in the modules that import it.
-/
import proofs.«408902_j25056839205987_3_alg».proof.Proof.RefRunP
import proofs.«408902_j25056839205987_3_alg».proof.Proof.RefReadP
-- ==== Proof.LibScatterGatherRows.lean ====
import Idealize.ShloMosaic.Lib.ValueIdx
import Idealize.ShloMosaic.PureOps.Contract
import Mathlib.Algebra.BigOperators.Group.Finset.Basic
import Mathlib.Algebra.BigOperators.Group.Finset.Piecewise

/-!
# Row gather and row scatter-add, read at an index

Two array operations over a table of `N` rows, indexed by a column of `n` integer words:

* the ROW GATHER `table[idx]`: result row `e` is the table's row named by the `e`-th index word. The
  word is read as a SIGNED integer and CLAMPED into `[0, N − 1]` (a negative word reads row `0`, a word
  past the end reads the last row); the column is kept. `gather_rows` states this for an `N × D` table at
  one element `(e, k)`, for any element type.
* the ROW SCATTER-ADD (a segment sum, `table.at[idx].add(updates)`) over the extended reals: result
  element `(v, k)` is the operand's element plus the sum of the update elements `(e, k)` over exactly
  those update rows `e` whose index word, read SIGNED and NOT clamped, EQUALS `v`. An update row whose
  index is negative or at least `N` lands nowhere and is dropped. `resultIdx_rows` says where one update
  element lands; `hostScatterAdd_rows` / `scatterAdd_rows` give the sum for an `N × D` operand, and
  `resultIdx_vec` / `hostScatterAdd_vec` / `scatterAdd_vec` the same for a vector of `N` elements
  (updates a vector of `n` elements).

Every statement is for arbitrary extents `N`, `D`, `n` and any record of dimension numbers whose lists
are the ones named by the hypotheses (one collapsed / inserted row axis `0`, the index vector on axis
`1` of the `n × 1` index column, the column axis `1` an offset / window axis), so each applies to a
concrete record with `rfl` for every list.
-/

open scoped BigOperators

namespace Cert.LibScatterGatherRows

open Idealize.ShloMosaic Idealize.ShloMosaic.ValueIdx

/-! ## The row gather -/

/-- THE ROW GATHER AT `(e, k)`: the table at row "index word `e`, read signed and clamped into
    `[0, N − 1]`", column `k`. On the row axis (collapsed, start-indexed) the operand coordinate is the
    clamped start; on the column axis (an offset axis, not start-indexed) it is the result's column. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (e : Fin n) (k : Fin D) (hN : 0 < N) :
    Host.gather d x idx (ix2 e k) = x (ix2 ⟨min (idx (ix2 e 0)).toInt.toNat (N - 1), by omega⟩ k) := by
  -- the collapsed row axis has slice size 1, so the clamp's upper end is N − 1
  have hsl : d.sliceSizes 0 = 1 := d.slice_collapsed 0 (by rw [hcoll]; exact List.mem_singleton.mpr rfl)
  obtain ⟨off, coll, ob, sb, sim, ivd, ss, wf⟩ := d
  simp only at hoff hcoll hob hsim hivd hsl
  subst hoff hcoll hob hsim hivd
  unfold Host.gather
  congr 1
  funext a
  apply Fin.ext
  match a with
  | ⟨0, _⟩ =>
    -- the start index of result element (e, k) is read at (e, 0) of the index column
    have hsi : ∀ c, (GatherDims.siIdx ⟨[1], [0], [], sb, [0], 1, ss, wf⟩ (ix2 e k) c : (⟨2, ![n, 1]⟩ : Shape).Idx)
        = ix2 e 0 := by
      intro c
      funext b
      apply Fin.ext
      match b with
      | ⟨0, _⟩ => rfl
      | ⟨1, _⟩ =>
        have := c.isLt
        simp only [List.length_singleton] at this
        show c.val = 0
        omega
    show min (idx (GatherDims.siIdx _ _ _)).toInt.toNat (N - ss 0) + 0 + 0 = min (idx (ix2 e 0)).toInt.toNat (N - 1)
    rw [hsi, hsl]
    rfl
  | ⟨1, _⟩ =>
    -- the column axis: start 0, no batching, offset coordinate the result's column
    show GatherDims.start _ _ _ _ + GatherDims.batchCoord _ _ _ + GatherDims.offCoord _ _ _ = k.val
    rw [GatherDims.batchCoord_eq_zero _ _ _ List.not_mem_nil]
    unfold GatherDims.start GatherDims.offCoord
    split
    · next ha => exact absurd ha (show (1 : Fin 2) ∉ ([0] : List (Fin 2)) by decide)
    · split
      · rw [Nat.add_zero, Nat.zero_add]
        rfl
      · next ha => exact absurd (show (1 : Fin 2) ∈ ([1] : List (Fin 2)) by decide) ha

/-- The row gather of a table of extended reals (any float format's ideal values), at `(e, k)`. -/
theorem gather_rows_ideal {φ : FTy} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : FVec Ideal ⟨2, ![N, D]⟩ φ) (idx : IVec ⟨2, ![n, 1]⟩ w) (e : Fin n) (k : Fin D) (hN : 0 < N) :
    (Host.gather d x idx : FVec Ideal ⟨2, ![n, D]⟩ φ) (ix2 e k)
      = x (ix2 ⟨min (idx (ix2 e 0)).toInt.toNat (N - 1), by omega⟩ k) :=
  gather_rows d hoff hcoll hob hsim hivd x idx e k hN

/-! ## The row scatter-add over an `N × D` operand -/

/-- WHERE AN UPDATE ELEMENT LANDS: update element `(e, k')` lands on operand element `(v, k)` exactly when
    the `e`-th index word, read signed, is `v`, and the columns agree. (On the row axis the landing
    coordinate is the unclamped start plus window coordinate 0; on the column axis it is start 0 plus the
    update's column; a landing point outside the operand is no point at all.) -/
theorem resultIdx_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (k' : Fin D) (v : Fin N) (k : Fin D) :
    d.resultIdx? (ix2 e k') idx = some (ix2 v k) ↔ (idx (ix2 e 0)).toInt = (v.val : ℤ) ∧ k' = k := by
  obtain ⟨uw, iw, sd, ivd, wf⟩ := d
  simp only at huw hiw hsd hivd
  subst huw hiw hsd hivd
  -- the start and the window coordinate on each of the two operand axes
  have hs0 : ScatterDims.start ⟨[1], [0], [0], 1, wf⟩ (ix2 e k') idx 0 = (idx (ix2 e 0)).toInt := by
    unfold ScatterDims.start
    split
    · congr 2
      funext b
      apply Fin.ext
      match b with
      | ⟨0, _⟩ => rfl
      | ⟨1, _⟩ => rfl
    · next ha => exact absurd (show (0 : Fin 2) ∈ ([0] : List (Fin 2)) by decide) ha
  have hs1 : ScatterDims.start ⟨[1], [0], [0], 1, wf⟩ (ix2 e k') idx 1 = 0 := by
    unfold ScatterDims.start
    split
    · next ha => exact absurd ha (show (1 : Fin 2) ∉ ([0] : List (Fin 2)) by decide)
    · rfl
  have hw0 : ScatterDims.window ⟨[1], [0], [0], 1, wf⟩ (ix2 e k') 0 = 0 := by
    unfold ScatterDims.window
    split
    · next ha => exact absurd ha (show (0 : Fin 2) ∉ ([1] : List (Fin 2)) by decide)
    · rfl
  have hw1 : ScatterDims.window ⟨[1], [0], [0], 1, wf⟩ (ix2 e k') 1 = k'.val := by
    unfold ScatterDims.window
    split
    · rfl
    · next ha => exact absurd (show (1 : Fin 2) ∈ ([1] : List (Fin 2)) by decide) ha
  unfold ScatterDims.resultIdx?
  split
  · next h =>
    -- the landing point is inside the operand: compare it with (v, k) coordinate by coordinate
    have h0 := h 0
    rw [hs0, hw0] at h0
    constructor
    · intro hf
      have hf' := Option.some.inj hf
      have e0 : (ScatterDims.start ⟨[1], [0], [0], 1, wf⟩ (ix2 e k') idx 0
          + (ScatterDims.window ⟨[1], [0], [0], 1, wf⟩ (ix2 e k') 0 : ℕ)).toNat = v.val :=
        congrArg (fun f : (⟨2, ![N, D]⟩ : Shape).Idx => (f 0).val) hf'
      have e1 : (ScatterDims.start ⟨[1], [0], [0], 1, wf⟩ (ix2 e k') idx 1
          + (ScatterDims.window ⟨[1], [0], [0], 1, wf⟩ (ix2 e k') 1 : ℕ)).toNat = k.val :=
        congrArg (fun f : (⟨2, ![N, D]⟩ : Shape).Idx => (f 1).val) hf'
      rw [hs0, hw0] at e0
      rw [hs1, hw1] at e1
      exact ⟨by omega, Fin.ext (by omega)⟩
    · rintro ⟨hv, rfl⟩
      congr 1
      funext a
      apply Fin.ext
      match a with
      | ⟨0, _⟩ =>
        show (ScatterDims.start ⟨[1], [0], [0], 1, wf⟩ (ix2 e k') idx 0
          + (ScatterDims.window ⟨[1], [0], [0], 1, wf⟩ (ix2 e k') 0 : ℕ)).toNat = v.val
        rw [hs0, hw0]; omega
      | ⟨1, _⟩ =>
        show (ScatterDims.start ⟨[1], [0], [0], 1, wf⟩ (ix2 e k') idx 1
          + (ScatterDims.window ⟨[1], [0], [0], 1, wf⟩ (ix2 e k') 1 : ℕ)).toNat = k'.val
        rw [hs1, hw1]; omega
  · next h =>
    -- the landing point is outside the operand: then the index word is no row of it
    constructor
    · intro hf; exact absurd hf (by simp)
    · rintro ⟨hv, rfl⟩
      exfalso
      apply h
      intro a
      match a with
      | ⟨0, _⟩ =>
        show 0 ≤ ScatterDims.start ⟨[1], [0], [0], 1, wf⟩ (ix2 e k') idx 0
            + (ScatterDims.window ⟨[1], [0], [0], 1, wf⟩ (ix2 e k') 0 : ℕ)
          ∧ ScatterDims.start ⟨[1], [0], [0], 1, wf⟩ (ix2 e k') idx 0
            + (ScatterDims.window ⟨[1], [0], [0], 1, wf⟩ (ix2 e k') 0 : ℕ) < (N : ℤ)
        rw [hs0, hw0]
        have := v.isLt
        omega
      | ⟨1, _⟩ =>
        show 0 ≤ ScatterDims.start ⟨[1], [0], [0], 1, wf⟩ (ix2 e k') idx 1
            + (ScatterDims.window ⟨[1], [0], [0], 1, wf⟩ (ix2 e k') 1 : ℕ)
          ∧ ScatterDims.start ⟨[1], [0], [0], 1, wf⟩ (ix2 e k') idx 1
            + (ScatterDims.window ⟨[1], [0], [0], 1, wf⟩ (ix2 e k') 1 : ℕ) < (D : ℤ)
        rw [hs1, hw1]
        have := k'.isLt
        omega

/-- THE ROW SCATTER-ADD AT `(v, k)`: the operand's element plus the sum, over the update rows `e` whose
    index word read signed equals `v`, of the update element `(e, k)`. The sum over all update elements
    that land on `(v, k)` splits into rows and columns; in each row only column `k` can land there. -/
theorem hostScatterAdd_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : (⟨2, ![N, D]⟩ : Shape).Idx → EReal) (idx : IVec ⟨2, ![n, 1]⟩ w)
    (upd : (⟨2, ![n, D]⟩ : Shape).Idx → EReal) (v : Fin N) (k : Fin D) :
    Ideal.hostScatterAdd d x idx upd (ix2 v k)
      = x (ix2 v k)
        + ∑ e ∈ Finset.univ.filter (fun e : Fin n => (idx (ix2 e 0)).toInt = (v.val : ℤ)), upd (ix2 e k) := by
  classical
  unfold Ideal.hostScatterAdd
  congr 1
  rw [Finset.sum_filter, sum_idx2, Finset.sum_filter]
  refine Finset.sum_congr rfl (fun e _ => ?_)
  simp only [resultIdx_rows d huw hiw hsd hivd]
  by_cases hP : (idx (ix2 e 0)).toInt = (v.val : ℤ)
  · simp [hP]
  · simp [hP]

/-- The same for the scatter-add operation at the ideal instance (any float format). -/
theorem scatterAdd_rows {φ : FTy} {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : FVec Ideal ⟨2, ![N, D]⟩ φ) (idx : IVec ⟨2, ![n, 1]⟩ w)
    (upd : FVec Ideal ⟨2, ![n, D]⟩ φ) (v : Fin N) (k : Fin D) :
    Host.scatterAdd (F := Ideal) d x idx upd (ix2 v k)
      = x (ix2 v k)
        + ∑ e ∈ Finset.univ.filter (fun e : Fin n => (idx (ix2 e 0)).toInt = (v.val : ℤ)), upd (ix2 e k) := by
  unfold Host.scatterAdd
  rw [Ideal.hostScatterAdd_def]
  exact hostScatterAdd_rows d huw hiw hsd hivd x idx upd v k

/-! ## The scatter-add over a vector of `N` elements -/

/-- A rank-1 index set is its one coordinate range … -/
def idxEquiv1 {n : Nat} : (⟨1, ![n]⟩ : Shape).Idx ≃ Fin n where
  toFun i := i 0
  invFun e := ix1 e
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ e : Fin n, f (ix1 e) :=
  (Equiv.sum_comp (idxEquiv1 (n := n)).symm f).symm

/-- WHERE AN UPDATE ELEMENT LANDS, for a vector: update element `e` lands on operand element `v` exactly when
    the `e`-th index word, read signed, is `v`. -/
theorem resultIdx_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) (v : Fin N) :
    d.resultIdx? (ix1 e) idx = some (ix1 v) ↔ (idx (ix2 e 0)).toInt = (v.val : ℤ) := by
  obtain ⟨uw, iw, sd, ivd, wf⟩ := d
  simp only at huw hiw hsd hivd
  subst huw hiw hsd hivd
  have hs0 : ScatterDims.start ⟨[], [0], [0], 1, wf⟩ (ix1 e) idx 0 = (idx (ix2 e 0)).toInt := by
    unfold ScatterDims.start
    split
    · congr 2
      funext b
      apply Fin.ext
      match b with
      | ⟨0, _⟩ => rfl
      | ⟨1, _⟩ => rfl
    · next ha => exact absurd (show (0 : Fin 1) ∈ ([0] : List (Fin 1)) by decide) ha
  have hw0 : ScatterDims.window ⟨[], [0], [0], 1, wf⟩ (ix1 e) 0 = 0 := by
    unfold ScatterDims.window
    split
    · next ha => exact absurd ha (show (0 : Fin 1) ∉ ([] : List (Fin 1)) by decide)
    · rfl
  unfold ScatterDims.resultIdx?
  split
  · next h =>
    have h0 := h 0
    rw [hs0, hw0] at h0
    constructor
    · intro hf
      have hf' := Option.some.inj hf
      have e0 : (ScatterDims.start ⟨[], [0], [0], 1, wf⟩ (ix1 e) idx 0
          + (ScatterDims.window ⟨[], [0], [0], 1, wf⟩ (ix1 e) 0 : ℕ)).toNat = v.val :=
        congrArg (fun f : (⟨1, ![N]⟩ : Shape).Idx => (f 0).val) hf'
      rw [hs0, hw0] at e0
      omega
    · intro hv
      congr 1
      funext a
      apply Fin.ext
      match a with
      | ⟨0, _⟩ =>
        show (ScatterDims.start ⟨[], [0], [0], 1, wf⟩ (ix1 e) idx 0
          + (ScatterDims.window ⟨[], [0], [0], 1, wf⟩ (ix1 e) 0 : ℕ)).toNat = v.val
        rw [hs0, hw0]; omega
  · next h =>
    constructor
    · intro hf; exact absurd hf (by simp)
    · intro hv
      exfalso
      apply h
      intro a
      match a with
      | ⟨0, _⟩ =>
        show 0 ≤ ScatterDims.start ⟨[], [0], [0], 1, wf⟩ (ix1 e) idx 0
            + (ScatterDims.window ⟨[], [0], [0], 1, wf⟩ (ix1 e) 0 : ℕ)
          ∧ ScatterDims.start ⟨[], [0], [0], 1, wf⟩ (ix1 e) idx 0
            + (ScatterDims.window ⟨[], [0], [0], 1, wf⟩ (ix1 e) 0 : ℕ) < (N : ℤ)
        rw [hs0, hw0]
        have := v.isLt
        omega

/-- THE VECTOR SCATTER-ADD AT `v` (a segment sum): the operand's element plus the sum of the update elements
    `e` whose index word read signed equals `v`. -/
theorem hostScatterAdd_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![n, 1]⟩ w)
    (upd : (⟨1, ![n]⟩ : Shape).Idx → EReal) (v : Fin N) :
    Ideal.hostScatterAdd d x idx upd (ix1 v)
      = x (ix1 v)
        + ∑ e ∈ Finset.univ.filter (fun e : Fin n => (idx (ix2 e 0)).toInt = (v.val : ℤ)), upd (ix1 e) := by
  classical
  unfold Ideal.hostScatterAdd
  congr 1
  rw [Finset.sum_filter, sum_idx1, Finset.sum_filter]
  refine Finset.sum_congr rfl (fun e _ => ?_)
  simp only [resultIdx_vec d huw hiw hsd hivd]

/-- The same for the scatter-add operation at the ideal instance (any float format). -/
theorem scatterAdd_vec {φ : FTy} {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : FVec Ideal ⟨1, ![N]⟩ φ) (idx : IVec ⟨2, ![n, 1]⟩ w)
    (upd : FVec Ideal ⟨1, ![n]⟩ φ) (v : Fin N) :
    Host.scatterAdd (F := Ideal) d x idx upd (ix1 v)
      = x (ix1 v)
        + ∑ e ∈ Finset.univ.filter (fun e : Fin n => (idx (ix2 e 0)).toInt = (v.val : ℤ)), upd (ix1 e) := by
  unfold Host.scatterAdd
  rw [Ideal.hostScatterAdd_def]
  exact hostScatterAdd_vec d huw hiw hsd hivd x idx upd v

end Cert.LibScatterGatherRows
-- ==== Proof.RefValue.lean ====
/-
  The reference program's value, read one operation at a time, is the specification's reference function:
  the per-element validity, scaled gradient magnitude, bin word and logistic loss; the per-bin counts as a
  segment sum; the number of occupied bins as an integer sum of ten 0/1 words; the per-bin weight table
  read back through the bin index; and the final weighted sum divided by the clamped total.
-/
import proofs.«408902_j25056839205987_3_alg».proof.Proof.RefReadP
import proofs.«408902_j25056839205987_3_alg».proof.Proof.Spec
import proofs.«408902_j25056839205987_3_alg».proof.Proof.LibScatterGatherRows
import Idealize.ShloMosaic.Lib.IdealHost
import Idealize.ShloMosaic.Lib.WordSum

noncomputable section

open scoped BigOperators

namespace Cert.ReferenceIdeal.RefValue

open Cert.ReferenceIdeal Cert.ReferenceIdeal.Gen Idealize.ShloMosaic Idealize.ShloMosaic.ValueIdx
open Cert.ReferenceIdeal.ReadP

/-! ## Per-element facts on the extended reals -/

/-- The comparison "w > 0" converted to a float is the validity. -/
theorem vf_word (w : EReal) :
    FloatOps.uitofp (F := Ideal) .f32 (FloatOps.cmpf (F := Ideal) (φ := .f32) .ogt w (Ideal.ofBits .f32 0x00000000#32))
      = Cert.Spec.vf w := by
  show (((Ideal.cmp .ogt w (Ideal.ofBits .f32 0x00000000#32)).toNat : ℝ) : EReal) = _
  rw [Ideal.ofBits_zero_f32]
  unfold Ideal.cmp Cert.Spec.vf
  by_cases h : 0 < w
  · simp [h]
  · simp [h]

/-- The comparison "w > 0" as a one-bit word selects like the `if`. -/
theorem select_gt_zero {α : Type} (w : EReal) (a b : α) :
    Scalar.select (FloatOps.cmpf (F := Ideal) (φ := .f32) .ogt w (Ideal.ofBits .f32 0x00000000#32)) a b
      = if 0 < w then a else b := by
  show Scalar.select (Ideal.cmp .ogt w (Ideal.ofBits .f32 0x00000000#32)) a b = _
  rw [Ideal.ofBits_zero_f32]
  unfold Ideal.cmp
  by_cases h : 0 < w
  · simp [h, Scalar.select]
  · simp [h, Scalar.select]

/-- One over one plus e^(−x), then minus t, in absolute value, times ten: the scaled magnitude. -/
theorem sc_word (x t : EReal) :
    FloatOps.mulf (F := Ideal) (φ := .f32)
      (FloatOps.hostAbsf (F := Ideal) (φ := .f32) (FloatOps.subf (F := Ideal) (φ := .f32)
        (FloatOps.hostDivf (F := Ideal) (φ := .f32) (Ideal.ofBits .f32 0x3F800000#32)
          (FloatOps.addf (F := Ideal) (φ := .f32) (Ideal.ofBits .f32 0x3F800000#32)
            (FloatOps.hostUnary (F := Ideal) (φ := .f32) .exp (FloatOps.hostNegf (F := Ideal) (φ := .f32) x)))) t))
      (Ideal.ofBits .f32 0x41200000#32)
      = Cert.Spec.sc x t := by
  show max (Ideal.div (Ideal.ofBits .f32 0x3F800000#32) (Ideal.ofBits .f32 0x3F800000#32 + Ideal.exp (-x)) - t)
      (-(Ideal.div (Ideal.ofBits .f32 0x3F800000#32) (Ideal.ofBits .f32 0x3F800000#32 + Ideal.exp (-x)) - t))
      * Ideal.ofBits .f32 0x41200000#32 = _
  rw [Ideal.ofBits_one_f32]
  rfl

/-- The softplus as the program spells it (its "is it a NaN" test never fires on the extended reals),
    minus x·t: the logistic loss. -/
theorem le_word (x t : EReal) :
    FloatOps.subf (F := Ideal) (φ := .f32)
      (Scalar.select
        (FloatOps.cmpf (F := Ideal) (φ := .f32) .une
          (FloatOps.subf (F := Ideal) (φ := .f32) x (Ideal.ofBits .f32 0x00000000#32))
          (FloatOps.subf (F := Ideal) (φ := .f32) x (Ideal.ofBits .f32 0x00000000#32)))
        (FloatOps.addf (F := Ideal) (φ := .f32) x (Ideal.ofBits .f32 0x00000000#32))
        (FloatOps.addf (F := Ideal) (φ := .f32)
          (FloatOps.maximumf (F := Ideal) (φ := .f32) x (Ideal.ofBits .f32 0x00000000#32))
          (FloatOps.hostUnary (F := Ideal) (φ := .f32) .log1p
            (FloatOps.hostUnary (F := Ideal) (φ := .f32) .exp
              (FloatOps.hostNegf (F := Ideal) (φ := .f32)
                (FloatOps.hostAbsf (F := Ideal) (φ := .f32)
                  (FloatOps.subf (F := Ideal) (φ := .f32) x (Ideal.ofBits .f32 0x00000000#32))))))))
      (FloatOps.mulf (F := Ideal) (φ := .f32) x t)
      = Cert.Spec.le x t := by
  rw [Ideal.ofBits_zero_f32]
  show Scalar.select (Ideal.cmp .une (x - 0) (x - 0)) (x + 0)
      (max x 0 + Ideal.log1p (Ideal.exp (-(max (x - 0) (-(x - 0)))))) - x * t = _
  have hc : Ideal.cmp .une (x - 0) (x - 0) = 0#1 := by simp [Ideal.cmp]
  rw [hc, select_zero, sub_zero]
  rfl

/-- Floor, convert to a 32-bit integer, clip to [0, 9]: the bin word. -/
theorem bin_word (s : EReal) :
    IntOp.minsi 9#32 (IntOp.maxsi 0#32 (FloatOps.fptosi (F := Ideal) (φ := .f32) 32 (FloatOps.hostUnary (F := Ideal) (φ := .f32) .floor s)))
      = Cert.Spec.binW s := rfl

/-- The comparison "c > 0" as a one-bit word. -/
theorem cmp_gt_zero (c : EReal) :
    FloatOps.cmpf (F := Ideal) (φ := .f32) .ogt c (Ideal.ofBits .f32 0x00000000#32) = BitVec.ofBool (decide (0 < c)) := by
  show Ideal.cmp .ogt c (Ideal.ofBits .f32 0x00000000#32) = _
  rw [Ideal.ofBits_zero_f32]
  rfl

/-! ## Word facts -/

/-- A 32-bit word clipped to [0, 9] has a signed value between 0 and 9. -/
theorem clip_range (z : BitVec 32) :
    0 ≤ (IntOp.minsi 9#32 (IntOp.maxsi 0#32 z)).toInt ∧ (IntOp.minsi 9#32 (IntOp.maxsi 0#32 z)).toInt ≤ 9 := by
  unfold IntOp.minsi IntOp.maxsi
  have h9 : (9#32 : BitVec 32).toInt = 9 := by decide
  have h0 : (0#32 : BitVec 32).toInt = 0 := by decide
  by_cases hz : z.slt 0#32 = true
  · rw [if_pos hz]
    have h90 : ¬ ((9#32 : BitVec 32).slt 0#32 = true) := by decide
    rw [if_neg h90, h0]
    omega
  · rw [if_neg hz]
    by_cases h2 : (9#32 : BitVec 32).slt z = true
    · rw [if_pos h2, h9]; omega
    · rw [if_neg h2]
      rw [BitVec.slt_iff_toInt_lt] at hz h2
      rw [h0] at hz
      rw [h9] at h2
      omega

/-- A word whose signed value is not negative is not "less than zero". -/
theorem cmpi_slt_zero_of_nonneg (z : BitVec 32) (h : 0 ≤ z.toInt) : IntOp.cmpi .slt z 0#32 = 0#1 := by
  have h0 : (0#32 : BitVec 32).toInt = 0 := by decide
  have hz : ¬ (z.slt 0#32 = true) := by
    rw [BitVec.slt_iff_toInt_lt, h0]; omega
  show BitVec.ofBool (z.slt 0#32) = 0#1
  rw [Bool.not_eq_true] at hz
  rw [hz]
  rfl

/-- The sum of finitely many (at most 2³¹ − 1) one-bit words widened to 32 bits has as its signed value the number
    of them that are set. -/
theorem toInt_sum_bits {ι : Type} [Fintype ι] (p : ι → Prop) [DecidablePred p] (hcard : 2 * Fintype.card ι < 2 ^ 32) :
    (∑ k : ι, (BitVec.ofBool (decide (p k))).setWidth 32).toInt = ((Finset.univ.filter p).card : ℤ) := by
  have hbit : ∀ k, ((BitVec.ofBool (decide (p k))).setWidth 32).toNat = if p k then 1 else 0 := by
    intro k
    by_cases hp : p k
    · simp [hp]
    · simp [hp]
  have hsum : ∑ k : ι, ((BitVec.ofBool (decide (p k))).setWidth 32).toNat = (Finset.univ.filter p).card := by
    rw [Finset.card_filter]
    exact Finset.sum_congr rfl (fun k _ => hbit k)
  have hle : (Finset.univ.filter p).card ≤ Fintype.card ι := by
    rw [← Finset.card_univ]; exact Finset.card_filter_le _ _
  have hnat : (∑ k : ι, (BitVec.ofBool (decide (p k))).setWidth 32).toNat = (Finset.univ.filter p).card := by
    rw [WordSum.toNat_sum _ _ (by rw [hsum]; omega), hsum]
  rw [BitVec.toInt_eq_toNat_of_lt (by rw [hnat]; omega), hnat]

/-! ## A table of N entries read through a column of n index words -/

/-- The element `e` of `table[idx]`, for a table of `N` entries and an `n × 1` column of index words: the table at the
    `e`-th index word, read signed and clamped into `[0, N − 1]`. -/
theorem gather_vec {α : Type} {N n w : Nat} (d : GatherDims ⟨1, ![N]⟩ ⟨2, ![n, 1]⟩ ⟨1, ![n]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (e : Fin n) (hN : 0 < N) :
    Host.gather d x idx (ix1 e) = x (ix1 ⟨min (idx (ix2 e 0)).toInt.toNat (N - 1), by omega⟩) := by
  -- the collapsed axis has slice size 1, so the clamp's upper end is N − 1
  have hsl : d.sliceSizes 0 = 1 := d.slice_collapsed 0 (by rw [hcoll]; exact List.mem_singleton.mpr rfl)
  obtain ⟨off, coll, ob, sb, sim, ivd, ss, wf⟩ := d
  simp only at hoff hcoll hob hsim hivd hsl
  subst hoff hcoll hob hsim hivd
  unfold Host.gather
  congr 1
  funext a
  apply Fin.ext
  match a with
  | ⟨0, _⟩ =>
    -- the start index of result element e is read at (e, 0) of the index column
    have hsi : ∀ c, (GatherDims.siIdx ⟨[], [0], [], sb, [0], 1, ss, wf⟩ (ix1 e) c : (⟨2, ![n, 1]⟩ : Shape).Idx)
        = ix2 e 0 := by
      intro c
      funext b
      apply Fin.ext
      match b with
      | ⟨0, _⟩ => rfl
      | ⟨1, _⟩ =>
        have := c.isLt
        simp only [List.length_singleton] at this
        show c.val = 0
        omega
    show min (idx (GatherDims.siIdx _ _ _)).toInt.toNat (N - ss 0) + 0 + 0 = min (idx (ix2 e 0)).toInt.toNat (N - 1)
    rw [hsi, hsl]
    rfl

/-! ## The quantities of the reference function, named -/

/-- The number of valid elements whose bin is k. -/
def cnt (X T W : Cert.Spec.Arr) (k : Fin 10) : EReal :=
  ∑ e ∈ Finset.univ.filter (fun e : Fin Cert.Spec.NN =>
      (Cert.Spec.binW (Cert.Spec.sc (X (ix1 e)) (T (ix1 e)))).toInt = (k.val : ℤ)), Cert.Spec.vf (W (ix1 e))
/-- The number of valid elements, at least one. -/
def tot (W : Cert.Spec.Arr) : EReal := max (∑ e : Fin Cert.Spec.NN, Cert.Spec.vf (W (ix1 e))) Cert.Spec.one
/-- The number of occupied bins. -/
def nbins (X T W : Cert.Spec.Arr) : EReal := (((Finset.univ.filter (fun k : Fin 10 => 0 < cnt X T W k)).card : ℝ) : EReal)
/-- The weight of bin k. -/
def pbw (X T W : Cert.Spec.Arr) (k : Fin 10) : EReal :=
  if 0 < cnt X T W k then Ideal.div (tot W) (max (cnt X T W k) Cert.Spec.one) else 0

/-- The reference function in those names. -/
theorem refFn_eq (X T W : Cert.Spec.Arr) :
    Cert.Spec.refFn X T W
      = Ideal.div (∑ e : Fin Cert.Spec.NN,
          Ideal.div (if 0 < W (ix1 e) then pbw X T W (Cert.Spec.binF (Cert.Spec.sc (X (ix1 e)) (T (ix1 e)))) else 0)
              (max (nbins X T W) Cert.Spec.one)
            * Cert.Spec.le (X (ix1 e)) (T (ix1 e))) (tot W) := rfl

theorem binW_range (s : EReal) : 0 ≤ (Cert.Spec.binW s).toInt ∧ (Cert.Spec.binW s).toInt ≤ 9 := clip_range _

/-! ## The program's stages at an index -/

instance : Subsingleton S_.Idx := ⟨fun a b => funext fun d => d.elim0⟩

/-- The validity array. -/
theorem v10_at (W : Cert.Spec.Arr) (i : S16777216.Idx) :
    val_main_v10 (F := Ideal) W i = Cert.Spec.vf (W i) := by
  simp only [val_main_v10_apply, val_main_v9_apply, val_main_v8_apply, val_main_cst_1_apply]
  exact vf_word (W i)

/-- The clamped total. -/
theorem v12_at (W : Cert.Spec.Arr) (i : S_.Idx) : val_main_v12 (F := Ideal) W i = tot W := by
  rw [val_main_v12_apply, val_main_v11_apply, val_main_cst_2_apply, val_main_cst_3_apply,
    Cert.LibScatterGatherRows.sum_idx1]
  simp only [v10_at, Ideal.ofBits_def, Ideal.ofBits_zero_f32, zero_add, Ideal.maximumf_def]
  rfl

/-- The scaled magnitude. -/
theorem v14_at (X T : Cert.Spec.Arr) (i : S16777216.Idx) :
    val_main_v14 (F := Ideal) X T i = Cert.Spec.sc (X i) (T i) := by
  simp only [val_main_v14_apply, val_main_v7_apply, val_main_v6_apply, val_main_v5_apply, val_main_v4_apply,
    val_main_cst_0_apply, val_main_v3_apply, val_main_v2_apply, val_main_cst_apply, val_main_v1_apply,
    val_main_v0_apply, val_main_v13_apply, val_main_cst_4_apply]
  exact sc_word (X i) (T i)

/-- The bin word. -/
theorem v17_at (X T : Cert.Spec.Arr) (i : S16777216.Idx) :
    val_main_v17 (F := Ideal) X T i = Cert.Spec.binW (Cert.Spec.sc (X i) (T i)) := by
  simp only [val_main_v17_apply, val_main_call0_v4_apply, val_main_call0_v3_apply, val_main_c_5_apply,
    val_main_call0_v2_apply, val_main_call0_v1_apply, val_main_call0_v0_apply, val_main_c_apply,
    val_main_v16_apply, val_main_v15_apply, v14_at]
  exact bin_word _

theorem idx19 (e : Fin 16777216) : idx_main_v19 (ix2 e 0) = ix1 e := by
  funext a
  match a with
  | ⟨0, _⟩ => rfl

theorem idx38 (e : Fin 16777216) : idx_main_v38 (ix2 e 0) = ix1 e := by
  funext a
  match a with
  | ⟨0, _⟩ => rfl

/-- The segment sum: the count of bin k. -/
theorem v20_at (X T W : Cert.Spec.Arr) (k : Fin 10) :
    val_main_v20 (F := Ideal) X T W (ix1 k) = cnt X T W k := by
  unfold val_main_v20
  rw [Cert.LibScatterGatherRows.scatterAdd_vec scatter_S10_S16777216x1_S16777216_n_0_0_1 rfl rfl rfl rfl]
  simp only [val_main_v18_apply, val_main_cst_6_apply, val_main_v19_apply, idx19, v17_at, v10_at,
    Ideal.ofBits_def, Ideal.ofBits_zero_f32, zero_add]
  rfl

/-- A fold of word addition is the start word plus the sum. -/
theorem fold_addi_eq_sum {ι : Type} (s : Finset ι) (b : BitVec 32) (x : ι → BitVec 32) :
    s.fold IntOp.addi b x = b + ∑ i ∈ s, x i := by
  induction s using Finset.cons_induction with
  | empty => simp
  | cons a S ha ih =>
    rw [Finset.fold_cons, Finset.sum_cons, ih]
    show x a + (b + _) = _
    rw [add_left_comm]

/-- The "count of bin k is positive" word, widened to 32 bits. -/
theorem v23_at (X T W : Cert.Spec.Arr) (k : Fin 10) :
    val_main_v23 (F := Ideal) X T W (ix1 k) = (BitVec.ofBool (decide (0 < cnt X T W k))).setWidth 32 := by
  rw [val_main_v23_apply, val_main_v22_apply, v20_at, val_main_v21_apply, val_main_cst_7_apply, Ideal.ofBits_def,
    cmp_gt_zero]

/-- The integer sum of the ten "count is positive" words: its signed value is the number of occupied bins. -/
theorem v24_toInt (X T W : Cert.Spec.Arr) (i : S_.Idx) :
    (val_main_v24 (F := Ideal) X T W i).toInt
      = ((Finset.univ.filter (fun k : Fin 10 => 0 < cnt X T W k)).card : ℤ) := by
  unfold val_main_v24
  rw [Host.reduce_eq_fold IntOp.addi _ _ reducesTo_S10_S_d0 h_S_ i,
    Finset.filter_true_of_mem (fun j _ => Subsingleton.elim _ _), fold_addi_eq_sum, val_main_c_8_apply,
    Cert.LibScatterGatherRows.sum_idx1, Finset.sum_congr rfl (fun k _ => v23_at X T W k),
    show (0#32 : BitVec 32) = 0 from rfl, zero_add]
  exact toInt_sum_bits (fun k : Fin 10 => 0 < cnt X T W k) (by rw [Fintype.card_fin]; norm_num)

/-- The number of occupied bins as a float. -/
theorem v25_at (X T W : Cert.Spec.Arr) (i : S_.Idx) : val_main_v25 (F := Ideal) X T W i = nbins X T W := by
  rw [val_main_v25_apply]
  show (((val_main_v24 (F := Ideal) X T W i).toInt : ℝ) : EReal) = _
  rw [v24_toInt, Int.cast_natCast]
  rfl

/-- The weight table. -/
theorem v32_at (X T W : Cert.Spec.Arr) (k : Fin 10) : val_main_v32 (F := Ideal) X T W (ix1 k) = pbw X T W k := by
  rw [val_main_v32_apply, val_main_v27_apply, val_main_v26_apply, val_main_cst_9_apply, val_main_v31_apply,
    val_main_v30_apply, v12_at, val_main_v29_apply, val_main_v28_apply, val_main_cst_10_apply,
    val_main_call1_v1_apply, val_main_call1_v0_apply, val_main_cst_11_apply, v20_at, Ideal.ofBits_def, Ideal.ofBits_def]
  rw [select_gt_zero, Ideal.ofBits_zero_f32]
  rfl

/-- The normalised index is the bin word: the word is never negative. -/
theorem v37_at (X T : Cert.Spec.Arr) (i : S16777216.Idx) :
    val_main_v37 (F := Ideal) X T i = Cert.Spec.binW (Cert.Spec.sc (X i) (T i)) := by
  simp only [val_main_v37_apply, val_main_v34_apply, val_main_v33_apply, val_main_c_12_apply, v17_at]
  rw [cmpi_slt_zero_of_nonneg _ (binW_range _).1, select_zero]

/-- The weight table read back through the bin index. -/
theorem v39_at (X T W : Cert.Spec.Arr) (e : Fin 16777216) :
    val_main_v39 (F := Ideal) X T W (ix1 e)
      = pbw X T W (Cert.Spec.binF (Cert.Spec.sc (X (ix1 e)) (T (ix1 e)))) := by
  have h := gather_vec gather_S10_S16777216x1_S16777216_n_0_n_n_0_1_1 rfl rfl rfl rfl rfl
    (val_main_v32 (F := Ideal) X T W) (val_main_v38 (F := Ideal) X T) e (by decide)
  unfold val_main_v39
  refine h.trans ?_
  rw [← v32_at]
  refine congrArg (fun r : Fin 10 => val_main_v32 (F := Ideal) X T W (ix1 r)) (Fin.ext ?_)
  show min (val_main_v38 (F := Ideal) X T (ix2 e 0)).toInt.toNat (10 - 1)
    = min (Cert.Spec.binW (Cert.Spec.sc (X (ix1 e)) (T (ix1 e)))).toInt.toNat 9
  rw [val_main_v38_apply, idx38, v37_at]

/-- The per-element weight. -/
theorem v43_at (X T W : Cert.Spec.Arr) (e : Fin 16777216) :
    val_main_v43 (F := Ideal) X T W (ix1 e)
      = Ideal.div (if 0 < W (ix1 e) then pbw X T W (Cert.Spec.binF (Cert.Spec.sc (X (ix1 e)) (T (ix1 e)))) else 0)
          (max (nbins X T W) Cert.Spec.one) := by
  simp only [val_main_v43_apply, val_main_v40_apply, val_main_v9_apply, val_main_v8_apply, val_main_cst_1_apply, v39_at,
    val_main_call2_v1_apply, val_main_call2_v0_apply, val_main_cst_14_apply, val_main_v42_apply, val_main_v41_apply,
    v25_at, val_main_cst_15_apply, Ideal.ofBits_def]
  rw [select_gt_zero, Ideal.ofBits_zero_f32]
  rfl

/-- The logistic loss. -/
theorem v46_at (X T : Cert.Spec.Arr) (i : S16777216.Idx) :
    val_main_v46 (F := Ideal) X T i = Cert.Spec.le (X i) (T i) := by
  simp only [val_main_v46_apply, val_main_v44_apply, val_main_call3_v4_apply, val_main_call3_v3_apply,
    val_main_call3_v2_apply, val_main_call3_cst_apply, val_main_call3_v6_apply, val_main_call3_v5_apply,
    val_main_call3_v11_apply, val_main_call3_v1_apply, val_main_call3_v0_apply, val_main_call3_v10_apply,
    val_main_call3_v9_apply, val_main_call3_v8_apply, val_main_call3_v7_apply, val_main_v45_apply]
  exact le_word (X i) (T i)

/-- The weighted sum of the losses. -/
theorem v48_at (X T W : Cert.Spec.Arr) (i : S_.Idx) :
    val_main_v48 (F := Ideal) X T W i
      = ∑ e : Fin Cert.Spec.NN,
          Ideal.div (if 0 < W (ix1 e) then pbw X T W (Cert.Spec.binF (Cert.Spec.sc (X (ix1 e)) (T (ix1 e)))) else 0)
              (max (nbins X T W) Cert.Spec.one)
            * Cert.Spec.le (X (ix1 e)) (T (ix1 e)) := by
  rw [val_main_v48_apply, val_main_cst_16_apply, Ideal.ofBits_def, Ideal.ofBits_zero_f32, zero_add,
    Cert.LibScatterGatherRows.sum_idx1]
  refine Finset.sum_congr rfl (fun e _ => ?_)
  rw [val_main_v47_apply, v43_at, v46_at]
  rfl

/-- THE REFERENCE PROGRAM'S VALUE is the specification's reference function. -/
theorem ref_value (X T W : Cert.Spec.Arr) :
    Cert.ReferenceIdeal.ReadP.val_main_v49 (F := Ideal) X T W = fun _ => Cert.Spec.refFn X T W := by
  funext i
  rw [val_main_v49_apply, v48_at, v12_at, refFn_eq]
  rfl

end Cert.ReferenceIdeal.RefValue

end
-- ==== Proof.BridgeElem.lean ====
/-
  The per-element quantities of the gradient-harmonised loss at real arguments.

  Every literal of the specification is the real number it spells; at a real logit, target and weight the
  validity, the scaled gradient magnitude and the logistic loss are coercions of real numbers; a threshold
  comparison is a real comparison; and the bin word of a nonnegative real is its floor capped at 9.
-/
import proofs.«408902_j25056839205987_3_alg».proof.Proof.Spec
import Mathlib.Tactic.FinCases
import Mathlib.Tactic.Positivity
import Mathlib.Tactic.NormNum
import Mathlib.Tactic.Ring
import Mathlib.Tactic.Push
import Mathlib.Algebra.Order.Floor.Semiring
import Mathlib.Algebra.Order.Floor.Ring

noncomputable section

namespace Cert.Spec

open Idealize.ShloMosaic

/-! ## The literals -/

theorem one_eq : one = 1 := by
  unfold one
  simp [Ideal.ofBits, Ideal.ieee, -EReal.coe_mul]; norm_num

theorem ten_eq : ten = ((10 : ℝ) : EReal) := by
  unfold ten
  simp [Ideal.ofBits, Ideal.ieee, -EReal.coe_mul]; norm_num

theorem thr_eq (b : Fin 10) (hb : b.val ≠ 0) : thr b = ((b.val : ℝ) : EReal) := by
  fin_cases b
  · exact absurd rfl hb
  all_goals (simp [thr, thrW, Ideal.ofBits, Ideal.ieee, -EReal.coe_mul]; norm_num)

/-! ## The per-element quantities at real arguments -/

/-- The coercion of the reals into the extended reals is monotone, so it commutes with the maximum. -/
theorem coe_max' (a b : ℝ) : ((max a b : ℝ) : EReal) = max (a : EReal) (b : EReal) :=
  EReal.coe_strictMono.monotone.map_max

/-- The real forms. -/
def vfR (w : ℝ) : ℝ := if 0 < w then 1 else 0
def scR (x t : ℝ) : ℝ := |(1 + Real.exp (-x))⁻¹ - t| * 10
def leR (x t : ℝ) : ℝ := (max x 0 + Real.log (1 + Real.exp (-|x|))) - x * t

theorem vf_coe (w : ℝ) : vf (w : EReal) = ((vfR w : ℝ) : EReal) := by
  unfold vf vfR
  by_cases h : 0 < w
  · rw [if_pos h, if_pos (EReal.coe_pos.mpr h), EReal.coe_one]
  · rw [if_neg h, if_neg (fun h' => h (EReal.coe_pos.mp h')), EReal.coe_zero]

theorem sc_coe (x t : ℝ) : sc (x : EReal) (t : EReal) = ((scR x t : ℝ) : EReal) := by
  unfold sc scR
  rw [Ideal.logistic_coe, ten_eq, ← EReal.coe_sub, ← EReal.coe_neg, ← coe_max', ← EReal.coe_mul,
    ← abs_eq_max_neg]

theorem scR_nonneg (x t : ℝ) : 0 ≤ scR x t := by
  unfold scR
  positivity

theorem le_coe (x t : ℝ) : le (x : EReal) (t : EReal) = ((leR x t : ℝ) : EReal) := by
  unfold le leR
  have hpos : (0 : ℝ) < 1 + Real.exp (-|x|) := by positivity
  have h1 : Ideal.log1p (Ideal.exp (-(max (x : EReal) (-(x : EReal)))))
      = ((Real.log (1 + Real.exp (-|x|)) : ℝ) : EReal) := by
    rw [← EReal.coe_neg, ← coe_max', ← abs_eq_max_neg, ← EReal.coe_neg, Ideal.exp_coe, Ideal.log1p,
      ← EReal.coe_one, ← EReal.coe_add, Ideal.log_coe, if_neg (not_le.mpr hpos)]
  rw [h1, ← EReal.coe_zero, ← coe_max', ← EReal.coe_add, ← EReal.coe_mul, ← EReal.coe_sub]

theorem ge_thr_coe (b : Fin 10) (hb : b.val ≠ 0) (s : ℝ) :
    ge (thr b) (s : EReal) = (((if (b.val : ℝ) ≤ s then (1 : ℝ) else 0) : ℝ) : EReal) := by
  rw [ge, thr_eq b hb]
  by_cases h : (b.val : ℝ) ≤ s
  · rw [if_pos h, if_pos (EReal.coe_le_coe_iff.mpr h), EReal.coe_one]
  · rw [if_neg h, if_neg (fun h' => h (EReal.coe_le_coe_iff.mp h')), EReal.coe_zero]

/-! ## The bin of a nonnegative real -/

/-- The bin of a nonnegative real: its floor, capped at 9. -/
def binR (s : ℝ) : ℕ := min 9 ⌊s⌋₊

theorem binR_lt (s : ℝ) : binR s < 10 := by
  unfold binR
  omega

/-- Clipping a 32-bit word that holds a nonnegative integer to [0, 9] gives the smaller of 9 and that integer. -/
theorem clip_toInt (n : ℤ) (h0 : 0 ≤ n) (h1 : n ≤ 2 ^ 31 - 1) :
    (IntOp.minsi 9#32 (IntOp.maxsi 0#32 (BitVec.ofInt 32 n))).toInt = min 9 n := by
  have hw : (BitVec.ofInt 32 n).toInt = n :=
    BitVec.toInt_ofInt_eq_self (by decide) (by norm_num; omega) (by norm_num; omega)
  have h9 : (9#32 : BitVec 32).toInt = 9 := by decide
  have hz : (0#32 : BitVec 32).toInt = 0 := by decide
  have hmax : IntOp.maxsi 0#32 (BitVec.ofInt 32 n) = BitVec.ofInt 32 n := by
    have hn : ¬ ((BitVec.ofInt 32 n).slt 0#32 = true) := by
      rw [BitVec.slt, decide_eq_true_eq, hw, hz]; omega
    rw [IntOp.maxsi, if_neg hn]
  rw [hmax, IntOp.minsi]
  by_cases h : 9 < n
  · have hp : (9#32 : BitVec 32).slt (BitVec.ofInt 32 n) = true := by
      rw [BitVec.slt, decide_eq_true_eq, hw, h9]; exact h
    rw [if_pos hp, h9]; omega
  · have hn : ¬ ((9#32 : BitVec 32).slt (BitVec.ofInt 32 n) = true) := by
      rw [BitVec.slt, decide_eq_true_eq, hw, h9]; exact h
    rw [if_neg hn, hw]; omega

theorem binW_coe (s : ℝ) (hs : 0 ≤ s) : (binW (s : EReal)).toInt = (binR s : ℤ) := by
  have hfl : (0 : ℤ) ≤ ⌊s⌋ := Int.floor_nonneg.mpr hs
  have hfr : (0 : ℝ) ≤ ((⌊s⌋ : ℤ) : ℝ) := by exact_mod_cast hfl
  have hnat : ((⌊s⌋₊ : ℕ) : ℤ) = ⌊s⌋ := Int.natCast_floor_eq_floor hs
  have hw : Ideal.fptosi 32 (Ideal.liftRound Int.floor (s : EReal))
      = BitVec.ofInt 32 (min (2 ^ 31 - 1) ⌊s⌋) := by
    rw [Ideal.liftRound_coe, Ideal.fptosi, Ideal.toIntClamped_coe, if_pos hfr, Int.floor_intCast]
    congr 1
    push_cast
    omega
  rw [binW, hw, clip_toInt _ (by omega) (by omega), binR]
  push_cast
  rw [hnat]
  omega

theorem binF_coe (s : ℝ) (hs : 0 ≤ s) : (binF (s : EReal)).val = binR s := by
  have h := binW_coe s hs
  have hlt := binR_lt s
  show min (binW (s : EReal)).toInt.toNat 9 = binR s
  rw [h, Int.toNat_natCast]
  omega

/-- Bin k holds s exactly when s is at least k (always, for k = 0) and below k + 1 (always, for k = 9). -/
theorem binR_eq_iff (s : ℝ) (hs : 0 ≤ s) (k : Fin 10) :
    binR s = k.val ↔ ((k.val = 0 ∨ (k.val : ℝ) ≤ s) ∧ (k.val = 9 ∨ s < (k.val : ℝ) + 1)) := by
  have h1 : ((k.val : ℝ) ≤ s) ↔ k.val ≤ ⌊s⌋₊ := (Nat.le_floor_iff hs).symm
  have h2 : (s < (k.val : ℝ) + 1) ↔ ⌊s⌋₊ < k.val + 1 := by
    rw [Nat.floor_lt hs]; push_cast; rfl
  rw [h1, h2, binR]
  have := k.isLt
  omega

/-! ## Division -/

/-- Real division on the extended reals, for a nonzero real divisor. -/
theorem div_coe' (a b : ℝ) (hb : b ≠ 0) : Ideal.div (a : EReal) (b : EReal) = ((a / b : ℝ) : EReal) := by
  rw [Ideal.div_coe hb, ← EReal.coe_mul, mul_one_div]

end Cert.Spec

end
-- ==== Proof.Bridge.lean ====
/-
  The sum identity of the gradient-harmonised loss.

  For real inputs the 24 grand totals are real numbers. Differencing consecutive cumulative totals
  Σ v·[s ≥ k] − Σ v·[s ≥ k+1] leaves exactly the elements whose bin min(9, ⌊s⌋) is k, so the differenced
  totals are the per-bin counts and per-bin loss sums of the reference's segment sums. Both programs then
  use the same total, the same number of non-empty bins and the same per-bin weights, and
  Σ_i (v_i · p(bin i) / n) · ℓ_i = (Σ_k p_k · Σ_{bin i = k} v_i ℓ_i) / n by grouping the elements by bin.
-/
import proofs.«408902_j25056839205987_3_alg».proof.Proof.BridgeElem
import Mathlib.Algebra.BigOperators.Group.Finset.Basic
import Mathlib.Algebra.BigOperators.Ring.Finset
import Mathlib.Data.EReal.Basic
import Mathlib.Data.EReal.Operations
import Mathlib.Tactic.Ring
import Mathlib.Tactic.Linarith
import Mathlib.Tactic.NormNum

noncomputable section

open scoped BigOperators

namespace Cert.Spec

open Idealize.ShloMosaic Idealize.ShloMosaic.ValueIdx

/-! ## Coercion and finite sums -/

/-- The coercion of the reals into the extended reals commutes with finite sums. -/
theorem coe_sum' {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion is monotone, so it commutes with the maximum. -/
theorem coe_max1 (a : ℝ) : max (a : EReal) 1 = ((max a 1 : ℝ) : EReal) := by
  rw [← EReal.coe_one]
  exact (EReal.coe_strictMono.monotone.map_max).symm

/-! ## The real identity -/

/-- The threshold indicator [b ≤ s], the threshold 0 read as always met. -/
def gR (b : ℕ) (s : ℝ) : ℝ := if b = 0 then 1 else if (b : ℝ) ≤ s then 1 else 0

/-- For a nonnegative s, the difference of consecutive threshold indicators is the indicator of the bin:
[s ≥ k] − [s ≥ k+1] = [min(9, ⌊s⌋) = k], the last bin being [s ≥ 9] alone. -/
theorem gR_diff (s : ℝ) (hs : 0 ≤ s) (k : Fin 10) :
    (if k.val = 9 then gR 9 s else gR k.val s - gR (k.val + 1) s) = if binR s = k.val then (1 : ℝ) else 0 := by
  have hiff := binR_eq_iff s hs k
  have hk := k.isLt
  by_cases hb : binR s = k.val
  · rw [if_pos hb]
    obtain ⟨h1, h2⟩ := hiff.mp hb
    by_cases h9 : k.val = 9
    · rw [if_pos h9]
      have h1' : ((9 : ℕ) : ℝ) ≤ s := by
        rcases h1 with h1 | h1
        · omega
        · rw [h9] at h1; exact h1
      unfold gR
      rw [if_neg (by norm_num), if_pos h1']
    · rw [if_neg h9]
      have h2' : s < (k.val : ℝ) + 1 := by
        rcases h2 with h2 | h2
        · omega
        · exact h2
      have hk1 : ¬ ((k.val + 1 : ℕ) : ℝ) ≤ s := by push_cast; linarith
      unfold gR
      rw [if_neg (Nat.succ_ne_zero k.val), if_neg hk1]
      by_cases h0 : k.val = 0
      · rw [if_pos h0]; ring
      · rw [if_neg h0]
        have : (k.val : ℝ) ≤ s := by
          rcases h1 with h1 | h1
          · exact absurd h1 h0
          · exact h1
        rw [if_pos this]; ring
  · rw [if_neg hb]
    have hn := (not_congr hiff).mp hb
    by_cases h9 : k.val = 9
    · rw [if_pos h9]
      unfold gR
      rw [if_neg (by norm_num)]
      have : ¬ ((9 : ℕ) : ℝ) ≤ s := by
        intro h
        apply hn
        refine ⟨Or.inr ?_, Or.inl h9⟩
        rw [h9]; exact h
      rw [if_neg this]
    · rw [if_neg h9]
      unfold gR
      rw [if_neg (Nat.succ_ne_zero k.val)]
      by_cases hs1 : ((k.val + 1 : ℕ) : ℝ) ≤ s
      · rw [if_pos hs1]
        have hks : (k.val : ℝ) ≤ s := by push_cast at hs1; linarith
        rw [if_pos hks]
        by_cases h0 : k.val = 0
        · rw [if_pos h0]; ring
        · rw [if_neg h0]; ring
      · rw [if_neg hs1]
        have hlt : s < (k.val : ℝ) + 1 := by push_cast at hs1; linarith
        have hnot : ¬ (k.val = 0 ∨ (k.val : ℝ) ≤ s) := fun h => hn ⟨h, Or.inr hlt⟩
        have hn0 : ¬ k.val = 0 := fun h => hnot (Or.inl h)
        have hnle : ¬ (k.val : ℝ) ≤ s := fun h => hnot (Or.inr h)
        rw [if_neg hn0, if_neg hnle]; ring

/-- Summed over the elements: the difference of consecutive cumulative totals is the total over one bin. -/
theorem sum_gR_diff {ι : Type*} [Fintype ι] (a s : ι → ℝ) (hs : ∀ i, 0 ≤ s i) (k : Fin 10) :
    (if k.val = 9 then ∑ i, a i * gR 9 (s i)
      else ∑ i, a i * gR k.val (s i) - ∑ i, a i * gR (k.val + 1) (s i))
      = ∑ i ∈ Finset.univ.filter (fun i => binR (s i) = k.val), a i := by
  rw [Finset.sum_filter]
  have hpt : ∀ i, a i * (if k.val = 9 then gR 9 (s i) else gR k.val (s i) - gR (k.val + 1) (s i))
      = if binR (s i) = k.val then a i else 0 := by
    intro i
    rw [gR_diff (s i) (hs i) k]
    by_cases h : binR (s i) = k.val
    · rw [if_pos h, if_pos h, mul_one]
    · rw [if_neg h, if_neg h, mul_zero]
  rw [← Finset.sum_congr rfl (fun i _ => hpt i)]
  by_cases h9 : k.val = 9
  · simp only [if_pos h9]
  · simp only [if_neg h9]
    rw [← Finset.sum_sub_distrib]
    exact Finset.sum_congr rfl (fun i _ => by ring)

/-- Grouping the elements by bin: Σ_i (a_i · p(bin i) / N) · ℓ_i = (Σ_k p_k · Σ_{bin i = k} a_i ℓ_i) / N. -/
theorem regroup {ι : Type*} [Fintype ι] (bin : ι → ℕ) (hlt : ∀ i, bin i < 10) (a l : ι → ℝ)
    (p : Fin 10 → ℝ) (N : ℝ) :
    ∑ i, (a i * p ⟨bin i, hlt i⟩) / N * l i
      = (∑ k : Fin 10, p k * ∑ i ∈ Finset.univ.filter (fun i => bin i = k.val), a i * l i) / N := by
  have hfil : ∀ k : Fin 10, Finset.univ.filter (fun i => bin i = k.val)
      = Finset.univ.filter (fun i => (⟨bin i, hlt i⟩ : Fin 10) = k) := by
    intro k
    apply Finset.filter_congr
    intro i _
    exact (Fin.ext_iff (a := (⟨bin i, hlt i⟩ : Fin 10)) (b := k)).symm
  have h1 : ∀ k : Fin 10, p k * ∑ i ∈ Finset.univ.filter (fun i => bin i = k.val), a i * l i
      = ∑ i ∈ Finset.univ.filter (fun i => (⟨bin i, hlt i⟩ : Fin 10) = k), p ⟨bin i, hlt i⟩ * (a i * l i) := by
    intro k
    rw [hfil k, Finset.mul_sum]
    apply Finset.sum_congr rfl
    intro i hi
    rw [(Finset.mem_filter.mp hi).2]
  rw [Finset.sum_congr rfl (fun k _ => h1 k),
    Finset.sum_fiberwise Finset.univ (fun i => (⟨bin i, hlt i⟩ : Fin 10)) (fun i => p ⟨bin i, hlt i⟩ * (a i * l i)),
    div_eq_mul_inv, Finset.sum_mul]
  exact Finset.sum_congr rfl (fun i _ => by ring)

/-! ## The totals at real inputs -/

/-- The 24 per-element row functions at real arguments: rows 0..9 are v·[s ≥ r], rows 10..19 are v·ℓ·[s ≥ r − 10]. -/
def qR (r : Fin 24) (x t w : ℝ) : ℝ :=
  if r.val < 10 then vfR w * gR r.val (scR x t)
  else if r.val < 20 then vfR w * leR x t * gR (r.val - 10) (scR x t)
  else 0

theorem q_coe (r : Fin 24) (x t w : ℝ) :
    q r (x : EReal) (t : EReal) (w : EReal) = ((qR r x t w : ℝ) : EReal) := by
  unfold q qR
  by_cases h0 : r.val = 0
  · have h10 : r.val < 10 := by omega
    rw [if_pos h0, if_pos h10, vf_coe]
    unfold gR
    rw [if_pos h0, mul_one]
  · rw [if_neg h0]
    by_cases h10 : r.val < 10
    · rw [dif_pos h10, if_pos h10, vf_coe, sc_coe, ge_thr_coe ⟨r.val, h10⟩ h0, ← EReal.coe_mul]
      unfold gR
      rw [if_neg h0]
    · rw [dif_neg h10, if_neg h10]
      by_cases h10' : r.val = 10
      · have h20 : r.val < 20 := by omega
        have hz : r.val - 10 = 0 := by omega
        rw [if_pos h10', if_pos h20, vf_coe, le_coe, ← EReal.coe_mul]
        unfold gR
        rw [if_pos hz, mul_one]
      · rw [if_neg h10']
        by_cases h20 : r.val < 20
        · have hz : ¬ r.val - 10 = 0 := by omega
          rw [dif_pos h20, if_pos h20, vf_coe, le_coe, sc_coe,
            ge_thr_coe ⟨r.val - 10, by omega⟩ hz, ← EReal.coe_mul, ← EReal.coe_mul]
          unfold gR
          rw [if_neg hz]
        · rw [dif_neg h20, if_neg h20, EReal.coe_zero]

/-- Each grand total is the coercion of the real total. -/
theorem Tot_coe (X T W : Arr) (x t w : Fin NN → ℝ) (hx : ∀ i, X (ix1 i) = (x i : EReal))
    (ht : ∀ i, T (ix1 i) = (t i : EReal)) (hw : ∀ i, W (ix1 i) = (w i : EReal)) (r : Fin 24) :
    Tot r X T W = ((∑ i, qR r (x i) (t i) (w i) : ℝ) : EReal) := by
  unfold Tot
  rw [coe_sum']
  exact Finset.sum_congr rfl (fun i _ => by rw [hx i, ht i, hw i, q_coe])

/-! ## The host arithmetic in the reals -/

/-- The per-bin weight and the number of non-empty bins, in the reals. -/
def pR (V : ℝ) (c : Fin 10 → ℝ) (k : Fin 10) : ℝ := if 0 < c k then max V 1 / max (c k) 1 else 0
def nR (c : Fin 10 → ℝ) : ℝ := ∑ k : Fin 10, if 0 < c k then (1 : ℝ) else 0

theorem max_one_ne_zero (a : ℝ) : max a 1 ≠ 0 := by
  have h : (1 : ℝ) ≤ max a 1 := le_max_right _ _
  intro h0
  rw [h0] at h
  linarith

/-- A per-bin weight of real total and real count is the real per-bin weight. -/
theorem pbw_coe1 (V : ℝ) (c : Fin 10 → ℝ) (k : Fin 10) :
    (if 0 < ((c k : ℝ) : EReal) then Ideal.div ((max V 1 : ℝ) : EReal) (max ((c k : ℝ) : EReal) 1) else 0)
      = ((pR V c k : ℝ) : EReal) := by
  unfold pR
  by_cases h : 0 < c k
  · rw [if_pos (EReal.coe_pos.mpr h), if_pos h, coe_max1, div_coe' _ _ (max_one_ne_zero _)]
  · rw [if_neg (fun h' => h (EReal.coe_pos.mp h')), if_neg h, EReal.coe_zero]

theorem pbw_coe (V : ℝ) (c : Fin 10 → ℝ) (k : Fin 10) :
    (if 0 < ((c k : ℝ) : EReal) then Ideal.div (max (V : EReal) one) (max ((c k : ℝ) : EReal) one) else 0)
      = ((pR V c k : ℝ) : EReal) := by
  rw [one_eq, coe_max1]
  exact pbw_coe1 V c k

/-- Ten 0/1 indicators of positive real counts sum to the real number of non-empty bins. -/
theorem nK_coe (c : Fin 10 → ℝ) :
    (∑ b : Fin 10, (if 0 < ((c b : ℝ) : EReal) then (1 : EReal) else 0)) = ((nR c : ℝ) : EReal) := by
  unfold nR
  rw [coe_sum']
  apply Finset.sum_congr rfl
  intro b _
  by_cases h : 0 < c b
  · rw [if_pos (EReal.coe_pos.mpr h), if_pos h, EReal.coe_one]
  · rw [if_neg (fun h' => h (EReal.coe_pos.mp h')), if_neg h, EReal.coe_zero]

/-- The kernel's host arithmetic on totals whose count, per-bin counts and per-bin loss sums are real. -/
theorem tailFn_real (C : Fin 24 → EReal) (V : ℝ) (c S : Fin 10 → ℝ)
    (hV : C 0 = (V : EReal)) (hc : ∀ k, cntK C k = (c k : EReal)) (hS : ∀ k, sumK C k = (S k : EReal)) :
    tailFn C = (((∑ k, pR V c k * S k) / max (nR c) 1 / max V 1 : ℝ) : EReal) := by
  have hsum : (∑ b : Fin 10, (if 0 < cntK C b then Ideal.div (max (C 0) one) (max (cntK C b) one) else 0)
      * sumK C b) = ((∑ k, pR V c k * S k : ℝ) : EReal) := by
    rw [coe_sum']
    apply Finset.sum_congr rfl
    intro k _
    rw [hc k, hS k, hV, pbw_coe, EReal.coe_mul]
  have hn : (∑ b : Fin 10, (if 0 < cntK C b then (1 : EReal) else 0)) = ((nR c : ℝ) : EReal) := by
    rw [← nK_coe]
    exact Finset.sum_congr rfl (fun b _ => by rw [hc b])
  unfold tailFn
  dsimp only
  rw [hsum, hn, hV, one_eq, coe_max1, coe_max1, div_coe' _ _ (max_one_ne_zero _),
    div_coe' _ _ (max_one_ne_zero _)]

/-- Selecting by a positive weight is multiplying by the validity. -/
theorem vf_gate (w p : ℝ) : (if 0 < (w : EReal) then (p : EReal) else 0) = ((vfR w * p : ℝ) : EReal) := by
  unfold vfR
  by_cases h : 0 < w
  · rw [if_pos (EReal.coe_pos.mpr h), if_pos h, one_mul]
  · rw [if_neg (fun h' => h (EReal.coe_pos.mp h')), if_neg h, zero_mul, EReal.coe_zero]

/-- The bin index of a nonnegative real. -/
theorem binF_eq (s : ℝ) (hs : 0 ≤ s) : binF (s : EReal) = ⟨binR s, binR_lt s⟩ := Fin.ext (binF_coe s hs)

/-! ## The instantiation at the 16777216 elements -/

theorem qR_lo (r : Fin 24) (b : ℕ) (h : r.val = b) (hb : b < 10) (x t w : ℝ) :
    qR r x t w = vfR w * gR b (scR x t) := by
  unfold qR
  rw [if_pos (by omega), h]

theorem qR_hi (r : Fin 24) (b : ℕ) (h : r.val = b + 10) (hb : b < 10) (x t w : ℝ) :
    qR r x t w = vfR w * leR x t * gR b (scR x t) := by
  have h1 : ¬ r.val < 10 := by omega
  have h2 : r.val < 20 := by omega
  have h3 : r.val - 10 = b := by omega
  unfold qR
  rw [if_neg h1, if_pos h2, h3]

/-- The real total count, per-bin counts and per-bin loss sums. -/
def VR (w : Fin NN → ℝ) : ℝ := ∑ i, vfR (w i)
def cR (x t w : Fin NN → ℝ) (k : Fin 10) : ℝ :=
  ∑ i ∈ Finset.univ.filter (fun i => binR (scR (x i) (t i)) = k.val), vfR (w i)
def SR (x t w : Fin NN → ℝ) (k : Fin 10) : ℝ :=
  ∑ i ∈ Finset.univ.filter (fun i => binR (scR (x i) (t i)) = k.val), vfR (w i) * leR (x i) (t i)

/-- Row 0 is the total count. -/
theorem V_real (C : Fin 24 → EReal) (x t w : Fin NN → ℝ)
    (hC : ∀ r, C r = ((∑ i, qR r (x i) (t i) (w i) : ℝ) : EReal)) : C 0 = ((VR w : ℝ) : EReal) := by
  rw [hC 0]
  unfold VR
  refine congrArg (fun z : ℝ => (z : EReal)) ?_
  apply Finset.sum_congr rfl
  intro i _
  rw [qR_lo 0 0 rfl (by norm_num)]
  unfold gR
  rw [if_pos rfl, mul_one]

/-- Differencing rows 0..9 gives the per-bin counts. -/
theorem cntK_real (C : Fin 24 → EReal) (x t w : Fin NN → ℝ)
    (hC : ∀ r, C r = ((∑ i, qR r (x i) (t i) (w i) : ℝ) : EReal)) (k : Fin 10) :
    cntK C k = ((cR x t w k : ℝ) : EReal) := by
  have hk := k.isLt
  unfold cntK cR
  rw [← sum_gR_diff (fun i => vfR (w i)) (fun i => scR (x i) (t i)) (fun i => scR_nonneg _ _) k]
  by_cases h9 : k.val = 9
  · rw [dif_pos h9, if_pos h9, hC]
    refine congrArg (fun z : ℝ => (z : EReal)) ?_
    exact Finset.sum_congr rfl (fun i _ => qR_lo 9 9 rfl (by norm_num) _ _ _)
  · rw [dif_neg h9, if_neg h9, hC, hC, ← EReal.coe_sub]
    refine congrArg (fun z : ℝ => (z : EReal)) (congrArg₂ (fun a b : ℝ => a - b) ?_ ?_)
    · exact Finset.sum_congr rfl (fun i _ => qR_lo _ k.val rfl hk _ _ _)
    · exact Finset.sum_congr rfl (fun i _ => qR_lo _ (k.val + 1) rfl (by omega) _ _ _)

/-- Differencing rows 10..19 gives the per-bin loss sums. -/
theorem sumK_real (C : Fin 24 → EReal) (x t w : Fin NN → ℝ)
    (hC : ∀ r, C r = ((∑ i, qR r (x i) (t i) (w i) : ℝ) : EReal)) (k : Fin 10) :
    sumK C k = ((SR x t w k : ℝ) : EReal) := by
  have hk := k.isLt
  unfold sumK SR
  rw [← sum_gR_diff (fun i => vfR (w i) * leR (x i) (t i)) (fun i => scR (x i) (t i))
    (fun i => scR_nonneg _ _) k]
  by_cases h9 : k.val = 9
  · rw [dif_pos h9, if_pos h9, hC]
    refine congrArg (fun z : ℝ => (z : EReal)) ?_
    exact Finset.sum_congr rfl (fun i _ => qR_hi 19 9 rfl (by norm_num) _ _ _)
  · rw [dif_neg h9, if_neg h9, hC, hC, ← EReal.coe_sub]
    refine congrArg (fun z : ℝ => (z : EReal)) (congrArg₂ (fun a b : ℝ => a - b) ?_ ?_)
    · exact Finset.sum_congr rfl (fun i _ => qR_hi _ k.val rfl hk _ _ _)
    · exact Finset.sum_congr rfl (fun i _ => qR_hi _ (k.val + 1) (by show k.val + 11 = k.val + 1 + 10; omega) (by omega) _ _ _)

theorem div_congr_left {a b m : EReal} (h : a = b) : Ideal.div a m = Ideal.div b m := by rw [h]

theorem coe_div_congr {a b m : ℝ} (h : a = b) : ((a / m : ℝ) : EReal) = ((b / m : ℝ) : EReal) := by rw [h]

/-- The reference's arithmetic at real inputs. -/
theorem refFn_real (X T W : Arr) (x t w : Fin NN → ℝ) (hx : ∀ i, X (ix1 i) = (x i : EReal))
    (ht : ∀ i, T (ix1 i) = (t i : EReal)) (hw : ∀ i, W (ix1 i) = (w i : EReal)) :
    refFn X T W = (((∑ i, (vfR (w i) * pR (VR w) (cR x t w) ⟨binR (scR (x i) (t i)), binR_lt _⟩)
      / max (nR (cR x t w)) 1 * leR (x i) (t i)) / max (VR w) 1 : ℝ) : EReal) := by
  have hV : (∑ i : Fin NN, vf (W (ix1 i))) = ((VR w : ℝ) : EReal) := by
    unfold VR
    rw [coe_sum']
    exact Finset.sum_congr rfl (fun i _ => by rw [hw i, vf_coe])
  have hcnt : ∀ k : Fin 10,
      (∑ i ∈ Finset.univ.filter (fun i : Fin NN => (binW (sc (X (ix1 i)) (T (ix1 i)))).toInt = (k.val : ℤ)),
        vf (W (ix1 i))) = ((cR x t w k : ℝ) : EReal) := by
    intro k
    have hfil : Finset.univ.filter (fun i : Fin NN => (binW (sc (X (ix1 i)) (T (ix1 i)))).toInt = (k.val : ℤ))
        = Finset.univ.filter (fun i : Fin NN => binR (scR (x i) (t i)) = k.val) := by
      apply Finset.filter_congr
      intro i _
      rw [hx i, ht i, sc_coe, binW_coe _ (scR_nonneg _ _)]
      exact Nat.cast_inj
    rw [hfil]
    unfold cR
    rw [coe_sum']
    exact Finset.sum_congr rfl (fun i _ => by rw [hw i, vf_coe])
  have hn : (((Finset.univ.filter (fun k : Fin 10 => 0 < ∑ i ∈ Finset.univ.filter
      (fun i : Fin NN => (binW (sc (X (ix1 i)) (T (ix1 i)))).toInt = (k.val : ℤ)), vf (W (ix1 i)))).card : ℝ) : EReal)
      = ((nR (cR x t w) : ℝ) : EReal) := by
    have hfil : Finset.univ.filter (fun k : Fin 10 => 0 < ∑ i ∈ Finset.univ.filter
        (fun i : Fin NN => (binW (sc (X (ix1 i)) (T (ix1 i)))).toInt = (k.val : ℤ)), vf (W (ix1 i)))
        = Finset.univ.filter (fun k : Fin 10 => 0 < cR x t w k) := by
      apply Finset.filter_congr
      intro k _
      rw [hcnt k]
      exact EReal.coe_pos
    rw [hfil]
    unfold nR
    rw [Finset.natCast_card_filter]
  unfold refFn
  dsimp only
  rw [hn, hV, one_eq, coe_max1, coe_max1, ← div_coe' _ _ (max_one_ne_zero _), coe_sum']
  refine div_congr_left ?_
  apply Finset.sum_congr rfl
  intro i _
  rw [hx i, ht i, hw i, sc_coe, le_coe, binF_eq _ (scR_nonneg _ _)]
  have hh := hcnt ⟨binR (scR (x i) (t i)), binR_lt _⟩
  simp only [hh]
  rw [pbw_coe1 (VR w) (cR x t w) ⟨binR (scR (x i) (t i)), binR_lt _⟩, vf_gate,
    div_coe' _ _ (max_one_ne_zero _), EReal.coe_mul]

/-! ## The sum identity -/

/-- For real inputs the kernel's arithmetic on its 24 grand totals is the reference's per-element formula. -/
theorem kernelFn_eq_refFn (X T W : Arr) (hX : Finite X) (hT : Finite T) (hW : Finite W) :
    kernelFn X T W = refFn X T W := by
  obtain ⟨x, hx⟩ : ∃ x : Fin NN → ℝ, ∀ i, X (ix1 i) = (x i : EReal) :=
    ⟨fun i => (X (ix1 i)).toReal, fun i => (EReal.coe_toReal (hX _).1 (hX _).2).symm⟩
  obtain ⟨t, ht⟩ : ∃ t : Fin NN → ℝ, ∀ i, T (ix1 i) = (t i : EReal) :=
    ⟨fun i => (T (ix1 i)).toReal, fun i => (EReal.coe_toReal (hT _).1 (hT _).2).symm⟩
  obtain ⟨w, hw⟩ : ∃ w : Fin NN → ℝ, ∀ i, W (ix1 i) = (w i : EReal) :=
    ⟨fun i => (W (ix1 i)).toReal, fun i => (EReal.coe_toReal (hW _).1 (hW _).2).symm⟩
  have hC : ∀ r, (fun r => Tot r X T W) r = ((∑ i, qR r (x i) (t i) (w i) : ℝ) : EReal) :=
    fun r => Tot_coe X T W x t w hx ht hw r
  rw [kernelFn, tailFn_real _ (VR w) (cR x t w) (SR x t w) (V_real _ x t w hC) (cntK_real _ x t w hC)
    (sumK_real _ x t w hC), refFn_real X T W x t w hx ht hw]
  refine coe_div_congr ?_
  rw [regroup (fun i => binR (scR (x i) (t i))) (fun i => binR_lt _) (fun i => vfR (w i))
    (fun i => leR (x i) (t i)) (pR (VR w) (cR x t w)) (max (nR (cR x t w)) 1)]
  rfl

end Cert.Spec

end
-- ==== Proof.FiniteInputs.lean ====
/-
  From the precondition to "every entry is a real number".

  The precondition says, of each of the three arrays, that every element's absolute value is below +∞, the three statements
  joined by "and". On the extended reals the absolute value max(x, −x) of either infinity is +∞, which is not below +∞; so
  an element whose absolute value is below +∞ is neither infinity: it is a real.
-/
import proofs.«408902_j25056839205987_3_alg».proof.Pre_finite_inputs
import proofs.«408902_j25056839205987_3_alg».proof.Proof.Gen.Pre_finite_inputs
import proofs.«408902_j25056839205987_3_alg».proof.Proof.Spec
import Idealize.ShloMosaic.Lib.ReduceAll
import Idealize.ShloMosaic.Lib.ValueIdx
import Idealize.ShloMosaic.PureOps.Ideal.Laws

noncomputable section

namespace Cert.Spec

open Idealize.ShloMosaic Idealize.ShloMosaic.ValueIdx

namespace FiniteInputs

/-- The single-precision word with all exponent bits set and no fraction bit is +∞. -/
theorem posInf_eq_top : Ideal.ofBits .f32 0x7F800000#32 = (⊤ : EReal) := by
  simp [Ideal.ofBits, Ideal.ieee]

/-- An extended real whose absolute value max(x, −x) is below +∞ is neither infinity. -/
theorem real_of_abs_lt_top (x : EReal) (h : max x (-x) < ⊤) : x ≠ ⊤ ∧ x ≠ ⊥ := by
  constructor
  · rintro rfl
    simp at h
  · rintro rfl
    simp at h

/-- One element: when the comparison "|x| < +∞" gives the bit 1, x is a real. -/
theorem real_of_bit (x : EReal)
    (h : FloatOps.cmpf (F := Ideal) (φ := .f32) .olt (FloatOps.hostAbsf (F := Ideal) (φ := .f32) x)
      (Ideal.ofBits .f32 0x7F800000#32) = 1#1) : x ≠ ⊤ ∧ x ≠ ⊥ := by
  rw [Ideal.hostAbsf_def, Ideal.absf_def, Ideal.cmpf_def, posInf_eq_top] at h
  refine real_of_abs_lt_top x ?_
  by_contra hn
  simp [Ideal.cmp, hn] at h

/-- One array: when the "and" over all elements of "|x| < +∞" is 1, every entry is a real. -/
theorem finite_of_all [hP : Cert.Pre_finite_inputs.Facts] (X : Arr)
    (h : Host.reduce IntOp.andi
        (cmpf .olt (Host.absf (F := Ideal) (φ := .f32) X)
          (broadcastInDim Cert.Pre_finite_inputs.S16777216 ![] hP.bcast_S_S16777216
            (constant (F := Ideal) Cert.Pre_finite_inputs.S_ .f32 0x7F800000#32)))
        (constantI Cert.Pre_finite_inputs.S_ 1 1#1) hP.reducesTo_S16777216_S_d0 hP.h_S_ ix0 = 1#1) : Finite X := by
  -- the scalar shape has one index
  haveI : Subsingleton Cert.Pre_finite_inputs.S_.Idx := ⟨fun a b => funext fun d => d.elim0⟩
  intro i
  have e := Host.reduce_andi_all _ _ _ _ _ h i
  exact real_of_bit (X i) e

end FiniteInputs

/-- The precondition makes each of the three arrays finite: every entry is a real. -/
theorem finite_of_pre [hP : Cert.Pre_finite_inputs.Facts] (X T W : Arr)
    (h : Cert.Pre_finite_inputs.fn (F := Ideal) X T W = (fun _ => 1#1)) : Finite X ∧ Finite T ∧ Finite W := by
  have h0 := congrFun h ix0
  dsimp only [Cert.Pre_finite_inputs.fn] at h0
  obtain ⟨h12, h3⟩ := IntOp.andi_eq_one.1 h0
  obtain ⟨h1, h2⟩ := IntOp.andi_eq_one.1 h12
  exact ⟨FiniteInputs.finite_of_all X h1, FiniteInputs.finite_of_all T h2, FiniteInputs.finite_of_all W h3⟩

end Cert.Spec

end
-- ==== Proof.lean ====
/-
  The certificate of the fused gradient-harmonised loss kernel against its reference.

  The three frames: the two kernel programs' by the same argument at either float instance (the body's run in each of
  its three cases, the accumulator carried through the region's invariant, the launch theorem around the region); the
  reference's is its run with the result dropped. The idealization rewrote nothing, so `preserves` is trivial.
  The algebraic claim: at the ideal instance the kernel's program ends at the loss arithmetic on the 24 grand totals of
  its cumulative-threshold rows, the reference's at its per-element binned formula; for finite inputs (the precondition)
  every quantity is real, an element lies in bin k exactly when its scaled magnitude is at least k and below k + 1, so
  differencing the cumulative totals gives the reference's per-bin counts and loss sums, and the two results agree.
-/
import proofs.«408902_j25056839205987_3_alg».proof.Defs
import proofs.«408902_j25056839205987_3_alg».proof.Proof.Gen.Kernel
import proofs.«408902_j25056839205987_3_alg».proof.Proof.Gen.KernelIdeal
import proofs.«408902_j25056839205987_3_alg».proof.Proof.Gen.ReferenceIdeal
import proofs.«408902_j25056839205987_3_alg».proof.Proof.Gen.Pre_finite_inputs
import proofs.«408902_j25056839205987_3_alg».proof.Proof.Kernel.Frame
import proofs.«408902_j25056839205987_3_alg».proof.Proof.KernelIdeal.KRun
import proofs.«408902_j25056839205987_3_alg».proof.Proof.RefRead
import proofs.«408902_j25056839205987_3_alg».proof.Proof.RefValue
import proofs.«408902_j25056839205987_3_alg».proof.Proof.Bridge
import proofs.«408902_j25056839205987_3_alg».proof.Proof.FiniteInputs
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both programs end at the same extended real: the kernel's arithmetic on its grand totals is the reference's
    formula on finite inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (fun _ => Cert.Spec.kernelFn (Cert.KernelIdeal.Val.argX m c) (Cert.KernelIdeal.Val.argT m c) (Cert.KernelIdeal.Val.argW m c)),
    Cert.KernelIdeal.Val.run_value m ρ, ?_⟩
  refine (θ_run Cert.ReferenceIdeal.defs _ _).mono (fun _ h c => ⟨(h c).1.trans ?_, (h c).2⟩)
    (Cert.ReferenceIdeal.ValueP.run (F := Ideal) m' ρ')
  obtain ⟨hX, hT, hW⟩ := Cert.Spec.finite_of_pre (hP := Cert.Pre_finite_inputs.Gen.facts) _ _ _ (hpre c)
  have e1 := Cert.ReferenceIdeal.ReadP.val_main_v49_eq (F := Ideal) m' c
  have e2 := Cert.ReferenceIdeal.RefValue.ref_value
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
  refine e1.trans (e2.trans ?_)
  have hx : m' ((c.tc : Thread Cert.ReferenceIdeal.nD Cert.ReferenceIdeal.τ).loc Cert.ReferenceIdeal.main_arg0) = Cert.KernelIdeal.Val.argX m c := (hagree c).1
  have ht : m' ((c.tc : Thread Cert.ReferenceIdeal.nD Cert.ReferenceIdeal.τ).loc Cert.ReferenceIdeal.main_arg1) = Cert.KernelIdeal.Val.argT m c := (hagree c).2.1
  have hw : m' ((c.tc : Thread Cert.ReferenceIdeal.nD Cert.ReferenceIdeal.τ).loc Cert.ReferenceIdeal.main_arg2) = Cert.KernelIdeal.Val.argW m c := (hagree c).2.2
  funext _
  rw [hx, ht, hw]
  exact (Cert.Spec.kernelFn_eq_refFn _ _ _ hX hT hW).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
